-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S2x1600000 : S_.BroadcastsInDim S2x1600000 (![] : Fin 0 → Fin S2x1600000.rank)
  reducesTo_S2x1600000_S_d0_1 : S2x1600000.ReducesTo [0, 1] S_

variable [Facts]

def fn_part2 {F : FTy → Type} [FloatOps F] (main_arg1 : IVec S2x1600000 32) (main_arg8 : FVec F S64 .f32) (main_arg9 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_c_16 : IVec S_ 32 := constantI S_ 32 0#32
  let main_v44 : IVec S2x1600000 32 := broadcastInDim S2x1600000 ![] bcast_S_S2x1600000 main_c_16
  let main_v45 : IVec S2x1600000 1 := cmpi .sge main_arg1 main_v44
  let main_c_17 : IVec S_ 32 := constantI S_ 32 50000#32
  let main_v46 : IVec S2x1600000 32 := broadcastInDim S2x1600000 ![] bcast_S_S2x1600000 main_c_17
  let main_v47 : IVec S2x1600000 1 := cmpi .slt main_arg1 main_v46
  let main_v48 : IVec S2x1600000 1 := andi main_v45 main_v47
  let main_c_18 : IVec S_ 1 := constantI S_ 1 1#1
  let main_v49 : IVec S_ 1 := (fun x v => Host.reduce IntOp.andi x v reducesTo_S2x1600000_S_d0_1 h_S_) main_v48 main_c_18
  let main_v50 : IVec S_ 1 := andi main_v43 main_v49
  main_v50

def fn_part1 {F : FTy → Type} [FloatOps F] (main_arg1 : IVec S2x1600000 32) (main_arg5 : FVec F S64 .f32) (main_arg6 : FVec F S64x64 .f32) (main_arg7 : FVec F S64 .f32) (main_arg8 : FVec F S64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_v33

def fn {F : FTy → Type} [FloatOps F] (main_arg0 : FVec F S50000x64 .f32) (main_arg1 : IVec S2x1600000 32) (main_arg2 : FVec F S128x64 .f32) (main_arg3 : FVec F S64 .f32) (main_arg4 : FVec F S64 .f32) (main_arg5 : FVec F S64 .f32) (main_arg6 : FVec F S64x64 .f32) (main_arg7 : FVec F S64 .f32) (main_arg8 : FVec F S64 .f32) (main_arg9 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg5 main_arg6 main_arg7 main_arg8 main_arg9 main_v13 main_v16
-- ==== Kernel.lean ====
abbrev S50000x64 : Shape := ⟨2, ![50000, 64]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S1600000x128 : Shape := ⟨2, ![1600000, 128]⟩
abbrev S1x64 : Shape := ⟨2, ![1, 64]⟩
abbrev S2x1x64 : Shape := ⟨3, ![2, 1, 64]⟩
abbrev S16000x128 : Shape := ⟨2, ![16000, 128]⟩
abbrev S16000x64 : Shape := ⟨2, ![16000, 64]⟩
abbrev S1x1x64 : Shape := ⟨3, ![1, 1, 64]⟩
abbrev S50000 : Shape := ⟨1, ![50000]⟩
abbrev S50000x1 : Shape := ⟨2, ![50000, 1]⟩

abbrev nBuf : Space → Nat
  | .hbm => 123
  | .vmem => 36
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1, .i32⟩
  | .hbm, ⟨23, _⟩ => ⟨S_, .i32⟩
  | .hbm, ⟨24, _⟩ => ⟨S1600000x1, .i32⟩
  | .hbm, ⟨25, _⟩ => ⟨S1600000x1, .i1⟩
  | .hbm, ⟨26, _⟩ => ⟨S1x1, .i32⟩
  | .hbm, ⟨27, _⟩ => ⟨S1600000x1, .i32⟩
  | .hbm, ⟨28, _⟩ => ⟨S1600000x1, .i1⟩
  | .hbm, ⟨29, _⟩ => ⟨S1600000x1, .i1⟩
  | .hbm, ⟨30, _⟩ => ⟨S_, .i1⟩
  | .hbm, ⟨31, _⟩ => ⟨S1600000, .i1⟩
  | .hbm, ⟨32, _⟩ => ⟨S1600000x64, .f32⟩
  | .hbm, ⟨33, _⟩ => ⟨S1600000x64, .i1⟩
  | .hbm, ⟨34, _⟩ => ⟨S_, .f32⟩
  | .hbm, ⟨35, _⟩ => ⟨S1600000x64, .f32⟩
  | .hbm, ⟨36, _⟩ => ⟨S1600000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1, .i32⟩
  | .hbm, ⟨46, _⟩ => ⟨S_, .i32⟩
  | .hbm, ⟨47, _⟩ => ⟨S1600000x1, .i32⟩
  | .hbm, ⟨48, _⟩ => ⟨S1600000x1, .i1⟩
  | .hbm, ⟨49, _⟩ => ⟨S1x1, .i32⟩
  | .hbm, ⟨50, _⟩ => ⟨S1600000x1, .i32⟩
  | .hbm, ⟨51, _⟩ => ⟨S1600000x1, .i1⟩
  | .hbm, ⟨52, _⟩ => ⟨S1600000x1, .i1⟩
  | .hbm, ⟨53, _⟩ => ⟨S_, .i1⟩
  | .hbm, ⟨54, _⟩ => ⟨S1600000, .i1⟩
  | .hbm, ⟨55, _⟩ => ⟨S1600000x64, .f32⟩
  | .hbm, ⟨56, _⟩ => ⟨S1600000x64, .i1⟩
  | .hbm, ⟨57, _⟩ => ⟨S_, .f32⟩
  | .hbm, ⟨58, _⟩ => ⟨S1600000x64, .f32⟩
  | .hbm, ⟨59, _⟩ => ⟨S1600000x64, .f32⟩
  | .hbm, ⟨60, _⟩ => ⟨S1600000x64, .f32⟩
  | .hbm, ⟨61, _⟩ => ⟨S1600000x128, .f32⟩
  | .hbm, ⟨62, _⟩ => ⟨S1600000x128, .bf16⟩
  | .hbm, ⟨63, _⟩ => ⟨S128x64, .bf16⟩
  | .hbm, ⟨64, _⟩ => ⟨S64x64, .bf16⟩
  | .hbm, ⟨65, _⟩ => ⟨S1x64, .f32⟩
  | .hbm, ⟨66, _⟩ => ⟨S1x64, .f32⟩
  | .hbm, ⟨67, _⟩ => ⟨S1x64, .f32⟩
  | .hbm, ⟨68, _⟩ => ⟨S1x64, .f32⟩
  | .hbm, ⟨69, _⟩ => ⟨S1x64, .f32⟩
  | .hbm, ⟨70, _⟩ => ⟨S1x64, .f32⟩
  | .hbm, ⟨71, _⟩ => ⟨S1600000x64, .bf16⟩
  | .hbm, ⟨72, _⟩ => ⟨S2x1x64, .f32⟩
  | .hbm, ⟨73, _⟩ => ⟨S2x1x64, .f32⟩
  | .hbm, ⟨74, _⟩ => ⟨S_, .f32⟩
  | .hbm, ⟨75, _⟩ => ⟨S1x64, .f32⟩
  | .hbm, ⟨76, _⟩ => ⟨S_, .f32⟩
  | .hbm, ⟨77, _⟩ => ⟨S1x64, .f32⟩
  | .hbm, ⟨78, _⟩ => ⟨S1x64, .f32⟩
  | .hbm, ⟨79, _⟩ => ⟨S_, .f32⟩
  | .hbm, ⟨80, _⟩ => ⟨S1x64, .f32⟩
  | .hbm, ⟨81, _⟩ => ⟨S_, .f32⟩
  | .hbm, ⟨82, _⟩ => ⟨S1x64, .f32⟩
  | .hbm, ⟨83, _⟩ => ⟨S1x64, .f32⟩
  | .hbm, ⟨84, _⟩ => ⟨S1x64, .f32⟩
  | .hbm, ⟨85, _⟩ => ⟨S1x64, .f32⟩
  | .hbm, ⟨86, _⟩ => ⟨S_, .f32⟩
  | .hbm, ⟨87, _⟩ => ⟨S1x64, .f32⟩
  | .hbm, ⟨88, _⟩ => ⟨S1x64, .f32⟩
  | .hbm, ⟨89, _⟩ => ⟨S2x1x64, .f32⟩
  | .hbm, ⟨90, _⟩ => ⟨S2x1x64, .f32⟩
  | .hbm, ⟨91, _⟩ => ⟨S_, .f32⟩
  | .hbm, ⟨92, _⟩ => ⟨S1x64, .f32⟩
  | .hbm, ⟨93, _⟩ => ⟨S_, .f32⟩
  | .hbm, ⟨94, _⟩ => ⟨S1x64, .f32⟩
  | .hbm, ⟨95, _⟩ => ⟨S1x64, .f32⟩
  | .hbm, ⟨96, _⟩ => ⟨S_, .f32⟩
  | .hbm, ⟨97, _⟩ => ⟨S1x64, .f32⟩
  | .hbm, ⟨98, _⟩ => ⟨S_, .f32⟩
  | .hbm, ⟨99, _⟩ => ⟨S1x64, .f32⟩
  | .hbm, ⟨100, _⟩ => ⟨S1x64, .f32⟩
  | .hbm, ⟨101, _⟩ => ⟨S1x64, .f32⟩
  | .hbm, ⟨102, _⟩ => ⟨S1x64, .f32⟩
  | .hbm, ⟨103, _⟩ => ⟨S_, .f32⟩
  | .hbm, ⟨104, _⟩ => ⟨S1x64, .f32⟩
  | .hbm, ⟨105, _⟩ => ⟨S1x64, .f32⟩
  | .hbm, ⟨106, _⟩ => ⟨S1600000x64, .f32⟩
  | .hbm, ⟨107, _⟩ => ⟨S_, .f32⟩
  | .hbm, ⟨108, _⟩ => ⟨S50000x64, .f32⟩
  | .hbm, ⟨109, _⟩ => ⟨S1600000x1, .i32⟩
  | .hbm, ⟨110, _⟩ => ⟨S50000x64, .f32⟩
  | .hbm, ⟨111, _⟩ => ⟨S_, .f32⟩
  | .hbm, ⟨112, _⟩ => ⟨S1600000, .f32⟩
  | .hbm, ⟨113, _⟩ => ⟨S_, .f32⟩
  | .hbm, ⟨114, _⟩ => ⟨S50000, .f32⟩
  | .hbm, ⟨115, _⟩ => ⟨S1600000x1, .i32⟩
  | .hbm, ⟨116, _⟩ => ⟨S50000, .f32⟩
  | .hbm, ⟨117, _⟩ => ⟨S_, .f32⟩
  | .hbm, ⟨118, _⟩ => ⟨S50000, .f32⟩
  | .hbm, ⟨119, _⟩ => ⟨S50000, .f32⟩
  | .hbm, ⟨120, _⟩ => ⟨S50000x1, .f32⟩
  | .hbm, ⟨121, _⟩ => ⟨S50000x64, .f32⟩
  | .hbm, ⟨122, _⟩ => ⟨S50000x64, .f32⟩
  | .local _ .vmem, ⟨0, _⟩ => ⟨S16000x128, .bf16⟩
  | .local _ .vmem, ⟨1, _⟩ => ⟨S16000x128, .bf16⟩
  | .local _ .vmem, ⟨2, _⟩ => ⟨S128x64, .bf16⟩
  | .local _ .vmem, ⟨3, _⟩ => ⟨S1x64, .f32⟩
  | .local _ .vmem, ⟨4, _⟩ => ⟨S16000x64, .bf16⟩
  | .local _ .vmem, ⟨5, _⟩ => ⟨S16000x64, .bf16⟩
  | .local _ .vmem, ⟨6, _⟩ => ⟨S1x1x64, .f32⟩
  | .local _ .vmem, ⟨7, _⟩ => ⟨S1x1x64, .f32⟩
  | .local _ .vmem, ⟨8, _⟩ => ⟨S1x1x64, .f32⟩
  | .local _ .vmem, ⟨9, _⟩ => ⟨S1x1x64, .f32⟩
  | .local _ .vmem, ⟨10, _⟩ => ⟨S16000x64, .bf16⟩
  | .local _ .vmem, ⟨11, _⟩ => ⟨S16000x64, .bf16⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S64x64, .bf16⟩
  | .local _ .vmem, ⟨17, _⟩ => ⟨S1x64, .f32⟩
  | .local _ .vmem, ⟨18, _⟩ => ⟨S1x1x64, .f32⟩
  | .local _ .vmem, ⟨19, _⟩ => ⟨S1x1x64, .f32⟩
  | .local _ .vmem, ⟨20, _⟩ => ⟨S1x1x64, .f32⟩
  | .local _ .vmem, ⟨21, _⟩ => ⟨S1x1x64, .f32⟩
  | .local _ .vmem, ⟨22, _⟩ => ⟨S16000x64, .bf16⟩
  | .local _ .vmem, ⟨23, _⟩ => ⟨S16000x64, .bf16⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S64x64, .bf16⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S16000x64, .f32⟩
  | .local _ .vmem, ⟨35, _⟩ => ⟨S16000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17_0 : Ref sig .tc := ⟨.hbm, 71, rfl⟩
abbrev main_v17_1 : Ref sig .tc := ⟨.hbm, 72, rfl⟩
abbrev main_v17_2 : Ref sig .tc := ⟨.hbm, 73, rfl⟩
abbrev main_cst : Ref sig .tc := ⟨.hbm, 74, rfl⟩
abbrev main_v18 : Ref sig .tc := ⟨.hbm, 75, rfl⟩
abbrev main_cst_0 : Ref sig .tc := ⟨.hbm, 76, rfl⟩
abbrev main_v19 : Ref sig .tc := ⟨.hbm, 77, rfl⟩
abbrev main_v20 : Ref sig .tc := ⟨.hbm, 78, rfl⟩
abbrev main_cst_1 : Ref sig .tc := ⟨.hbm, 79, rfl⟩
abbrev main_v21 : Ref sig .tc := ⟨.hbm, 80, rfl⟩
abbrev main_cst_2 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_cst_3 : Ref sig .tc := ⟨.hbm, 86, rfl⟩
abbrev main_v26 : Ref sig .tc := ⟨.hbm, 87, rfl⟩
abbrev main_v27 : Ref sig .tc := ⟨.hbm, 88, rfl⟩
abbrev main_v28_0 : Ref sig .tc := ⟨.hbm, 89, rfl⟩
abbrev main_v28_1 : Ref sig .tc := ⟨.hbm, 90, rfl⟩
abbrev main_cst_4 : Ref sig .tc := ⟨.hbm, 91, rfl⟩
abbrev main_v29 : Ref sig .tc := ⟨.hbm, 92, rfl⟩
abbrev main_cst_5 : Ref sig .tc := ⟨.hbm, 93, rfl⟩
abbrev main_v30 : Ref sig .tc := ⟨.hbm, 94, rfl⟩
abbrev main_v31 : Ref sig .tc := ⟨.hbm, 95, rfl⟩
abbrev main_cst_6 : Ref sig .tc := ⟨.hbm, 96, rfl⟩
abbrev main_v32 : Ref sig .tc := ⟨.hbm, 97, rfl⟩
abbrev main_cst_7 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_cst_8 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_cst_9 : Ref sig .tc := ⟨.hbm, 107, rfl⟩
abbrev main_v40 : Ref sig .tc := ⟨.hbm, 108, rfl⟩
abbrev main_v41 : Ref sig .tc := ⟨.hbm, 109, rfl⟩
abbrev main_v42 : Ref sig .tc := ⟨.hbm, 110, rfl⟩
abbrev main_cst_10 : Ref sig .tc := ⟨.hbm, 111, rfl⟩
abbrev main_v43 : Ref sig .tc := ⟨.hbm, 112, rfl⟩
abbrev main_cst_11 : Ref sig .tc := ⟨.hbm, 113, rfl⟩
abbrev main_v44 : Ref sig .tc := ⟨.hbm, 114, rfl⟩
abbrev main_v45 : Ref sig .tc := ⟨.hbm, 115, rfl⟩
abbrev main_v46 : Ref sig .tc := ⟨.hbm, 116, rfl⟩
abbrev main_cst_12 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg6_0 : Ref sig .tc := ⟨.vmem, 29, rfl⟩
abbrev cc2_stg7_0 : Ref sig .tc := ⟨.vmem, 30, rfl⟩
abbrev cc2_stg8_0 : Ref sig .tc := ⟨.vmem, 31, rfl⟩
abbrev cc2_stg9_0 : Ref sig .tc := ⟨.vmem, 32, rfl⟩
abbrev cc2_stg10_0 : Ref sig .tc := ⟨.vmem, 33, rfl⟩
abbrev cc2_stg11_0 : Ref sig .tc := ⟨.vmem, 34, rfl⟩
abbrev cc2_stg11_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem8_0 : DmaSem sig := 31
abbrev cc2_sem9_0 : DmaSem sig := 32
abbrev cc2_sem10_0 : DmaSem sig := 33
abbrev cc2_sem11_0 : DmaSem sig := 34
abbrev cc2_sem11_1 : DmaSem sig := 35

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S16000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![2, 50], ![false, false]⟩

def cc1_transform_0 (i : grid1.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S16000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S64x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x1x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S1x1x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16000x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S16000x64 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  concatenates_S1600000x64_S1600000x64_S1600000x128_d1 : Shape.Concatenates [S1600000x64, S1600000x64] S1600000x128 1
  bitsLt_bf16_f32 : FTy.bits .bf16 < FTy.bits .f32
  shapeCasts_S64_S1x64 : S64.ShapeCasts S1x64
  inb_S1x1x64_S1x1x64_0_0_0 : ∀ a, (![0, 0, 0] : Fin 3 → Nat) a + S1x1x64.size a ≤ S1x1x64.size a
  h_S1x1x64 : 0 < S1x1x64.numel
  inb_S16000x128_S16000x128_0_0 : ∀ a, (![0, 0] : Fin 2 → Nat) a + S16000x128.size a ≤ S16000x128.size a
  h_S16000x128 : 0 < S16000x128.numel
  shapeCasts_S16000x128_S16000x128 : S16000x128.ShapeCasts S16000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  inb_S16000x64_S16000x64_0_0 : ∀ a, (![0, 0] : Fin 2 → Nat) a + S16000x64.size a ≤ S16000x64.size a
  h_S16000x64 : 0 < S16000x64.numel
  packedbf16_S16000x64_S16000x64_0_0 : (Rect.unit (s := S16000x64) ![0, 0] S16000x64.size inb_S16000x64_S16000x64_0_0).PackedRows (EltTy.packing .bf16)
  shapeCasts_S1x1x64_S1x1x64 : S1x1x64.ShapeCasts S1x1x64
  reduces_S16000x64_S64 : S16000x64.Reduces [0] S64
  shapeCasts_S64_S1x1x64 : S64.ShapeCasts S1x1x64
  reducesTo_S2x1x64_S1x64_d0 : S2x1x64.ReducesTo [0] S1x64
  bcast_S_S1x64 : S_.BroadcastsInDim S1x64 (![] : Fin 0 → Fin S1x64.rank)
  shapeCasts_S16000x64_S16000x64 : S16000x64.ShapeCasts S16000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x64_S1600000x1_S1600000x64_1_0_n_n_0_1_164_wf : GatherDims.WF S50000x64 S1600000x1 S1600000x64 [1] [0] [] [0] [] 1 ![1, 64]
  dot_S16000x128_S128x64_S16000x64_1_0_0_1_n_n_wf : DotDims.WF S16000x128 S128x64 S16000x64 [1] [0] [0] [1] [] []
  dot_S16000x64_S64x64_S16000x64_1_0_0_1_n_n_wf : DotDims.WF S16000x64 S64x64 S16000x64 [1] [0] [0] [1] [] []
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x128.size a ≤ S1600000x128.size a
  hwx0_0 : ∀ i : grid0.Coords, EltTy.bits .bf16 = 32 ∨ (Rect.block (s := S1600000x128) S16000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .bf16 = 32 ∨ (Rect.block (s := S128x64) S128x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16000x64.size a ≤ S1600000x64.size a
  hwx0_3 : ∀ i : grid0.Coords, EltTy.bits .bf16 = 32 ∨ (Rect.block (s := S1600000x64) S16000x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S2x1x64.size a
  hwx0_4 : ∀ i : grid0.Coords, EltTy.bits .f32 = 32 ∨ (Rect.block (s := S2x1x64) S1x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S2x1x64.size a
  hwx0_5 : ∀ i : grid0.Coords, EltTy.bits .f32 = 32 ∨ (Rect.block (s := S2x1x64) S1x1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16000x64.size a ≤ S1600000x64.size a
  hwx1_0 : ∀ i : grid1.Coords, EltTy.bits .bf16 = 32 ∨ (Rect.block (s := S1600000x64) S16000x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .bf16 = 32 ∨ (Rect.block (s := S64x64) S64x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x64.size a ≤ S2x1x64.size a
  hwx1_7 : ∀ i : grid1.Coords, EltTy.bits .f32 = 32 ∨ (Rect.block (s := S2x1x64) S1x1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x64.size a ≤ S2x1x64.size a
  hwx1_8 : ∀ i : grid1.Coords, EltTy.bits .f32 = 32 ∨ (Rect.block (s := S2x1x64) S1x1x64.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16000x64.size a ≤ S1600000x64.size a
  hwx2_0 : ∀ i : grid2.Coords, EltTy.bits .bf16 = 32 ∨ (Rect.block (s := S1600000x64) S16000x64.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .bf16 = 32 ∨ (Rect.block (s := S64x64) S64x64.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x64.size a ≤ S1x64.size a
  hwx2_9 : ∀ i : grid2.Coords, EltTy.bits .f32 = 32 ∨ (Rect.block (s := S1x64) S1x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x64.size a ≤ S1x64.size a
  hwx2_10 : ∀ i : grid2.Coords, EltTy.bits .f32 = 32 ∨ (Rect.block (s := S1x64) S1x64.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S16000x64.size a ≤ S1600000x64.size a
  hwx2_11 : ∀ i : grid2.Coords, EltTy.bits .f32 = 32 ∨ (Rect.block (s := S1600000x64) S16000x64.size (cc2_transform_11 i) (hinb2_11 i)).WholeWords (EltTy.packing .f32)

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S16000x128_S128x64_S16000x64_1_0_0_1_n_n : DotDims S16000x128 S128x64 S16000x64 where
  lhsContracting := [1]
  rhsContracting := [0]
  lhsNonContracting := [0]
  rhsNonContracting := [1]
  lhsBatch := []
  rhsBatch := []
  wf := dot_S16000x128_S128x64_S16000x64_1_0_0_1_n_n_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

abbrev win0_0 : Pipeline.Window sig grid0 :=
  Pipeline.Window.ofSpec (Memref.whole main_v8) S16000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17_0) S16000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_1) S1x1x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17_2) S1x1x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17_0) S16000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v10) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28_0) S1x1x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v28_1) S1x1x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v17_0) S16000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v27) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v14) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v15) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v16) S1x64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v31) S1x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v38) S1x64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v39) S16000x64.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x128 : Shape := ⟨2, ![1600000, 128]⟩
abbrev S1x64 : Shape := ⟨2, ![1, 64]⟩
abbrev S50000 : Shape := ⟨1, ![50000]⟩
abbrev S50000x1 : Shape := ⟨2, ![50000, 1]⟩

abbrev nBuf : Space → Nat
  | .hbm => 124
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x64, .f32⟩
  | .hbm, ⟨32, _⟩ => ⟨S1600000x64, .f32⟩
  | .hbm, ⟨33, _⟩ => ⟨S1600000x128, .f32⟩
  | .hbm, ⟨34, _⟩ => ⟨S1600000x64, .f32⟩
  | .hbm, ⟨35, _⟩ => ⟨S1x64, .f32⟩
  | .hbm, ⟨36, _⟩ => ⟨S1600000x64, .f32⟩
  | .hbm, ⟨37, _⟩ => ⟨S1600000x64, .f32⟩
  | .hbm, ⟨38, _⟩ => ⟨S_, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S1x64, .f32⟩
  | .hbm, ⟨44, _⟩ => ⟨S1600000x64, .f32⟩
  | .hbm, ⟨45, _⟩ => ⟨S1600000x64, .f32⟩
  | .hbm, ⟨46, _⟩ => ⟨S1600000x64, .f32⟩
  | .hbm, ⟨47, _⟩ => ⟨S_, .f32⟩
  | .hbm, ⟨48, _⟩ => ⟨S64, .f32⟩
  | .hbm, ⟨49, _⟩ => ⟨S_, .f32⟩
  | .hbm, ⟨50, _⟩ => ⟨S64, .f32⟩
  | .hbm, ⟨51, _⟩ => ⟨S64, .f32⟩
  | .hbm, ⟨52, _⟩ => ⟨S1x64, .f32⟩
  | .hbm, ⟨53, _⟩ => ⟨S1600000x64, .f32⟩
  | .hbm, ⟨54, _⟩ => ⟨S1600000x64, .f32⟩
  | .hbm, ⟨55, _⟩ => ⟨S_, .f32⟩
  | .hbm, ⟨56, _⟩ => ⟨S64, .f32⟩
  | .hbm, ⟨57, _⟩ => ⟨S64, .f32⟩
  | .hbm, ⟨58, _⟩ => ⟨S64, .f32⟩
  | .hbm, ⟨59, _⟩ => ⟨S1x64, .f32⟩
  | .hbm, ⟨60, _⟩ => ⟨S1600000x64, .f32⟩
  | .hbm, ⟨61, _⟩ => ⟨S1600000x64, .f32⟩
  | .hbm, ⟨62, _⟩ => ⟨S1x64, .f32⟩
  | .hbm, ⟨63, _⟩ => ⟨S1600000x64, .f32⟩
  | .hbm, ⟨64, _⟩ => ⟨S1600000x64, .f32⟩
  | .hbm, ⟨65, _⟩ => ⟨S1x64, .f32⟩
  | .hbm, ⟨66, _⟩ => ⟨S1600000x64, .f32⟩
  | .hbm, ⟨67, _⟩ => ⟨S1600000x64, .f32⟩
  | .hbm, ⟨68, _⟩ => ⟨S_, .f32⟩
  | .hbm, ⟨69, _⟩ => ⟨S1600000x64, .f32⟩
  | .hbm, ⟨70, _⟩ => ⟨S1600000x64, .f32⟩
  | .hbm, ⟨71, _⟩ => ⟨S1600000x64, .f32⟩
  | .hbm, ⟨72, _⟩ => ⟨S1x64, .f32⟩
  | .hbm, ⟨73, _⟩ => ⟨S1600000x64, .f32⟩
  | .hbm, ⟨74, _⟩ => ⟨S1600000x64, .f32⟩
  | .hbm, ⟨75, _⟩ => ⟨S_, .f32⟩
  | .hbm, ⟨76, _⟩ => ⟨S64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S1x64, .f32⟩
  | .hbm, ⟨81, _⟩ => ⟨S1600000x64, .f32⟩
  | .hbm, ⟨82, _⟩ => ⟨S1600000x64, .f32⟩
  | .hbm, ⟨83, _⟩ => ⟨S1600000x64, .f32⟩
  | .hbm, ⟨84, _⟩ => ⟨S_, .f32⟩
  | .hbm, ⟨85, _⟩ => ⟨S64, .f32⟩
  | .hbm, ⟨86, _⟩ => ⟨S_, .f32⟩
  | .hbm, ⟨87, _⟩ => ⟨S64, .f32⟩
  | .hbm, ⟨88, _⟩ => ⟨S64, .f32⟩
  | .hbm, ⟨89, _⟩ => ⟨S1x64, .f32⟩
  | .hbm, ⟨90, _⟩ => ⟨S1600000x64, .f32⟩
  | .hbm, ⟨91, _⟩ => ⟨S1600000x64, .f32⟩
  | .hbm, ⟨92, _⟩ => ⟨S_, .f32⟩
  | .hbm, ⟨93, _⟩ => ⟨S64, .f32⟩
  | .hbm, ⟨94, _⟩ => ⟨S64, .f32⟩
  | .hbm, ⟨95, _⟩ => ⟨S64, .f32⟩
  | .hbm, ⟨96, _⟩ => ⟨S1x64, .f32⟩
  | .hbm, ⟨97, _⟩ => ⟨S1600000x64, .f32⟩
  | .hbm, ⟨98, _⟩ => ⟨S1600000x64, .f32⟩
  | .hbm, ⟨99, _⟩ => ⟨S1x64, .f32⟩
  | .hbm, ⟨100, _⟩ => ⟨S1600000x64, .f32⟩
  | .hbm, ⟨101, _⟩ => ⟨S1600000x64, .f32⟩
  | .hbm, ⟨102, _⟩ => ⟨S1x64, .f32⟩
  | .hbm, ⟨103, _⟩ => ⟨S1600000x64, .f32⟩
  | .hbm, ⟨104, _⟩ => ⟨S1600000x64, .f32⟩
  | .hbm, ⟨105, _⟩ => ⟨S_, .f32⟩
  | .hbm, ⟨106, _⟩ => ⟨S1600000x64, .f32⟩
  | .hbm, ⟨107, _⟩ => ⟨S1600000x64, .f32⟩
  | .hbm, ⟨108, _⟩ => ⟨S_, .f32⟩
  | .hbm, ⟨109, _⟩ => ⟨S50000x64, .f32⟩
  | .hbm, ⟨110, _⟩ => ⟨S1600000x1, .i32⟩
  | .hbm, ⟨111, _⟩ => ⟨S50000x64, .f32⟩
  | .hbm, ⟨112, _⟩ => ⟨S_, .f32⟩
  | .hbm, ⟨113, _⟩ => ⟨S1600000, .f32⟩
  | .hbm, ⟨114, _⟩ => ⟨S_, .f32⟩
  | .hbm, ⟨115, _⟩ => ⟨S50000, .f32⟩
  | .hbm, ⟨116, _⟩ => ⟨S1600000x1, .i32⟩
  | .hbm, ⟨117, _⟩ => ⟨S50000, .f32⟩
  | .hbm, ⟨118, _⟩ => ⟨S_, .f32⟩
  | .hbm, ⟨119, _⟩ => ⟨S50000, .f32⟩
  | .hbm, ⟨120, _⟩ => ⟨S50000, .f32⟩
  | .hbm, ⟨121, _⟩ => ⟨S50000x1, .f32⟩
  | .hbm, ⟨122, _⟩ => ⟨S50000x64, .f32⟩
  | .hbm, ⟨123, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_call0_cst : Ref sig .tc := ⟨.hbm, 68, rfl⟩
abbrev main_call0_v0 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_7 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_9 : Ref sig .tc := ⟨.hbm, 84, rfl⟩
abbrev main_v61 : Ref sig .tc := ⟨.hbm, 85, rfl⟩
abbrev main_cst_10 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_call1_cst : Ref sig .tc := ⟨.hbm, 105, rfl⟩
abbrev main_call1_v0 : Ref sig .tc := ⟨.hbm, 106, rfl⟩
abbrev main_v79 : Ref sig .tc := ⟨.hbm, 107, rfl⟩
abbrev main_cst_12 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_cst_13 : Ref sig .tc := ⟨.hbm, 112, rfl⟩
abbrev main_v83 : Ref sig .tc := ⟨.hbm, 113, rfl⟩
abbrev main_cst_14 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_15 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  reducesTo_S1600000x64_S64_d0 : S1600000x64.ReducesTo [0] S64
  h_S_ : 0 < S_.numel
  bcast_S_S64 : S_.BroadcastsInDim S64 (![] : Fin 0 → Fin S64.rank)
  bcast_S_S1600000x64 : S_.BroadcastsInDim S1600000x64 (![] : Fin 0 → Fin S1600000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  gather_S50000x64_S1600000x1_S1600000x64_1_0_n_n_0_1_164_wf : GatherDims.WF S50000x64 S1600000x1 S1600000x64 [1] [0] [] [0] [] 1 ![1, 64]
  dot_S1600000x128_S128x64_S1600000x64_1_0_0_1_n_n_wf : DotDims.WF S1600000x128 S128x64 S1600000x64 [1] [0] [0] [1] [] []
  dot_S1600000x64_S64x64_S1600000x64_1_0_0_1_n_n_wf : DotDims.WF S1600000x64 S64x64 S1600000x64 [1] [0] [0] [1] [] []
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf

class Facts : Prop extends Facts₀ where

variable [Facts]
-- ==== Proof.Spec.lean ====
/-
  The mathematics both programs compute, as functions of plain index types over the extended reals.

  An edge e has a source node s e and a target node d e.  Its input row is the target's features followed by the
  difference of the source's and the target's features (`h0`).  Two affine layers follow, each normalised per
  column over ALL edges (batch mean and biased batch variance), scaled, shifted and clipped below at zero
  (`bnrelu`).  The two programs differ only in how a column's mean and variance are obtained:

  * one program sums each column, and each column's squares, separately over the two halves of the edge range
    (each half as 50 consecutive blocks of 16000 rows), adds the halves, divides by the edge count, and takes
    the variance as  mean of squares − square of mean,  floored at zero  (`meanK`, `varK`);
  * the other sums each column over all edges, divides by the edge count, and takes the variance as the mean of
    the squared deviations from that mean  (`meanR`, `varR`).

  On finite entries the two agree: the regrouping of a finite sum, the identity
  (1/n) Σ hₑ² − ((1/n) Σ hₑ)² = (1/n) Σ (hₑ − (1/n) Σ hₑ)²,  and the right-hand side being non-negative.
-/
import Idealize.ShloMosaic.PureOps.Ideal
import Idealize.ShloMosaic.Lib.ValueIdx

noncomputable section

open scoped BigOperators

namespace Cert.Spec

open Idealize.ShloMosaic

/-- The number of edges. -/
abbrev NE : Nat := 1600000
/-- The number of nodes. -/
abbrev NV : Nat := 50000

/-- The edge count as an extended real: the divisor of every batch mean. -/
def cnt : EReal := ((1600000 : ℝ) : EReal)

/-- The variance floor added before the inverse square root: one binary32 word, the same in both programs. -/
def eps : EReal := Ideal.ofBits .f32 0x3727C5AC#32

/-- Edge `e`'s input row: the target node's 64 features, then source minus target, feature by feature. -/
def h0 (x : Fin NV → Fin 64 → EReal) (s d : Fin NE → Fin NV) (e : Fin NE) (k : Fin 128) : EReal :=
  if h : k.val < 64 then x (d e) ⟨k.val, h⟩
  else x (s e) ⟨k.val - 64, by omega⟩ - x (d e) ⟨k.val - 64, by omega⟩

/-- An affine layer, row by row: `(a · w) e o + b o`. -/
def lin {K : Nat} (a : Fin NE → Fin K → EReal) (w : Fin K → Fin 64 → EReal) (b : Fin 64 → EReal)
    (e : Fin NE) (o : Fin 64) : EReal :=
  (∑ k : Fin K, a e k * w k o) + b o

/-- Row `r` of block `i` of half `p` of the edge range: halves of 800000 rows, blocks of 16000. -/
def row (p : Fin 2) (i : Fin 50) (r : Fin 16000) : Fin NE :=
  ⟨(p.val * 50 + i.val) * 16000 + r.val, by
    have hp := p.isLt; have hi := i.isLt; have hr := r.isLt
    show (p.val * 50 + i.val) * 16000 + r.val < 1600000
    omega⟩

/-- Column `o` summed over half `p` of the edges, block by block. -/
def halfSum (h : Fin NE → Fin 64 → EReal) (p : Fin 2) (o : Fin 64) : EReal :=
  ∑ i : Fin 50, ∑ r : Fin 16000, h (row p i r) o

/-- Column `o`'s squares summed over half `p` of the edges, block by block. -/
def halfSumSq (h : Fin NE → Fin 64 → EReal) (p : Fin 2) (o : Fin 64) : EReal :=
  ∑ i : Fin 50, ∑ r : Fin 16000, h (row p i r) o * h (row p i r) o

/-- A column's mean from its two half sums. -/
def meanK (s : Fin 2 → Fin 64 → EReal) (o : Fin 64) : EReal :=
  Ideal.div (s 0 o + s 1 o) cnt

/-- A column's variance from its two half sums `s` and half sums of squares `q`: mean of squares minus square of
    mean, floored at zero. -/
def varK (s q : Fin 2 → Fin 64 → EReal) (o : Fin 64) : EReal :=
  max (Ideal.div (q 0 o + q 1 o) cnt - meanK s o * meanK s o) 0

/-- A column's mean over all edges. -/
def meanR (h : Fin NE → Fin 64 → EReal) (o : Fin 64) : EReal :=
  Ideal.div (∑ e : Fin NE, h e o) cnt

/-- A column's biased variance over all edges: the mean squared deviation from the column's mean. -/
def varR (h : Fin NE → Fin 64 → EReal) (o : Fin 64) : EReal :=
  Ideal.div (∑ e : Fin NE, (h e o - meanR h o) * (h e o - meanR h o)) cnt

/-- Normalise column by column with a given mean and variance, scale by `g`, shift by `beta`, clip below at 0. -/
def bnrelu (h : Fin NE → Fin 64 → EReal) (mu var g beta : Fin 64 → EReal) (e : Fin NE) (o : Fin 64) : EReal :=
  max ((h e o - mu o) * Ideal.rsqrt (var o + eps) * g o + beta o) 0

section Net

variable (a : Fin NE → Fin 128 → EReal) (w1 : Fin 128 → Fin 64 → EReal) (b1 g1 be1 : Fin 64 → EReal)
  (w2 : Fin 64 → Fin 64 → EReal) (b2 g2 be2 : Fin 64 → EReal)

/-- The first layer's activations under the half-sum statistics. -/
def hn1K : Fin NE → Fin 64 → EReal :=
  bnrelu (lin a w1 b1) (meanK (halfSum (lin a w1 b1))) (varK (halfSum (lin a w1 b1)) (halfSumSq (lin a w1 b1))) g1 be1

/-- The second layer's activations under the half-sum statistics. -/
def hn2K : Fin NE → Fin 64 → EReal :=
  bnrelu (lin (hn1K a w1 b1 g1 be1) w2 b2)
    (meanK (halfSum (lin (hn1K a w1 b1 g1 be1) w2 b2)))
    (varK (halfSum (lin (hn1K a w1 b1 g1 be1) w2 b2)) (halfSumSq (lin (hn1K a w1 b1 g1 be1) w2 b2))) g2 be2

/-- The first layer's activations under the whole-column statistics. -/
def hn1R : Fin NE → Fin 64 → EReal :=
  bnrelu (lin a w1 b1) (meanR (lin a w1 b1)) (varR (lin a w1 b1)) g1 be1

/-- The second layer's activations under the whole-column statistics. -/
def hn2R : Fin NE → Fin 64 → EReal :=
  bnrelu (lin (hn1R a w1 b1 g1 be1) w2 b2) (meanR (lin (hn1R a w1 b1 g1 be1) w2 b2))
    (varR (lin (hn1R a w1 b1 g1 be1) w2 b2)) g2 be2

end Net

/-- Every entry is a real number. -/
def Fin2 {A B : Type} (f : A → B → EReal) : Prop := ∀ i j, ∃ r : ℝ, f i j = (r : EReal)
/-- Every entry is a real number. -/
def Fin1 {A : Type} (f : A → EReal) : Prop := ∀ i, ∃ r : ℝ, f i = (r : EReal)

end Cert.Spec

end
-- ==== Proof.Inputs.lean ====
/-
  The arguments as plain functions: a rank-2 array as a function of its two coordinates, a rank-1 array of its one,
  and the edge array's two rows as maps from edges to nodes, every entry being a node number below 50000.
-/
import proofs.«401892_j53961969107163_2_alg».proof.Proof.Spec

noncomputable section

namespace Cert.Inputs

open Idealize.ShloMosaic Idealize.ShloMosaic.ValueIdx Cert.Spec

/-- A rank-2 array by its coordinates. -/
def M2 {A B : Nat} (a : (⟨2, ![A, B]⟩ : Shape).Idx → EReal) : Fin A → Fin B → EReal := fun i j => a (ix2 i j)

/-- A rank-1 array by its coordinate. -/
def M1 {A : Nat} (a : (⟨1, ![A]⟩ : Shape).Idx → EReal) : Fin A → EReal := fun i => a (ix1 i)

/-- Row `r` of the edge array as a map from edges to nodes (row 0: sources, row 1: targets). -/
def nodeOf (a1 : (⟨2, ![2, 1600000]⟩ : Shape).Idx → BitVec 32) (h : ∀ i, (a1 i).toNat < 50000) (r : Fin 2) :
    Fin NE → Fin NV := fun e => ⟨(a1 (ix2 r e)).toNat, h _⟩

/-- Every edge's input row, from the node features and the edge array. -/
def rows (a0 : (⟨2, ![50000, 64]⟩ : Shape).Idx → EReal) (a1 : (⟨2, ![2, 1600000]⟩ : Shape).Idx → BitVec 32)
    (h : ∀ i, (a1 i).toNat < 50000) : Fin NE → Fin 128 → EReal :=
  h0 (M2 a0) (nodeOf a1 h 0) (nodeOf a1 h 1)

end Cert.Inputs

end
-- ==== Proof.Consts.lean ====
/-
  The binary32 words both programs spell, as the extended reals they denote: zero, one, the edge count 1600000
  (exactly representable: 3125 · 2⁹), the variance floor (10995116 · 2⁻⁴⁰, a positive real a little under 10⁻⁵)
  and the pattern of +∞ that the finiteness test compares against.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_cnt : Ideal.ofBits .f32 0x49C35000#32 = ((1600000 : ℝ) : EReal) := by
  simp [Ideal.ofBits, Ideal.ieee, -EReal.coe_mul]; norm_num

theorem ofBits_eps : Ideal.ofBits .f32 0x3727C5AC#32 = ((10995116 / 1099511627776 : ℝ) : EReal) := by
  simp [Ideal.ofBits, Ideal.ieee, -EReal.coe_mul]; norm_num

theorem ofBits_inf : Ideal.ofBits .f32 0x7F800000#32 = (⊤ : EReal) := by
  simp [Ideal.ofBits, Ideal.ieee]

end Cert.Consts

end
-- ==== Proof.Algebra.lean ====
/-
  The two ways of obtaining a column's batch statistics agree on finite columns, and with them the two networks.

  For a column h of n = 1600000 real numbers with mean μ = (1/n) Σ hₑ:
    * the column's sum over all edges is the sum of its two half sums, each taken block by block
      (the blocks partition the edge range);
    * (1/n) Σ hₑ² − μ² = (1/n) Σ (hₑ − μ)², and the right-hand side is ≥ 0, so flooring the left at 0 changes nothing.
  Every intermediate stays a real number: an affine image of reals is real, and the normalisation divides by
  the square root of a variance ≥ 0 plus a positive constant.
-/
import proofs.«401892_j53961969107163_2_alg».proof.Proof.Spec
import proofs.«401892_j53961969107163_2_alg».proof.Proof.Consts
import Mathlib.Algebra.BigOperators.Fin
import Mathlib.Algebra.BigOperators.Group.Finset.Basic
import Mathlib.Algebra.BigOperators.Ring.Finset
import Mathlib.Algebra.Order.BigOperators.Group.Finset
import Mathlib.Data.Fintype.BigOperators
import Mathlib.Data.EReal.Operations
import Mathlib.Tactic.FieldSimp
import Mathlib.Tactic.Ring
import Mathlib.Tactic.Linarith
import Mathlib.Tactic.Positivity
import Mathlib.Tactic.NormNum

noncomputable section

open scoped BigOperators

namespace Cert.Algebra

open Idealize.ShloMosaic Cert.Spec

/-! ### Real numbers inside the extended reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The coercion is monotone, so it commutes with the maximum of two reals. -/
theorem coe_max (x y : ℝ) : ((max x y : ℝ) : EReal) = max (x : EReal) (y : EReal) :=
  EReal.coe_strictMono.monotone.map_max

/-- Division by the edge count is multiplication by its reciprocal. -/
theorem div_cnt (x : EReal) : Ideal.div x cnt = x * ((1 / 1600000 : ℝ) : EReal) := by
  unfold cnt
  exact Ideal.div_coe (by norm_num) x

/-- The variance floor is a positive real. -/
theorem eps_pos : ∃ ε : ℝ, 0 < ε ∧ eps = (ε : EReal) :=
  ⟨10995116 / 1099511627776, by norm_num, by unfold eps; exact Cert.Consts.ofBits_eps⟩

/-- At a positive real the inverse square root is the reciprocal of the real square root. -/
theorem rsqrt_pos_coe {v : ℝ} (hv : 0 < v) :
    Ideal.rsqrt (v : EReal) = (((Real.sqrt v)⁻¹ : ℝ) : EReal) := by
  rw [Ideal.rsqrt_coe, if_neg (not_lt.mpr hv.le), if_neg hv.ne']

/-! ### The blocks of the two halves partition the edge range -/

/-- Half `p`, block `i`, row `r` ↦ edge `(50 p + i) · 16000 + r` is a bijection onto the edge range:
    the inverse reads off the half, the block within the half and the row within the block by division
    with remainder. -/
def rowEquiv : Fin 2 × Fin 50 × Fin 16000 ≃ Fin NE where
  toFun t := row t.1 t.2.1 t.2.2
  invFun e :=
    (⟨e.val / 800000, by have h : e.val < 1600000 := e.isLt; omega⟩,
     ⟨e.val / 16000 % 50, Nat.mod_lt _ (by norm_num)⟩,
     ⟨e.val % 16000, Nat.mod_lt _ (by norm_num)⟩)
  left_inv := by
    rintro ⟨p, i, r⟩
    have hp := p.isLt
    have hi := i.isLt
    have hr := r.isLt
    refine Prod.ext (Fin.ext ?_) (Prod.ext (Fin.ext ?_) (Fin.ext ?_))
    · show ((p.val * 50 + i.val) * 16000 + r.val) / 800000 = p.val
      omega
    · show ((p.val * 50 + i.val) * 16000 + r.val) / 16000 % 50 = i.val
      omega
    · show ((p.val * 50 + i.val) * 16000 + r.val) % 16000 = r.val
      omega
  right_inv := by
    intro e
    have h : e.val < 1600000 := e.isLt
    apply Fin.ext
    show (e.val / 800000 * 50 + e.val / 16000 % 50) * 16000 + e.val % 16000 = e.val
    omega

/-- A sum over all edges is the sum over the first half's blocks plus the sum over the second half's. -/
theorem sum_halves (f : Fin NE → EReal) :
    (∑ i : Fin 50, ∑ r : Fin 16000, f (row 0 i r)) + (∑ i : Fin 50, ∑ r : Fin 16000, f (row 1 i r))
      = ∑ e : Fin NE, f e := by
  have h := Fintype.sum_equiv rowEquiv (fun t => f (row t.1 t.2.1 t.2.2)) f (fun _ => rfl)
  rw [← h, Fintype.sum_prod_type, Fin.sum_univ_two]
  simp only [Fintype.sum_prod_type]

/-- The mean from the two half sums is the mean over all edges, whatever the entries are. -/
theorem meanK_halfSum (h : Fin NE → Fin 64 → EReal) (o : Fin 64) :
    meanK (halfSum h) o = meanR h o := by
  unfold meanK meanR halfSum
  rw [sum_halves (fun e => h e o)]

/-- The two half sums of squares add up to the sum of squares over all edges. -/
theorem halfSumSq_add (h : Fin NE → Fin 64 → EReal) (o : Fin 64) :
    halfSumSq h 0 o + halfSumSq h 1 o = ∑ e : Fin NE, h e o * h e o := by
  unfold halfSumSq
  exact sum_halves (fun e => h e o * h e o)

/-! ### Mean of squares minus square of mean, over the reals -/

/-- For `n` reals with sum `S` and mean `μ = S / n`:  `Σ (rₑ − μ)² = Σ rₑ² − 2 μ S + n μ²`, so dividing
    by `n` gives  `(1/n) Σ rₑ² − μ²`. -/
theorem var_identity {ι : Type} [Fintype ι] (r : ι → ℝ) (n : ℝ) (hcard : (Fintype.card ι : ℝ) = n)
    (hn : n ≠ 0) :
    (∑ e, r e * r e) * (1 / n) - (∑ e, r e) * (1 / n) * ((∑ e, r e) * (1 / n))
      = (∑ e, (r e - (∑ e, r e) * (1 / n)) * (r e - (∑ e, r e) * (1 / n))) * (1 / n) := by
  have h1 : ∀ μ : ℝ, ∑ e, (r e - μ) * (r e - μ)
      = (∑ e, r e * r e) - 2 * μ * (∑ e, r e) + n * (μ * μ) := by
    intro μ
    have h2 : ∀ e, (r e - μ) * (r e - μ) = r e * r e - 2 * μ * r e + μ * μ := fun e => by ring
    rw [Finset.sum_congr rfl (fun e _ => h2 e), Finset.sum_add_distrib, Finset.sum_sub_distrib,
      ← Finset.mul_sum, Finset.sum_const, Finset.card_univ, nsmul_eq_mul, hcard]
  rw [h1]
  field_simp
  ring

/-- The number of edges, as a real. -/
theorem card_edges : (Fintype.card (Fin NE) : ℝ) = 1600000 := by
  rw [Fintype.card_fin]
  norm_num

/-- The mean of column `o` of a table of reals. -/
def realMean (r : Fin NE → Fin 64 → ℝ) (o : Fin 64) : ℝ := (∑ e, r e o) * (1 / 1600000)

/-- The mean squared deviation of column `o` of a table of reals from its mean. -/
def realVar (r : Fin NE → Fin 64 → ℝ) (o : Fin 64) : ℝ :=
  (∑ e, (r e o - realMean r o) * (r e o - realMean r o)) * (1 / 1600000)

theorem realVar_nonneg (r : Fin NE → Fin 64 → ℝ) (o : Fin 64) : 0 ≤ realVar r o :=
  mul_nonneg (Finset.sum_nonneg fun _ _ => mul_self_nonneg _) (by norm_num)

/-- Mean of squares minus square of mean is the mean squared deviation. -/
theorem sq_mean_sub (r : Fin NE → Fin 64 → ℝ) (o : Fin 64) :
    (∑ e, r e o * r e o) * (1 / 1600000) - realMean r o * realMean r o = realVar r o := by
  unfold realVar realMean
  exact var_identity (fun e => r e o) 1600000 card_edges (by norm_num)

/-! ### The statistics of a column of reals -/

section Column

variable {h : Fin NE → Fin 64 → EReal} {r : Fin NE → Fin 64 → ℝ} (hr : ∀ e o, h e o = ((r e o : ℝ) : EReal))
include hr

/-- The whole-column mean of a table of reals is the real mean. -/
theorem meanR_coe (o : Fin 64) : meanR h o = ((realMean r o : ℝ) : EReal) := by
  unfold meanR realMean
  rw [div_cnt, Finset.sum_congr rfl (fun e _ => hr e o), ← coe_sum, ← EReal.coe_mul]

/-- The whole-column variance of a table of reals is the real mean squared deviation. -/
theorem varR_coe (o : Fin 64) : varR h o = ((realVar r o : ℝ) : EReal) := by
  unfold varR realVar
  rw [div_cnt, meanR_coe hr o]
  have h1 : ∀ e, (h e o - ((realMean r o : ℝ) : EReal)) * (h e o - ((realMean r o : ℝ) : EReal))
      = (((r e o - realMean r o) * (r e o - realMean r o) : ℝ) : EReal) := fun e => by
    rw [hr e o, ← EReal.coe_sub, ← EReal.coe_mul]
  rw [Finset.sum_congr rfl (fun e _ => h1 e), ← coe_sum, ← EReal.coe_mul]

/-- The variance from the half sums of a table of reals is the real mean squared deviation: the difference
    it floors at zero is already non-negative. -/
theorem varK_coe (o : Fin 64) : varK (halfSum h) (halfSumSq h) o = ((realVar r o : ℝ) : EReal) := by
  unfold varK
  rw [meanK_halfSum, meanR_coe hr o, halfSumSq_add, div_cnt]
  have h1 : ∀ e, h e o * h e o = ((r e o * r e o : ℝ) : EReal) := fun e => by
    rw [hr e o, ← EReal.coe_mul]
  rw [Finset.sum_congr rfl (fun e _ => h1 e), ← coe_sum, ← EReal.coe_mul, ← EReal.coe_mul,
    ← EReal.coe_sub, sq_mean_sub]
  exact max_eq_left (EReal.coe_nonneg.mpr (realVar_nonneg r o))

end Column

/-- On a finite table the two ways of taking a column's mean and variance agree. -/
theorem stats_eq {h : Fin NE → Fin 64 → EReal} (hh : Fin2 h) :
    meanK (halfSum h) = meanR h ∧ varK (halfSum h) (halfSumSq h) = varR h := by
  have hh' : ∀ e o, ∃ r : ℝ, h e o = (r : EReal) := hh
  choose r hr using hh'
  exact ⟨funext fun o => meanK_halfSum h o, funext fun o => by rw [varK_coe hr o, varR_coe hr o]⟩

/-! ### Finiteness propagates through the layers -/

/-- The mean of a finite table's column is a real. -/
theorem fin_meanR {h : Fin NE → Fin 64 → EReal} (hh : Fin2 h) : Fin1 (meanR h) := by
  have hh' : ∀ e o, ∃ r : ℝ, h e o = (r : EReal) := hh
  choose r hr using hh'
  exact fun o => ⟨realMean r o, meanR_coe hr o⟩

/-- The variance of a finite table's column is a non-negative real. -/
theorem fin_varR {h : Fin NE → Fin 64 → EReal} (hh : Fin2 h) :
    ∀ o, ∃ v : ℝ, 0 ≤ v ∧ varR h o = (v : EReal) := by
  have hh' : ∀ e o, ∃ r : ℝ, h e o = (r : EReal) := hh
  choose r hr using hh'
  exact fun o => ⟨realVar r o, realVar_nonneg r o, varR_coe hr o⟩

/-- An affine image of finite tables is finite: a finite sum of products of reals plus a real. -/
theorem fin_lin {K : Nat} (a : Fin NE → Fin K → EReal) (w : Fin K → Fin 64 → EReal) (b : Fin 64 → EReal)
    (ha : Fin2 a) (hw : Fin2 w) (hb : Fin1 b) : Fin2 (lin a w b) := by
  have ha' : ∀ e k, ∃ r : ℝ, a e k = (r : EReal) := ha
  have hw' : ∀ k o, ∃ r : ℝ, w k o = (r : EReal) := hw
  have hb' : ∀ o, ∃ r : ℝ, b o = (r : EReal) := hb
  choose ra hra using ha'
  choose rwt hrwt using hw'
  choose rb hrb using hb'
  intro e o
  refine ⟨(∑ k, ra e k * rwt k o) + rb o, ?_⟩
  unfold lin
  rw [EReal.coe_add, coe_sum, hrb o]
  congr 1
  exact Finset.sum_congr rfl (fun k _ => by rw [hra e k, hrwt k o, EReal.coe_mul])

/-- Normalising a finite table with a real mean and a non-negative real variance keeps it finite: the
    variance plus the floor is a positive real, so its inverse square root is a real. -/
theorem fin_bnrelu (h : Fin NE → Fin 64 → EReal) (m var g beta : Fin 64 → EReal) (hh : Fin2 h)
    (hm : Fin1 m) (hvar : ∀ o, ∃ v : ℝ, 0 ≤ v ∧ var o = (v : EReal)) (hg : Fin1 g) (hbeta : Fin1 beta) :
    Fin2 (bnrelu h m var g beta) := by
  intro e o
  obtain ⟨x, hx⟩ := hh e o
  obtain ⟨μ, hμ⟩ := hm o
  obtain ⟨v, hv0, hv⟩ := hvar o
  obtain ⟨γ, hγ⟩ := hg o
  obtain ⟨β, hβ⟩ := hbeta o
  obtain ⟨ε, hε, heps⟩ := eps_pos
  refine ⟨max ((x - μ) * (Real.sqrt (v + ε))⁻¹ * γ + β) 0, ?_⟩
  unfold bnrelu
  rw [hx, hμ, hv, hγ, hβ, heps, ← EReal.coe_add v ε, rsqrt_pos_coe (by linarith), ← EReal.coe_sub,
    ← EReal.coe_mul, ← EReal.coe_mul, ← EReal.coe_add, coe_max, EReal.coe_zero]

/-! ### The two networks -/

/-- An edge's input row is made of entries of the node features and differences of two of them. -/
theorem fin_h0 (x : Fin NV → Fin 64 → EReal) (s d : Fin NE → Fin NV) (hx : Fin2 x) : Fin2 (h0 x s d) := by
  intro e k
  unfold h0
  split
  · exact hx _ _
  · obtain ⟨r1, h1⟩ := hx (s e) ⟨k.val - 64, by omega⟩
    obtain ⟨r2, h2⟩ := hx (d e) ⟨k.val - 64, by omega⟩
    exact ⟨r1 - r2, by rw [h1, h2, EReal.coe_sub]⟩

section Net

variable (a : Fin NE → Fin 128 → EReal) (w1 : Fin 128 → Fin 64 → EReal) (b1 g1 be1 : Fin 64 → EReal)

/-- The first layer agrees: its affine image is a finite table, so the two statistics coincide. -/
theorem hn1K_eq_hn1R (ha : Fin2 a) (hw1 : Fin2 w1) (hb1 : Fin1 b1) :
    hn1K a w1 b1 g1 be1 = hn1R a w1 b1 g1 be1 := by
  obtain ⟨hm, hv⟩ := stats_eq (fin_lin a w1 b1 ha hw1 hb1)
  unfold hn1K hn1R
  rw [hm, hv]

/-- The first layer's activations are finite. -/
theorem fin_hn1R (ha : Fin2 a) (hw1 : Fin2 w1) (hb1 : Fin1 b1) (hg1 : Fin1 g1) (hbe1 : Fin1 be1) :
    Fin2 (hn1R a w1 b1 g1 be1) := by
  have hl := fin_lin a w1 b1 ha hw1 hb1
  unfold hn1R
  exact fin_bnrelu _ _ _ _ _ hl (fin_meanR hl) (fin_varR hl) hg1 hbe1

end Net

/-- On finite inputs the network under half-sum statistics is the network under whole-column statistics. -/
theorem hn2K_eq_hn2R (a : Fin NE → Fin 128 → EReal) (w1 : Fin 128 → Fin 64 → EReal) (b1 g1 be1 : Fin 64 → EReal)
    (w2 : Fin 64 → Fin 64 → EReal) (b2 g2 be2 : Fin 64 → EReal)
    (ha : Fin2 a) (hw1 : Fin2 w1) (hb1 : Fin1 b1) (hg1 : Fin1 g1) (hbe1 : Fin1 be1)
    (hw2 : Fin2 w2) (hb2 : Fin1 b2) (hg2 : Fin1 g2) (hbe2 : Fin1 be2) :
    hn2K a w1 b1 g1 be1 w2 b2 g2 be2 = hn2R a w1 b1 g1 be1 w2 b2 g2 be2 := by
  have h1 := hn1K_eq_hn1R a w1 b1 g1 be1 ha hw1 hb1
  have hf := fin_hn1R a w1 b1 g1 be1 ha hw1 hb1 hg1 hbe1
  obtain ⟨hm, hv⟩ := stats_eq (fin_lin (hn1R a w1 b1 g1 be1) w2 b2 hf hw2 hb2)
  unfold hn2K hn2R
  rw [h1, hm, hv]

end Cert.Algebra

end
-- ==== Proof.PreFacts.lean ====
/-
  What the precondition says, entry by entry: every entry of every float argument is a real number (its absolute
  value is below +∞, and an extended real with |x| < +∞ is neither infinity), and every entry of the edge array is a
  node number (0 ≤ w < 50000 as a signed word, hence below 50000 as a natural number).  The printed predicate is a
  conjunction of ten reductions by "and" over whole arrays; a reduction by "and" is all ones exactly when every
  entry is.
-/
import proofs.«401892_j53961969107163_2_alg».proof.Pre_finite_inputs
import proofs.«401892_j53961969107163_2_alg».proof.Proof.Gen.Pre_finite_inputs
import proofs.«401892_j53961969107163_2_alg».proof.Proof.Consts
import Idealize.ShloMosaic.Lib.ReduceAll
import Idealize.ShloMosaic.Lib.ValueIdx
import Idealize.ShloMosaic.Lib.StableHlo.Predicate

set_option maxRecDepth 16384

noncomputable section

namespace Cert.PreFacts

open Cert.Pre_finite_inputs
open Idealize.ShloMosaic Idealize.ShloMosaic.ValueIdx

variable [Cert.Pre_finite_inputs.Facts]

/-- The domain the precondition describes. -/
structure Dom (a0 : FVec Ideal S50000x64 .f32) (a1 : IVec S2x1600000 32) (a2 : FVec Ideal S128x64 .f32)
    (a3 a4 a5 : FVec Ideal S64 .f32) (a6 : FVec Ideal S64x64 .f32) (a7 a8 a9 : FVec Ideal S64 .f32) : Prop where
  x : ∀ i, ∃ r : ℝ, a0 i = (r : EReal)
  idx : ∀ i, (a1 i).toNat < 50000
  w1 : ∀ i, ∃ r : ℝ, a2 i = (r : EReal)
  b1 : ∀ i, ∃ r : ℝ, a3 i = (r : EReal)
  g1 : ∀ i, ∃ r : ℝ, a4 i = (r : EReal)
  be1 : ∀ i, ∃ r : ℝ, a5 i = (r : EReal)
  w2 : ∀ i, ∃ r : ℝ, a6 i = (r : EReal)
  b2 : ∀ i, ∃ r : ℝ, a7 i = (r : EReal)
  g2 : ∀ i, ∃ r : ℝ, a8 i = (r : EReal)
  be2 : ∀ i, ∃ r : ℝ, a9 i = (r : EReal)

/-- The scalar shape has one index. -/
instance subsingleton_S_ : Subsingleton S_.Idx := ⟨fun a b => funext fun d => d.elim0⟩

/-- An extended real whose absolute value (the larger of x and −x) lies strictly below the number the
    pattern of +∞ denotes is a real: x = +∞ gives max x (−x) = +∞ and x = −∞ gives −x = +∞, and +∞ is not
    below itself. -/
theorem real_of_abs_lt (x : EReal)
    (e : Ideal.cmp .olt (max x (-x)) (Ideal.ofBits .f32 0x7F800000#32) = 1#1) : ∃ r : ℝ, x = (r : EReal) := by
  rw [Cert.Consts.ofBits_inf] at e
  have hlt : max x (-x) < ⊤ := by
    simpa only [Ideal.cmp, StableHlo.Predicate.ofBool_eq_one_iff, decide_eq_true_eq] using e
  induction x using EReal.rec with
  | bot => exact absurd hlt (by simp)
  | coe r => exact ⟨r, rfl⟩
  | top => exact absurd hlt (by simp)

/-- Finite of the reduced compare, at any shape: if the "and" over the whole array of the tests |a i| < +∞
    came out 1, every entry of the array is a real. -/
theorem finite_of_reduce {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
        (cmpf .olt (Host.absf a) (broadcastInDim s ![] hb (constant (F := Ideal) S_ .f32 0x7F800000#32)))
        (constantI S_ 1 1#1) hr hu ix0 = 1#1) :
    ∀ i, ∃ r : ℝ, a i = (r : EReal) := fun i =>
  real_of_abs_lt (a i) (Host.reduce_andi_all _ _ hr hu ix0 e i)

/-- A 32-bit word that is at least 0 and below 50000 as a signed number is below 50000 as a natural number: a
    non-negative signed reading is the unsigned one. -/
theorem toNat_lt_of_signed (w : BitVec 32) (h0 : IntOp.cmpi .sge w 0#32 = 1#1)
    (h1 : IntOp.cmpi .slt w 50000#32 = 1#1) : w.toNat < 50000 := by
  have e0 : (0#32 : BitVec 32).toInt = 0 := by decide
  have e1 : (50000#32 : BitVec 32).toInt = 50000 := by decide
  simp only [IntOp.cmpi, StableHlo.Predicate.ofBool_eq_one_iff, BitVec.sle, BitVec.slt, decide_eq_true_eq, e0, e1]
    at h0 h1
  have hw := w.isLt
  rw [BitVec.toInt_eq_toNat_cond] at h0 h1
  split_ifs at h0 h1 <;> omega

/-- The range test of the edge array, reduced: if the "and" over the whole array of (0 ≤ w and w < 50000)
    came out 1, every entry is below 50000. -/
theorem range_of_reduce {s : Shape} {axes : List (Fin s.rank)} (a : IVec s 32)
    (hb : S_.BroadcastsInDim s (![] : Fin 0 → Fin s.rank)) (hr : s.ReducesTo axes S_) (hu : 0 < S_.numel)
    (e : Host.reduce IntOp.andi
        (andi (cmpi .sge a (broadcastInDim s ![] hb (constantI S_ 32 0#32)))
          (cmpi .slt a (broadcastInDim s ![] hb (constantI S_ 32 50000#32))))
        (constantI S_ 1 1#1) hr hu ix0 = 1#1) :
    ∀ i, (a i).toNat < 50000 := fun i => by
  obtain ⟨h0, h1⟩ := IntOp.andi_eq_one.1 (Host.reduce_andi_all _ _ hr hu ix0 e i)
  exact toNat_lt_of_signed (a i) h0 h1

/-- Arguments on which the printed predicate is all ones lie in that domain. -/
theorem dom_of_pre (a0 : FVec Ideal S50000x64 .f32) (a1 : IVec S2x1600000 32) (a2 : FVec Ideal S128x64 .f32)
    (a3 a4 a5 : FVec Ideal S64 .f32) (a6 : FVec Ideal S64x64 .f32) (a7 a8 a9 : FVec Ideal S64 .f32)
    (h : fn (F := Ideal) a0 a1 a2 a3 a4 a5 a6 a7 a8 a9 = (fun _ => 1#1)) :
    Dom a0 a1 a2 a3 a4 a5 a6 a7 a8 a9 := by
  have h0 := congrFun h ix0
  simp only [fn, fn_part1, fn_part2] at h0
  -- the conjunction nests to the left: the last conjunct is the edge array's range test
  obtain ⟨h8, e1⟩ := IntOp.andi_eq_one.1 h0
  obtain ⟨h7, e9⟩ := IntOp.andi_eq_one.1 h8
  obtain ⟨h6, e8⟩ := IntOp.andi_eq_one.1 h7
  obtain ⟨h5, e7⟩ := IntOp.andi_eq_one.1 h6
  obtain ⟨h4, e6⟩ := IntOp.andi_eq_one.1 h5
  obtain ⟨h3, e5⟩ := IntOp.andi_eq_one.1 h4
  obtain ⟨h2, e4⟩ := IntOp.andi_eq_one.1 h3
  obtain ⟨h1, e3⟩ := IntOp.andi_eq_one.1 h2
  obtain ⟨e0, e2⟩ := IntOp.andi_eq_one.1 h1
  exact
    { x := finite_of_reduce a0 _ _ _ e0
      idx := range_of_reduce a1 _ _ _ e1
      w1 := finite_of_reduce a2 _ _ _ e2
      b1 := finite_of_reduce a3 _ _ _ e3
      g1 := finite_of_reduce a4 _ _ _ e4
      be1 := finite_of_reduce a5 _ _ _ e5
      w2 := finite_of_reduce a6 _ _ _ e6
      b2 := finite_of_reduce a7 _ _ _ e7
      g2 := finite_of_reduce a8 _ _ _ e8
      be2 := finite_of_reduce a9 _ _ _ e9 }

end Cert.PreFacts

end
-- ==== Proof.KTail.lean ====
/-
  The last stretch of both programs: edge rows are summed onto their target nodes, the number of edges per target
  node is counted the same way (a sum of ones), and each node's row sum is divided by its count, a count of zero
  being replaced by one.  It is one function of the edge rows and the target-node array; nothing here opens it.
-/
import proofs.«401892_j53961969107163_2_alg».proof.Proof.Gen.KernelIdeal
import Idealize.ShloMosaic.PureOps.Ideal

noncomputable section

namespace Cert.KernelIdeal.KTail

open Cert.KernelIdeal Cert.KernelIdeal.Gen
open Idealize.ShloMosaic

/-- The mean, per target node, of the edge rows that point at it. -/
def tail (hn2 : FVec Ideal S1600000x64 .f32) (dst : IVec S1600000 32) : FVec Ideal S50000x64 .f32 :=
  Host.divf
    (Host.scatterAdd scatter_S50000x64_S1600000x1_S1600000x64_1_0_0_1
      (broadcastInDim S50000x64 ![] bcast_S_S50000x64 (constant (F := Ideal) S_ .f32 0x00000000#32))
      (broadcastInDim S1600000x1 ![0] bcast_S1600000_S1600000x1_0 dst) hn2)
    (broadcastInDim S50000x64 ![0, 1] bcast_S50000x1_S50000x64_0_1
      (broadcastInDim S50000x1 ![0] bcast_S50000_S50000x1_0
        (maximumf
          (Host.scatterAdd scatter_S50000_S1600000x1_S1600000_n_0_0_1
            (broadcastInDim S50000 ![] bcast_S_S50000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S50000 ![] bcast_S_S50000 (constant (F := Ideal) S_ .f32 0x3F800000#32)))))

/-- Row 1 of the edge array as a vector: the target nodes. -/
def dstOf (a1 : IVec S2x1600000 32) : IVec S1600000 32 :=
  shapeCast S1600000 (extractStridedSlice S1x1600000 ![1, 0] a1 slices_S2x1600000_S1x1600000_1_0) shapeCasts_S1x1600000_S1600000

end Cert.KernelIdeal.KTail

end
-- ==== Proof.Keep.lean ====
/-
  Which buffers a stretch of host operations, or a region, leaves as it found them: a host operation writes only
  its own result buffer, and a region writes only its output windows' arrays, so a buffer that is none of those —
  in particular a region's input window — holds after the stretch what it held before.
-/
import proofs.«401892_j53961969107163_2_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- No operation of the named stretch writes the buffer in the goal. -/
local macro "host_keep " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

theorem W6_main_v17_0 (c : Dev nD) : W6 m ρ c (Proc.devRef .tc main_v17_0) = W5 m ρ c (Proc.devRef .tc main_v17_0) := by
  host_keep hostOps1
theorem W6_main_v12 (c : Dev nD) : W6 m ρ c (Proc.devRef .tc main_v12) = W5 m ρ c (Proc.devRef .tc main_v12) := by
  host_keep hostOps1
theorem W6_main_v13 (c : Dev nD) : W6 m ρ c (Proc.devRef .tc main_v13) = W5 m ρ c (Proc.devRef .tc main_v13) := by
  host_keep hostOps1
theorem W6_main_v10 (c : Dev nD) : W6 m ρ c (Proc.devRef .tc main_v10) = W5 m ρ c (Proc.devRef .tc main_v10) := by
  host_keep hostOps1
theorem W6_main_v14 (c : Dev nD) : W6 m ρ c (Proc.devRef .tc main_v14) = W5 m ρ c (Proc.devRef .tc main_v14) := by
  host_keep hostOps1
theorem W6_main_v15 (c : Dev nD) : W6 m ρ c (Proc.devRef .tc main_v15) = W5 m ρ c (Proc.devRef .tc main_v15) := by
  host_keep hostOps1
theorem W6_main_v16 (c : Dev nD) : W6 m ρ c (Proc.devRef .tc main_v16) = W5 m ρ c (Proc.devRef .tc main_v16) := by
  host_keep hostOps1
theorem W6_main_v3 (c : Dev nD) : W6 m ρ c (Proc.devRef .tc main_v3) = W5 m ρ c (Proc.devRef .tc main_v3) := by
  host_keep hostOps1
theorem W8_main_v17_0 (c : Dev nD) : W8 m ρ c (Proc.devRef .tc main_v17_0) = W7 m ρ c (Proc.devRef .tc main_v17_0) := by
  host_keep hostOps2
theorem W8_main_v12 (c : Dev nD) : W8 m ρ c (Proc.devRef .tc main_v12) = W7 m ρ c (Proc.devRef .tc main_v12) := by
  host_keep hostOps2
theorem W8_main_v13 (c : Dev nD) : W8 m ρ c (Proc.devRef .tc main_v13) = W7 m ρ c (Proc.devRef .tc main_v13) := by
  host_keep hostOps2
theorem W8_main_v20 (c : Dev nD) : W8 m ρ c (Proc.devRef .tc main_v20) = W7 m ρ c (Proc.devRef .tc main_v20) := by
  host_keep hostOps2
theorem W8_main_v27 (c : Dev nD) : W8 m ρ c (Proc.devRef .tc main_v27) = W7 m ρ c (Proc.devRef .tc main_v27) := by
  host_keep hostOps2
theorem W8_main_v10 (c : Dev nD) : W8 m ρ c (Proc.devRef .tc main_v10) = W7 m ρ c (Proc.devRef .tc main_v10) := by
  host_keep hostOps2
theorem W8_main_v14 (c : Dev nD) : W8 m ρ c (Proc.devRef .tc main_v14) = W7 m ρ c (Proc.devRef .tc main_v14) := by
  host_keep hostOps2
theorem W8_main_v15 (c : Dev nD) : W8 m ρ c (Proc.devRef .tc main_v15) = W7 m ρ c (Proc.devRef .tc main_v15) := by
  host_keep hostOps2
theorem W8_main_v16 (c : Dev nD) : W8 m ρ c (Proc.devRef .tc main_v16) = W7 m ρ c (Proc.devRef .tc main_v16) := by
  host_keep hostOps2
theorem W8_main_v3 (c : Dev nD) : W8 m ρ c (Proc.devRef .tc main_v3) = W7 m ρ c (Proc.devRef .tc main_v3) := by
  host_keep hostOps2
theorem W4_main_v3 (c : Dev nD) : W4 m ρ c (Proc.devRef .tc main_v3) = W3 m ρ c (Proc.devRef .tc main_v3) := by
  host_keep hostOps0_3
theorem W3_main_v3 (c : Dev nD) : W3 m ρ c (Proc.devRef .tc main_v3) = W2 m ρ c (Proc.devRef .tc main_v3) := by
  host_keep hostOps0_2
theorem W2_main_v3 (c : Dev nD) : W2 m ρ c (Proc.devRef .tc main_v3) = W1 m ρ c (Proc.devRef .tc main_v3) := by
  host_keep hostOps0_1

theorem W5_main_v12 (c : Dev nD) : W5 m ρ c (Proc.devRef .tc main_v12) = W4 m ρ c (Proc.devRef .tc main_v12) :=
  W5_of_ne m ρ c main_v12 (by decide)
theorem W5_main_v13 (c : Dev nD) : W5 m ρ c (Proc.devRef .tc main_v13) = W4 m ρ c (Proc.devRef .tc main_v13) :=
  W5_of_ne m ρ c main_v13 (by decide)
theorem W5_main_v10 (c : Dev nD) : W5 m ρ c (Proc.devRef .tc main_v10) = W4 m ρ c (Proc.devRef .tc main_v10) :=
  W5_of_ne m ρ c main_v10 (by decide)
theorem W5_main_v14 (c : Dev nD) : W5 m ρ c (Proc.devRef .tc main_v14) = W4 m ρ c (Proc.devRef .tc main_v14) :=
  W5_of_ne m ρ c main_v14 (by decide)
theorem W5_main_v15 (c : Dev nD) : W5 m ρ c (Proc.devRef .tc main_v15) = W4 m ρ c (Proc.devRef .tc main_v15) :=
  W5_of_ne m ρ c main_v15 (by decide)
theorem W5_main_v16 (c : Dev nD) : W5 m ρ c (Proc.devRef .tc main_v16) = W4 m ρ c (Proc.devRef .tc main_v16) :=
  W5_of_ne m ρ c main_v16 (by decide)
theorem W5_main_v3 (c : Dev nD) : W5 m ρ c (Proc.devRef .tc main_v3) = W4 m ρ c (Proc.devRef .tc main_v3) :=
  W5_of_ne m ρ c main_v3 (by decide)
theorem W7_main_v15 (c : Dev nD) : W7 m ρ c (Proc.devRef .tc main_v15) = W6 m ρ c (Proc.devRef .tc main_v15) :=
  W7_of_ne m ρ c main_v15 (by decide)
theorem W7_main_v16 (c : Dev nD) : W7 m ρ c (Proc.devRef .tc main_v16) = W6 m ρ c (Proc.devRef .tc main_v16) :=
  W7_of_ne m ρ c main_v16 (by decide)
theorem W7_main_v3 (c : Dev nD) : W7 m ρ c (Proc.devRef .tc main_v3) = W6 m ρ c (Proc.devRef .tc main_v3) :=
  W7_of_ne m ρ c main_v3 (by decide)
theorem W9_main_v3 (c : Dev nD) : W9 m ρ c (Proc.devRef .tc main_v3) = W8 m ρ c (Proc.devRef .tc main_v3) :=
  W9_of_ne m ρ c main_v3 (by decide)

theorem W7_main_v17_0 (c : Dev nD) : W7 m ρ c (Proc.devRef .tc main_v17_0) = W6 m ρ c (Proc.devRef .tc main_v17_0) :=
  (W7_arr m ρ c 0).trans (((dat1 (V6 m ρ) c).arrAt_in 0 rfl cfg1.N).trans (A_eq1 (V6 m ρ) c 0))
theorem W7_main_v12 (c : Dev nD) : W7 m ρ c (Proc.devRef .tc main_v12) = W6 m ρ c (Proc.devRef .tc main_v12) :=
  (W7_arr m ρ c 1).trans (((dat1 (V6 m ρ) c).arrAt_in 1 rfl cfg1.N).trans (A_eq1 (V6 m ρ) c 1))
theorem W7_main_v13 (c : Dev nD) : W7 m ρ c (Proc.devRef .tc main_v13) = W6 m ρ c (Proc.devRef .tc main_v13) :=
  (W7_arr m ρ c 2).trans (((dat1 (V6 m ρ) c).arrAt_in 2 rfl cfg1.N).trans (A_eq1 (V6 m ρ) c 2))
theorem W7_main_v20 (c : Dev nD) : W7 m ρ c (Proc.devRef .tc main_v20) = W6 m ρ c (Proc.devRef .tc main_v20) :=
  (W7_arr m ρ c 3).trans (((dat1 (V6 m ρ) c).arrAt_in 3 rfl cfg1.N).trans (A_eq1 (V6 m ρ) c 3))
theorem W7_main_v27 (c : Dev nD) : W7 m ρ c (Proc.devRef .tc main_v27) = W6 m ρ c (Proc.devRef .tc main_v27) :=
  (W7_arr m ρ c 4).trans (((dat1 (V6 m ρ) c).arrAt_in 4 rfl cfg1.N).trans (A_eq1 (V6 m ρ) c 4))
theorem W7_main_v10 (c : Dev nD) : W7 m ρ c (Proc.devRef .tc main_v10) = W6 m ρ c (Proc.devRef .tc main_v10) :=
  (W7_arr m ρ c 5).trans (((dat1 (V6 m ρ) c).arrAt_in 5 rfl cfg1.N).trans (A_eq1 (V6 m ρ) c 5))
theorem W7_main_v14 (c : Dev nD) : W7 m ρ c (Proc.devRef .tc main_v14) = W6 m ρ c (Proc.devRef .tc main_v14) :=
  (W7_arr m ρ c 6).trans (((dat1 (V6 m ρ) c).arrAt_in 6 rfl cfg1.N).trans (A_eq1 (V6 m ρ) c 6))

end Cert.KernelIdeal.Keep

end
-- ==== Proof.HostK.lean ====
/-
  The host stretches of the kernel program between and after its regions, read at an element.

  After each statistics region the two per-half rows of column sums are added and divided by the edge count (the
  column means), the two rows of sums of squares likewise (the means of squares), and the variance is the mean of
  squares minus the squared mean, floored at zero.  After the last region the result is the scatter-mean of the
  edge rows by target node.
-/
import proofs.«401892_j53961969107163_2_alg».proof.Proof.Gen.KernelIdeal.Frame
import proofs.«401892_j53961969107163_2_alg».proof.Proof.Spec
import proofs.«401892_j53961969107163_2_alg».proof.Proof.Consts
import proofs.«401892_j53961969107163_2_alg».proof.Proof.KTail
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.HostK

open Cert.KernelIdeal Cert.KernelIdeal.Gen Cert.Spec
open Idealize.ShloMosaic Idealize.ShloMosaic.TcCoe Idealize.ShloMosaic.ValueIdx Idealize.SL.Sem

variable (m : (ℓ : Loc nD τ sig) → Buf (Elt Ideal) ℓ) (ρ : Dev nD → PrngReg)

/-! ### One statistic: the two half rows added and divided by the edge count -/

/-- The sum over the leading axis of a [2,1,64] array, from a zero start, divided entry by entry by the edge count. -/
def sumDiv (x : FVec Ideal S2x1x64 .f32) : FVec Ideal S1x64 .f32 :=
  Host.divf (F := Ideal)
    (Host.reduceAdd (F := Ideal) x (constant (F := Ideal) S_ .f32 0x00000000#32) reducesTo_S2x1x64_S1x64_d0 h_S_)
    (broadcastInDim S1x64 ![] bcast_S_S1x64 (constant (F := Ideal) S_ .f32 0x49C35000#32))

/-- At column `o` it is the two rows' entries added, then divided by the edge count: the sum over the leading axis
    has the two terms `p = 0` and `p = 1`, the start value is zero, and the divisor's word denotes 1600000. -/
theorem sumDiv_apply (x : FVec Ideal S2x1x64 .f32) (o : Fin 64) :
    sumDiv x (ix2 (0 : Fin 1) o)
      = Ideal.div (x (ix3 (0 : Fin 2) (0 : Fin 1) o) + x (ix3 (1 : Fin 2) (0 : Fin 1) o)) cnt := by
  have hred : S2x1x64.Reduces [0] S1x64 := by decide
  show Ideal.div (Ideal.hostReduceAdd reducesTo_S2x1x64_S1x64_d0 x (Ideal.ofBits .f32 0x00000000#32) (ix2 (0 : Fin 1) o))
      (Ideal.ofBits .f32 0x49C35000#32) = _
  rw [Ideal.hostReduceAdd_single reducesTo_S2x1x64_S1x64_d0 hred x _ (ix2 (0 : Fin 1) o),
    Cert.Consts.ofBits_zero, Cert.Consts.ofBits_cnt, zero_add]
  unfold Cert.Spec.cnt
  congr 1
  show ∑ k : Fin 2, x (hred.lift (ix2 (0 : Fin 1) o) k) = _
  rw [Fin.sum_univ_two]
  -- the index over (0, o) with `p` put back on the leading axis is (p, 0, o)
  have h0 : hred.lift (ix2 (0 : Fin 1) o) (0 : Fin 2) = ix3 (0 : Fin 2) (0 : Fin 1) o := by
    funext a
    match a with
    | ⟨0, _⟩ => exact Fin.ext rfl
    | ⟨1, _⟩ => exact Fin.ext rfl
    | ⟨2, _⟩ => exact Fin.ext rfl
  have h1 : hred.lift (ix2 (0 : Fin 1) o) (1 : Fin 2) = ix3 (1 : Fin 2) (0 : Fin 1) o := by
    funext a
    match a with
    | ⟨0, _⟩ => exact Fin.ext rfl
    | ⟨1, _⟩ => exact Fin.ext rfl
    | ⟨2, _⟩ => exact Fin.ext rfl
  rw [h0, h1]

/-- So at column `o` it is the column mean taken from the two half sums. -/
theorem mean_apply (x : FVec Ideal S2x1x64 .f32) (o : Fin 64) :
    sumDiv x (ix2 (0 : Fin 1) o) = meanK (fun p o => x (ix3 p (0 : Fin 1) o)) o := by
  rw [sumDiv_apply]; rfl

/-- The mean of squares minus the squared mean, floored at a broadcast zero, read at column `o`: the column variance
    taken from the half sums `x` and the half sums of squares `q`. -/
theorem var_apply (x q : FVec Ideal S2x1x64 .f32) (o : Fin 64) :
    (maximumf (subf (sumDiv q) (mulf (sumDiv x) (sumDiv x)))
        (broadcastInDim S1x64 ![] bcast_S_S1x64 (constant (F := Ideal) S_ .f32 0x00000000#32))) (ix2 (0 : Fin 1) o)
      = varK (fun p o => x (ix3 p (0 : Fin 1) o)) (fun p o => q (ix3 p (0 : Fin 1) o)) o := by
  show max (sumDiv q (ix2 (0 : Fin 1) o) - sumDiv x (ix2 (0 : Fin 1) o) * sumDiv x (ix2 (0 : Fin 1) o))
      (Ideal.ofBits .f32 0x00000000#32) = _
  rw [sumDiv_apply q, mean_apply x, Cert.Consts.ofBits_zero]
  rfl

/-! ### The stretches -/

/-- The first layer's column means, from the first region's two rows of column sums. -/
theorem mu1 (c : Dev nD) (o : Fin 64) :
    (W6 (F := Ideal) m ρ c (Proc.devRef .tc main_v20) : Vec Ideal S1x64 .f32) (ix2 (0 : Fin 1) o)
      = meanK (fun p o => (W5 (F := Ideal) m ρ c (Proc.devRef .tc main_v17_1) : Vec Ideal S2x1x64 .f32) (ix3 p (0 : Fin 1) o)) o := by
  have e : (W6 (F := Ideal) m ρ c (Proc.devRef .tc main_v20) : Vec Ideal S1x64 .f32)
      = sumDiv (W5 (F := Ideal) m ρ c (Proc.devRef .tc main_v17_1) : Vec Ideal S2x1x64 .f32) := by
    show StableHlo.after hostOps1 _ (Proc.devRef .tc main_v20) = _
    unfold sumDiv
    after_results
  rw [e, mean_apply]

/-- The first layer's column variances, from the first region's rows of column sums and of sums of squares. -/
theorem var1 (c : Dev nD) (o : Fin 64) :
    (W6 (F := Ideal) m ρ c (Proc.devRef .tc main_v27) : Vec Ideal S1x64 .f32) (ix2 (0 : Fin 1) o)
      = varK (fun p o => (W5 (F := Ideal) m ρ c (Proc.devRef .tc main_v17_1) : Vec Ideal S2x1x64 .f32) (ix3 p (0 : Fin 1) o))
          (fun p o => (W5 (F := Ideal) m ρ c (Proc.devRef .tc main_v17_2) : Vec Ideal S2x1x64 .f32) (ix3 p (0 : Fin 1) o)) o := by
  have e : (W6 (F := Ideal) m ρ c (Proc.devRef .tc main_v27) : Vec Ideal S1x64 .f32)
      = maximumf (subf (sumDiv (W5 (F := Ideal) m ρ c (Proc.devRef .tc main_v17_2) : Vec Ideal S2x1x64 .f32))
            (mulf (sumDiv (W5 (F := Ideal) m ρ c (Proc.devRef .tc main_v17_1) : Vec Ideal S2x1x64 .f32))
              (sumDiv (W5 (F := Ideal) m ρ c (Proc.devRef .tc main_v17_1) : Vec Ideal S2x1x64 .f32))))
          (broadcastInDim S1x64 ![] bcast_S_S1x64 (constant (F := Ideal) S_ .f32 0x00000000#32)) := by
    show StableHlo.after hostOps1 _ (Proc.devRef .tc main_v27) = _
    unfold sumDiv
    after_results
  rw [e, var_apply]

/-- The second layer's column means, from the second region's two rows of column sums. -/
theorem mu2 (c : Dev nD) (o : Fin 64) :
    (W8 (F := Ideal) m ρ c (Proc.devRef .tc main_v31) : Vec Ideal S1x64 .f32) (ix2 (0 : Fin 1) o)
      = meanK (fun p o => (W7 (F := Ideal) m ρ c (Proc.devRef .tc main_v28_0) : Vec Ideal S2x1x64 .f32) (ix3 p (0 : Fin 1) o)) o := by
  have e : (W8 (F := Ideal) m ρ c (Proc.devRef .tc main_v31) : Vec Ideal S1x64 .f32)
      = sumDiv (W7 (F := Ideal) m ρ c (Proc.devRef .tc main_v28_0) : Vec Ideal S2x1x64 .f32) := by
    show StableHlo.after hostOps2 _ (Proc.devRef .tc main_v31) = _
    unfold sumDiv
    after_results
  rw [e, mean_apply]

/-- The second layer's column variances, from the second region's rows of column sums and of sums of squares. -/
theorem var2 (c : Dev nD) (o : Fin 64) :
    (W8 (F := Ideal) m ρ c (Proc.devRef .tc main_v38) : Vec Ideal S1x64 .f32) (ix2 (0 : Fin 1) o)
      = varK (fun p o => (W7 (F := Ideal) m ρ c (Proc.devRef .tc main_v28_0) : Vec Ideal S2x1x64 .f32) (ix3 p (0 : Fin 1) o))
          (fun p o => (W7 (F := Ideal) m ρ c (Proc.devRef .tc main_v28_1) : Vec Ideal S2x1x64 .f32) (ix3 p (0 : Fin 1) o)) o := by
  have e : (W8 (F := Ideal) m ρ c (Proc.devRef .tc main_v38) : Vec Ideal S1x64 .f32)
      = maximumf (subf (sumDiv (W7 (F := Ideal) m ρ c (Proc.devRef .tc main_v28_1) : Vec Ideal S2x1x64 .f32))
            (mulf (sumDiv (W7 (F := Ideal) m ρ c (Proc.devRef .tc main_v28_0) : Vec Ideal S2x1x64 .f32))
              (sumDiv (W7 (F := Ideal) m ρ c (Proc.devRef .tc main_v28_0) : Vec Ideal S2x1x64 .f32))))
          (broadcastInDim S1x64 ![] bcast_S_S1x64 (constant (F := Ideal) S_ .f32 0x00000000#32)) := by
    show StableHlo.after hostOps2 _ (Proc.devRef .tc main_v38) = _
    unfold sumDiv
    after_results
  rw [e, var_apply]

/-- The result: the scatter-mean of the last region's output rows by the target nodes. -/
theorem result (c : Dev nD) :
    W10 (F := Ideal) m ρ c (Proc.devRef .tc main_v51)
      = KTail.tail (W9 (F := Ideal) m ρ c (Proc.devRef .tc main_v39)) (W9 (F := Ideal) m ρ c (Proc.devRef .tc main_v3)) := by
  show StableHlo.after hostOps3 _ (Proc.devRef .tc main_v51) = _
  after_results_simp
  rfl

/-- The target-node vector is row 1 of the edge array, from the first stretch on. -/
theorem dst_eq (c : Dev nD) :
    W1 (F := Ideal) m ρ c (Proc.devRef .tc main_v3) = KTail.dstOf (m ((c : Thread nD τ).loc main_arg1)) := by
  show StableHlo.after hostOps0 _ (Proc.devRef .tc main_v3) = _
  unfold KTail.dstOf
  after_results
  rfl

end Cert.KernelIdeal.HostK

end
-- ==== Proof.RowGather.lean ====
/-
  Two shape operations read at an element, for any element type.

  A row gather: the operand is an [N, C] array, the indices an [R, 1] array of words, the result the [R, C] array
  whose row r is the operand's row at index r — the index read as a signed integer and clamped into [0, N − 1], so
  an index already in that range selects exactly that row.

  A concatenation of an [R, A] and an [R, B] array along the second axis: column j of the result is column j of
  the first array when j < A and column j − A of the second otherwise.
-/
import Idealize.ShloMosaic.PureOps.Ideal
import Idealize.ShloMosaic.Lib.ValueIdx
import Idealize.ShloMosaic.Lib.Pipeline.Value

noncomputable section

namespace Cert.RowGather

open Idealize.ShloMosaic Idealize.ShloMosaic.ValueIdx

/-! ## A row gather at an element -/

section Rows
variable {α : Type}

/-- The dimension numbers of a row gather (offset axis 1, collapsed axis 0, start index map [0], index vector on
    axis 1, slices of one whole row) for an operand [N, C], start indices [R, 1] and result [R, C]; their conditions
    `wf` are decided on a program's literal shapes. -/
abbrev takeRows (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather at (r, j): the operand at row `idx[r, 0]`, read signed and clamped into [0, N − 1], and column j. -/
theorem gather_rows_clamp {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (j : Fin C) :
    Host.gather (takeRows N C R wf) x idx (ix2 r j)
      = x (ix2 ⟨min (idx (ix2 r (0 : Fin 1))).toInt.toNat (N - 1), by omega⟩ j) := by
  unfold Host.gather
  congr 1
  funext a
  refine Fin.ext ?_
  match a with
  | ⟨0, _⟩ =>
    -- the collapsed axis: the clamped start index alone
    show (takeRows N C R wf).start (ix2 r j) idx (0 : Fin 2) + (takeRows N C R wf).batchCoord (ix2 r j) (0 : Fin 2)
        + (takeRows N C R wf).offCoord (ix2 r j) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRows N C R wf).startIndexMap from List.mem_singleton.mpr rfl)]
    have hsi : (takeRows N C R wf).siIdx (ix2 r j) ⟨List.idxOf (0 : Fin 2) (takeRows N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    -- the offset axis: no start index, the result's own column
    show (takeRows N C R wf).start (ix2 r j) idx (1 : Fin 2) + (takeRows N C R wf).batchCoord (ix2 r j) (1 : Fin 2)
        + (takeRows N C R wf).offCoord (ix2 r j) (1 : Fin 2) = j.val
    rw [GatherDims.batchCoord_eq_zero _ _ _ List.not_mem_nil]
    have h1 : ¬ (1 : Fin 2) ∈ ([0] : List (Fin 2)) := by decide
    have hs : (takeRows N C R wf).start (ix2 r j) idx (1 : Fin 2) = 0 := by
      unfold GatherDims.start
      rw [dif_neg (show ¬ (1 : Fin 2) ∈ (takeRows N C R wf).startIndexMap from h1)]
    rw [hs]
    simp only [Nat.add_zero, Nat.zero_add]
    unfold GatherDims.offCoord
    rw [dif_pos ((GatherDims.mem_sKept (takeRows N C R wf) (1 : Fin 2)).2 ⟨h1, List.not_mem_nil⟩)]
    rfl

/-- A 32-bit start index that is, read unsigned, below the row count `N` (itself below 2³¹) is the same number read
    signed, and the clamp leaves it alone: the gather reads exactly that row. -/
theorem gather_rows_apply {N C R : Nat} (hN : N < 2 ^ 31)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (r : Fin R) (j : Fin C)
    (h : (idx (ix2 r (0 : Fin 1))).toNat < N) :
    Host.gather (takeRows N C R wf) x idx (ix2 r j) = x (ix2 ⟨(idx (ix2 r (0 : Fin 1))).toNat, h⟩ j) := by
  rw [gather_rows_clamp (by omega) wf x idx r j]
  congr 2
  refine Fin.ext ?_
  show min (idx (ix2 r (0 : Fin 1))).toInt.toNat (N - 1) = (idx (ix2 r (0 : Fin 1))).toNat
  rw [BitVec.toInt_eq_toNat_of_lt (by omega), Int.toNat_natCast]
  omega

end Rows

/-! ## A two-piece concatenation along the columns at an element -/

section Cols
variable {α : Type}

/-- Column `j` of the concatenation of an [R, A] and an [R, B] array along axis 1: the first array's column `j` when
    `j < A`, else the second's column `j − A`. -/
theorem concat_cols_apply {R A B T : Nat} (hT : T = A + B)
    (a : (⟨2, ![R, A]⟩ : Shape).Idx → α) (b : (⟨2, ![R, B]⟩ : Shape).Idx → α)
    (h : Shape.Concatenates [(⟨2, ![R, A]⟩ : Shape), ⟨2, ![R, B]⟩] ⟨2, ![R, T]⟩ (1 : Fin 2))
    (r : Fin R) (j : Fin T) :
    concatenate ⟨2, ![R, T]⟩ (1 : Fin 2) [⟨⟨2, ![R, A]⟩, a⟩, ⟨⟨2, ![R, B]⟩, b⟩] h (ix2 r j)
      = if hj : j.val < A then a (ix2 r ⟨j.val, hj⟩) else b (ix2 r ⟨j.val - A, by omega⟩) := by
  split
  · next hj =>
    refine concatenate_pair_apply_left (t := ⟨2, ![R, T]⟩) (s₁ := ⟨2, ![R, A]⟩) (s₂ := ⟨2, ![R, B]⟩) (1 : Fin 2) a b h
      (ix2 r j) rfl (ix2 r ⟨j.val, hj⟩) ?_
    intro c
    match c with
    | ⟨0, _⟩ => rfl
    | ⟨1, _⟩ => rfl
  · next hj =>
    refine concatenate_pair_apply_right (t := ⟨2, ![R, T]⟩) (s₁ := ⟨2, ![R, A]⟩) (s₂ := ⟨2, ![R, B]⟩) (1 : Fin 2) a b h
      (ix2 r j) rfl rfl (ix2 r ⟨j.val - A, by omega⟩) ?_ ?_
    · intro c hc
      match c with
      | ⟨0, _⟩ => rfl
      | ⟨1, _⟩ => exact absurd rfl hc
    · show j.val - A + A = j.val
      omega

end Cols

end Cert.RowGather

end
-- ==== Proof.PrefixK.lean ====
/-
  What the kernel program's first host stretches leave in the arrays its regions read, element by element.

  Under the range fact (every entry of the edge array is a node number below 50000) the index into the node
  features is never negative and never out of range, so "add 50000 to a negative index" changes nothing, the
  in-range test is true at every edge, and the fill value is never selected: a gathered row is a row of the node
  features.  The edge's input row is the target's row followed by source row minus target row.  The weight
  matrices pass through a change of float format, the identity on extended reals, and the six vectors through a
  reshape from [64] to [1, 64].
-/
import proofs.«401892_j53961969107163_2_alg».proof.Proof.Gen.KernelIdeal.Frame
import proofs.«401892_j53961969107163_2_alg».proof.Proof.Spec
import proofs.«401892_j53961969107163_2_alg».proof.Proof.Inputs
import proofs.«401892_j53961969107163_2_alg».proof.Proof.Consts
import proofs.«401892_j53961969107163_2_alg».proof.Proof.RowGather
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

set_option maxRecDepth 16384

noncomputable section

namespace Cert.KernelIdeal.PrefixK

open Cert.KernelIdeal Cert.KernelIdeal.Gen Cert.Spec Cert.Inputs
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## Typed references: reading through one, and its two casts cancelling -/

/-- Contents moved to a buffer's own type and back are the contents. -/
theorem ofBuf_toBuf {T : BufTy} {Val : EltTy → Type} (x : StableHlo.TRef sig T) (v : T.Contents Val) :
    x.ofBuf (x.toBuf v) = v := by
  obtain ⟨r, h, h1, h2⟩ := x
  subst h
  rfl

/-- What a valuation holds at a typed reference, at the reference's declared type. -/
abbrev rd {T : BufTy} (V : Valuation τ sig (Elt Ideal)) (x : StableHlo.TRef sig T) : T.Contents (Elt Ideal) :=
  x.ofBuf (V (Proc.devRef .tc x.ref))

/-! ## The arguments the first three stretches leave alone

No operation of the first three stretches writes an argument's buffer, so each still holds the launch's contents. -/

theorem W3_arg0 (c : Dev nD) : W3 (F := Ideal) m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results <;> rfl

theorem W3_arg2 (c : Dev nD) : W3 (F := Ideal) m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results <;> rfl

theorem W3_arg3 (c : Dev nD) : W3 (F := Ideal) m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results <;> rfl

theorem W3_arg4 (c : Dev nD) : W3 (F := Ideal) m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results <;> rfl

theorem W3_arg5 (c : Dev nD) : W3 (F := Ideal) m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results <;> rfl

theorem W3_arg6 (c : Dev nD) : W3 (F := Ideal) m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results <;> rfl

theorem W3_arg7 (c : Dev nD) : W3 (F := Ideal) m ρ c (Proc.devRef .tc main_arg7) = m ((c : Thread nD τ).loc main_arg7) := by
  show StableHlo.after hostOps0_2 (StableHlo.after hostOps0_1 (StableHlo.after hostOps0 (W0 m ρ c))) (Proc.devRef .tc main_arg7) = _
  after_results <;> rfl

theorem W3_arg8 (c : Dev nD) : W3 (F := Ideal) m ρ c (Proc.devRef .tc main_arg8) = m ((c : Thread nD τ).loc main_arg8) := by
  show StableHlo.after hostOps0_2 (StableHlo.after hostOps0_1 (StableHlo.after hostOps0 (W0 m ρ c))) (Proc.devRef .tc main_arg8) = _
  after_results <;> rfl

theorem W3_arg9 (c : Dev nD) : W3 (F := Ideal) m ρ c (Proc.devRef .tc main_arg9) = m ((c : Thread nD τ).loc main_arg9) := by
  show StableHlo.after hostOps0_2 (StableHlo.after hostOps0_1 (StableHlo.after hostOps0 (W0 m ρ c))) (Proc.devRef .tc main_arg9) = _
  after_results <;> rfl

/-! ## The last stretch, array by array, over any contents before it -/

theorem v9_arr (V : Valuation τ sig (Elt Ideal)) :
    @Eq (Vec Ideal S128x64 .bf16) (StableHlo.after (hostOps0_3 (F := Ideal)) V (Proc.devRef .tc main_v9))
      (truncf (F := Ideal) .bf16 (V (Proc.devRef .tc main_arg2) : FVec Ideal S128x64 .f32) bitsLt_bf16_f32) := by
  after_results <;> rfl

theorem v10_arr (V : Valuation τ sig (Elt Ideal)) :
    @Eq (Vec Ideal S64x64 .bf16) (StableHlo.after (hostOps0_3 (F := Ideal)) V (Proc.devRef .tc main_v10))
      (truncf (F := Ideal) .bf16 (V (Proc.devRef .tc main_arg6) : FVec Ideal S64x64 .f32) bitsLt_bf16_f32) := by
  after_results <;> rfl

theorem v11_arr (V : Valuation τ sig (Elt Ideal)) :
    @Eq (Vec Ideal S1x64 .f32) (StableHlo.after (hostOps0_3 (F := Ideal)) V (Proc.devRef .tc main_v11))
      (shapeCast S1x64 (V (Proc.devRef .tc main_arg3) : Vec Ideal S64 .f32) shapeCasts_S64_S1x64) := by
  after_results <;> rfl

theorem v12_arr (V : Valuation τ sig (Elt Ideal)) :
    @Eq (Vec Ideal S1x64 .f32) (StableHlo.after (hostOps0_3 (F := Ideal)) V (Proc.devRef .tc main_v12))
      (shapeCast S1x64 (V (Proc.devRef .tc main_arg4) : Vec Ideal S64 .f32) shapeCasts_S64_S1x64) := by
  after_results <;> rfl

theorem v13_arr (V : Valuation τ sig (Elt Ideal)) :
    @Eq (Vec Ideal S1x64 .f32) (StableHlo.after (hostOps0_3 (F := Ideal)) V (Proc.devRef .tc main_v13))
      (shapeCast S1x64 (V (Proc.devRef .tc main_arg5) : Vec Ideal S64 .f32) shapeCasts_S64_S1x64) := by
  after_results <;> rfl

theorem v14_arr (V : Valuation τ sig (Elt Ideal)) :
    @Eq (Vec Ideal S1x64 .f32) (StableHlo.after (hostOps0_3 (F := Ideal)) V (Proc.devRef .tc main_v14))
      (shapeCast S1x64 (V (Proc.devRef .tc main_arg7) : Vec Ideal S64 .f32) shapeCasts_S64_S1x64) := by
  after_results <;> rfl

theorem v15_arr (V : Valuation τ sig (Elt Ideal)) :
    @Eq (Vec Ideal S1x64 .f32) (StableHlo.after (hostOps0_3 (F := Ideal)) V (Proc.devRef .tc main_v15))
      (shapeCast S1x64 (V (Proc.devRef .tc main_arg8) : Vec Ideal S64 .f32) shapeCasts_S64_S1x64) := by
  after_results <;> rfl

theorem v16_arr (V : Valuation τ sig (Elt Ideal)) :
    @Eq (Vec Ideal S1x64 .f32) (StableHlo.after (hostOps0_3 (F := Ideal)) V (Proc.devRef .tc main_v16))
      (shapeCast S1x64 (V (Proc.devRef .tc main_arg9) : Vec Ideal S64 .f32) shapeCasts_S64_S1x64) := by
  after_results <;> rfl

/-! ## Words: a node number is its own wrap-around and passes the range test -/

/-- A word below 50000 is not negative. -/
theorem slt_zero_of_lt {w : BitVec 32} (h : w.toNat < 50000) : IntOp.cmpi .slt w 0#32 = 0#1 :=
  eq_zero_of_ne_one fun e => by
    have h0 : (0#32 : BitVec 32).toNat = 0 := rfl
    have := (StableHlo.Predicate.slt_iff_toNat (a := w) (b := 0#32) (by omega) (by omega)).mp e
    omega

/-- A word below 50000 is at least zero … -/
theorem sge_zero_of_lt {w : BitVec 32} (h : w.toNat < 50000) : IntOp.cmpi .sge w 0#32 = 1#1 := by
  have h0 : (0#32 : BitVec 32).toNat = 0 := rfl
  exact (StableHlo.Predicate.sge_iff_toNat (a := w) (b := 0#32) (by omega) (by omega)).mpr (by omega)

/-- … and at most 49999. -/
theorem sle_last_of_lt {w : BitVec 32} (h : w.toNat < 50000) : IntOp.cmpi .sle w 49999#32 = 1#1 := by
  have h0 : (49999#32 : BitVec 32).toNat = 49999 := rfl
  exact (StableHlo.Predicate.sle_iff_toNat (a := w) (b := 49999#32) (by omega) (by omega)).mpr (by omega)

/-- A reduction by `and` from the bit 1 over an operand that is 1 everywhere is 1 everywhere. -/
theorem reduce_andi_ones {s t u : Shape} {axes : List (Fin s.rank)} (x : IVec s 1) (init : IVec u 1)
    (h : s.ReducesTo axes t) (hu : 0 < u.numel) (hx : ∀ i, x i = 1#1) (hi : init (Shape.Idx.first hu) = 1#1) (j : t.Idx) :
    Host.reduce IntOp.andi x init h hu j = 1#1 := by
  have key : ∀ l : List (Fin s.numel), l.foldl (fun r n => IntOp.andi r (x (s.rowMajor.symm n))) 1#1 = 1#1 := by
    intro l
    induction l with
    | nil => rfl
    | cons n l ih => rw [List.foldl_cons, hx, show IntOp.andi (1#1 : BitVec 1) 1#1 = 1#1 from by decide]; exact ih
  unfold Host.reduce
  rw [hi]
  exact key _

/-! ## Taking rows by an index vector, as the program spells it

`x[idx]` with numpy's conventions: a negative index has the row count added; the row is gathered (the start index
clamped into range); where the index was outside [0, 49999] the result is a fill value instead. -/

/-- The index vector with 50000 added to its negative entries, as a column. -/
def wrapCol (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 50000#32))) idx)

/-- The test 0 ≤ i ≤ 49999 on each entry of an index column. -/
def inRange (col : IVec S1600000x1 32) : IVec S1600000 1 :=
  Host.reduce IntOp.andi
    (andi (cmpi .sge col (broadcastInDim S1600000x1 ![] bcast_S_S1600000x1 (constantI S_ 32 0#32)))
      (cmpi .sle col (broadcastInDim S1600000x1 ![0, 1] bcast_S1x1_S1600000x1_0_1
        (broadcastInDim S1x1 ![1] bcast_S1_S1x1_1 (constantI S1 32 49999#32)))))
    (constantI S_ 1 1#1) reducesTo_S1600000x1_S1600000_d1 h_S_

/-- The rows of `x` at the wrapped indices where the index is in range, a fill value elsewhere. -/
def takeFill (x : Vec Ideal S50000x64 .f32) (idx : IVec S1600000 32) : Vec Ideal S1600000x64 .f32 :=
  select (broadcastInDim S1600000x64 ![0] bcast_S1600000_S1600000x64_0 (inRange (wrapCol idx)))
    (Host.gather gather_S50000x64_S1600000x1_S1600000x64_1_0_n_n_0_1_164 x (wrapCol idx))
    (broadcastInDim S1600000x64 ![] bcast_S_S1600000x64 (constant (F := Ideal) S_ .f32 0x7FC00000#32))

/-- A node number is not negative: the wrapped column holds the index itself. -/
theorem wrapCol_apply (idx : IVec S1600000 32) (e : Fin 1600000) (u : Fin 1) (h : (idx (ix1 e)).toNat < 50000) :
    wrapCol idx (ix2 e u) = idx (ix1 e) := by
  unfold wrapCol
  refine (broadcastInDim_apply _ _ _ (ix2 e u) (ix1 e) (fun a => ?_)).trans ?_
  · match a with
    | ⟨0, _⟩ => rfl
  · show Scalar.select (IntOp.cmpi .slt (idx (ix1 e)) 0#32) (IntOp.addi (idx (ix1 e)) 50000#32) (idx (ix1 e)) = idx (ix1 e)
    rw [slt_zero_of_lt h, select_zero]

/-- Node numbers all pass the range test. -/
theorem inRange_ones (col : IVec S1600000x1 32) (hcol : ∀ i, (col i).toNat < 50000) (e : Fin 1600000) :
    inRange col (ix1 e) = 1#1 := by
  unfold inRange
  refine reduce_andi_ones _ _ _ _ (fun i => ?_) rfl _
  show IntOp.andi (IntOp.cmpi .sge (col i) 0#32) (IntOp.cmpi .sle (col i) 49999#32) = 1#1
  rw [sge_zero_of_lt (hcol i), sle_last_of_lt (hcol i)]
  decide

/-- TAKING ROWS BY NODE NUMBERS: where every index is a node number, row `e` of the result is the row of `x` that
    index `e` names. -/
theorem takeFill_apply (x : Vec Ideal S50000x64 .f32) (idx : IVec S1600000 32) (hall : ∀ e, (idx (ix1 e)).toNat < 50000)
    (e : Fin 1600000) (k : Fin 64) (n : Fin 50000) (hn : (idx (ix1 e)).toNat = n.val) :
    takeFill x idx (ix2 e k) = x (ix2 n k) := by
  have hcol : ∀ i : S1600000x1.Idx, (wrapCol idx i).toNat < 50000 := fun i => by
    obtain ⟨a, b, rfl⟩ : ∃ (a : Fin 1600000) (b : Fin 1), i = ix2 a b := ⟨i 0, i 1, eq_ix2 i⟩
    rw [wrapCol_apply idx a b (hall a)]; exact hall a
  have hc : broadcastInDim S1600000x64 ![0] bcast_S1600000_S1600000x64_0 (inRange (wrapCol idx)) (ix2 e k) = 1#1 :=
    (broadcastInDim_apply _ _ _ (ix2 e k) (ix1 e) (fun a => by match a with | ⟨0, _⟩ => rfl)).trans
      (inRange_ones _ hcol e)
  have hw : wrapCol idx (ix2 e (0 : Fin 1)) = idx (ix1 e) := wrapCol_apply idx e 0 (hall e)
  unfold takeFill
  rw [select_apply, hc, select_one]
  show Host.gather (Cert.RowGather.takeRows 50000 64 1600000 gather_S50000x64_S1600000x1_S1600000x64_1_0_n_n_0_1_164_wf)
    x (wrapCol idx) (ix2 e k) = _
  rw [Cert.RowGather.gather_rows_apply (by decide) _ x (wrapCol idx) e k (by rw [hw]; exact hall e)]
  exact congrArg (fun r : Fin 50000 => x (ix2 r k))
    (Fin.ext (by show (wrapCol idx (ix2 e (0 : Fin 1))).toNat = n.val; rw [hw, hn]))

/-! ## The first three stretches, array by array, over any contents before them -/

/-- The first stretch puts row 0 of the edge array, the source nodes, in `main_v1` … -/
theorem v1_arr (V : Valuation τ sig (Elt Ideal)) :
    @Eq (IVec S1600000 32) (StableHlo.after (hostOps0 (F := Ideal)) V (Proc.devRef .tc main_v1))
      (shapeCast S1600000 (extractStridedSlice S1x1600000 ![0, 0] (V (Proc.devRef .tc main_arg1) : IVec S2x1600000 32)
        slices_S2x1600000_S1x1600000_0_0) shapeCasts_S1x1600000_S1600000) := by
  after_results <;> rfl

/-- … and row 1, the target nodes, in `main_v3`. -/
theorem v3_arr (V : Valuation τ sig (Elt Ideal)) :
    @Eq (IVec S1600000 32) (StableHlo.after (hostOps0 (F := Ideal)) V (Proc.devRef .tc main_v3))
      (shapeCast S1600000 (extractStridedSlice S1x1600000 ![1, 0] (V (Proc.devRef .tc main_arg1) : IVec S2x1600000 32)
        slices_S2x1600000_S1x1600000_1_0) shapeCasts_S1x1600000_S1600000) := by
  after_results <;> rfl

/-- Entry `e` of `main_v1` is the edge array at (0, e). -/
theorem v1_at (V : Valuation τ sig (Elt Ideal)) (e : Fin 1600000) :
    (StableHlo.after (hostOps0 (F := Ideal)) V (Proc.devRef .tc main_v1) : IVec S1600000 32) (ix1 e)
      = (V (Proc.devRef .tc main_arg1) : IVec S2x1600000 32) (ix2 (0 : Fin 2) e) := by
  refine (congrFun (v1_arr V) (ix1 e)).trans ?_
  rw [shapeCast_1a_a_apply]
  exact extractStridedSlice_apply _ _ _ (ix2 (0 : Fin 1) e) (ix2 (0 : Fin 2) e) (fun a => by
    match a with
    | ⟨0, _⟩ => rfl
    | ⟨1, _⟩ => show e.val = 0 + e.val; omega)

/-- Entry `e` of `main_v3` is the edge array at (1, e). -/
theorem v3_at (V : Valuation τ sig (Elt Ideal)) (e : Fin 1600000) :
    (StableHlo.after (hostOps0 (F := Ideal)) V (Proc.devRef .tc main_v3) : IVec S1600000 32) (ix1 e)
      = (V (Proc.devRef .tc main_arg1) : IVec S2x1600000 32) (ix2 (1 : Fin 2) e) := by
  refine (congrFun (v3_arr V) (ix1 e)).trans ?_
  rw [shapeCast_1a_a_apply]
  exact extractStridedSlice_apply _ _ _ (ix2 (0 : Fin 1) e) (ix2 (1 : Fin 2) e) (fun a => by
    match a with
    | ⟨0, _⟩ => rfl
    | ⟨1, _⟩ => show e.val = 0 + e.val; omega)

/-- The first stretch does not write the node features. -/
theorem arg0_keep0 (V : Valuation τ sig (Elt Ideal)) :
    StableHlo.after (hostOps0 (F := Ideal)) V (Proc.devRef .tc main_arg0) = V (Proc.devRef .tc main_arg0) := by
  after_results <;> rfl

/-- The casts of the typed references the two takes read and write are the identity. -/
theorem rd_arg0 (V : Valuation τ sig (Elt Ideal)) :
    rd V (.of main_arg0 : StableHlo.TRef sig ⟨S50000x64, .f32⟩) = V (Proc.devRef .tc main_arg0) := rfl
theorem rd_v3 (V : Valuation τ sig (Elt Ideal)) :
    rd V (.of main_v3 : StableHlo.TRef sig ⟨S1600000, .i32⟩) = V (Proc.devRef .tc main_v3) := rfl
theorem rd_v1 (V : Valuation τ sig (Elt Ideal)) :
    rd V (.of main_v1 : StableHlo.TRef sig ⟨S1600000, .i32⟩) = V (Proc.devRef .tc main_v1) := rfl
theorem toBuf_v4 (y : Vec Ideal S1600000x64 .f32) :
    (.of main_v4 : StableHlo.TRef sig ⟨S1600000x64, .f32⟩).toBuf y = y := rfl
theorem toBuf_v5 (y : Vec Ideal S1600000x64 .f32) :
    (.of main_v5 : StableHlo.TRef sig ⟨S1600000x64, .f32⟩).toBuf y = y := rfl

set_option maxHeartbeats 1000000 in
/-- The second stretch, with the typed references' casts as the program has them. -/
theorem v4_arr_cast (V : Valuation τ sig (Elt Ideal)) :
    StableHlo.after (hostOps0_1 (F := Ideal)) V (Proc.devRef .tc main_v4)
      = (.of main_v4 : StableHlo.TRef sig ⟨S1600000x64, .f32⟩).toBuf
          (takeFill (rd V (.of main_arg0 : StableHlo.TRef sig ⟨S50000x64, .f32⟩))
            (rd V (.of main_v3 : StableHlo.TRef sig ⟨S1600000, .i32⟩))) := by
  after_results_simp
  simp only [ofBuf_toBuf]
  rfl

/-- The second stretch takes the node features' rows at the target nodes into `main_v4` … -/
theorem v4_arr (V : Valuation τ sig (Elt Ideal)) :
    @Eq (Vec Ideal S1600000x64 .f32) (StableHlo.after (hostOps0_1 (F := Ideal)) V (Proc.devRef .tc main_v4))
      (takeFill (V (Proc.devRef .tc main_arg0)) (V (Proc.devRef .tc main_v3))) := by
  have h := v4_arr_cast V
  rw [rd_arg0, rd_v3, toBuf_v4] at h
  exact h

/-- … and writes neither the node features nor the source nodes. -/
theorem arg0_keep1 (V : Valuation τ sig (Elt Ideal)) :
    StableHlo.after (hostOps0_1 (F := Ideal)) V (Proc.devRef .tc main_arg0) = V (Proc.devRef .tc main_arg0) := by
  after_results_simp

theorem v1_keep1 (V : Valuation τ sig (Elt Ideal)) :
    StableHlo.after (hostOps0_1 (F := Ideal)) V (Proc.devRef .tc main_v1) = V (Proc.devRef .tc main_v1) := by
  after_results_simp

set_option maxHeartbeats 1000000 in
/-- The third stretch, with the typed references' casts as the program has them. -/
theorem v5_arr_cast (V : Valuation τ sig (Elt Ideal)) :
    StableHlo.after (hostOps0_2 (F := Ideal)) V (Proc.devRef .tc main_v5)
      = (.of main_v5 : StableHlo.TRef sig ⟨S1600000x64, .f32⟩).toBuf
          (takeFill (rd V (.of main_arg0 : StableHlo.TRef sig ⟨S50000x64, .f32⟩))
            (rd V (.of main_v1 : StableHlo.TRef sig ⟨S1600000, .i32⟩))) := by
  after_results_simp
  simp only [ofBuf_toBuf]
  rfl

/-- The third stretch takes the rows at the source nodes into `main_v5` … -/
theorem v5_arr (V : Valuation τ sig (Elt Ideal)) :
    @Eq (Vec Ideal S1600000x64 .f32) (StableHlo.after (hostOps0_2 (F := Ideal)) V (Proc.devRef .tc main_v5))
      (takeFill (V (Proc.devRef .tc main_arg0)) (V (Proc.devRef .tc main_v1))) := by
  have h := v5_arr_cast V
  rw [rd_arg0, rd_v1, toBuf_v5] at h
  exact h

/-- … and does not write `main_v4`. -/
theorem v4_keep2 (V : Valuation τ sig (Elt Ideal)) :
    StableHlo.after (hostOps0_2 (F := Ideal)) V (Proc.devRef .tc main_v4) = V (Proc.devRef .tc main_v4) := by
  after_results_simp

/-- The last stretch: source rows minus target rows, appended to the target rows, in the narrower format. -/
theorem v8_arr (V : Valuation τ sig (Elt Ideal)) :
    @Eq (Vec Ideal S1600000x128 .bf16) (StableHlo.after (hostOps0_3 (F := Ideal)) V (Proc.devRef .tc main_v8))
      (truncf (F := Ideal) .bf16
        (concatenate S1600000x128 1
          [⟨S1600000x64, (V (Proc.devRef .tc main_v4) : FVec Ideal S1600000x64 .f32)⟩,
           ⟨S1600000x64, subf (V (Proc.devRef .tc main_v5) : FVec Ideal S1600000x64 .f32) (V (Proc.devRef .tc main_v4))⟩]
          concatenates_S1600000x64_S1600000x64_S1600000x128_d1 : FVec Ideal S1600000x128 .f32) bitsLt_bf16_f32) := by
  after_results <;> rfl

/-- The edge rows the first region reads. -/
theorem h0_at (c : Dev nD) (hidx : ∀ i, ((m ((c : Thread nD τ).loc main_arg1) : IVec S2x1600000 32) i).toNat < 50000)
    (e : Fin NE) (k : Fin 128) :
    (W4 (F := Ideal) m ρ c (Proc.devRef .tc main_v8) : Vec Ideal S1600000x128 .bf16) (ix2 e k)
      = rows (m ((c : Thread nD τ).loc main_arg0)) (m ((c : Thread nD τ).loc main_arg1)) hidx e k := by
  -- the two index vectors are rows 0 and 1 of the edge array: node numbers
  have hs : ∀ e' : Fin 1600000, (W1 (F := Ideal) m ρ c (Proc.devRef .tc main_v1) : IVec S1600000 32) (ix1 e')
      = (m ((c : Thread nD τ).loc main_arg1) : IVec S2x1600000 32) (ix2 (0 : Fin 2) e') := fun e' => v1_at (W0 m ρ c) e'
  have ht : ∀ e' : Fin 1600000, (W1 (F := Ideal) m ρ c (Proc.devRef .tc main_v3) : IVec S1600000 32) (ix1 e')
      = (m ((c : Thread nD τ).loc main_arg1) : IVec S2x1600000 32) (ix2 (1 : Fin 2) e') := fun e' => v3_at (W0 m ρ c) e'
  have hsl : ∀ e' : Fin 1600000,
      ((W1 (F := Ideal) m ρ c (Proc.devRef .tc main_v1) : IVec S1600000 32) (ix1 e')).toNat < 50000 :=
    fun e' => by rw [hs e']; exact hidx _
  have htl : ∀ e' : Fin 1600000,
      ((W1 (F := Ideal) m ρ c (Proc.devRef .tc main_v3) : IVec S1600000 32) (ix1 e')).toNat < 50000 :=
    fun e' => by rw [ht e']; exact hidx _
  -- the node features reach both takes as launched
  have hx1 : W1 (F := Ideal) m ρ c (Proc.devRef .tc main_arg0) = m ((c : Thread nD τ).loc main_arg0) :=
    arg0_keep0 (W0 m ρ c)
  have hx2 : W2 (F := Ideal) m ρ c (Proc.devRef .tc main_arg0) = m ((c : Thread nD τ).loc main_arg0) :=
    (arg0_keep1 (W1 m ρ c)).trans hx1
  have hv1 : W2 (F := Ideal) m ρ c (Proc.devRef .tc main_v1) = W1 m ρ c (Proc.devRef .tc main_v1) :=
    v1_keep1 (W1 m ρ c)
  -- the rows taken at the targets and at the sources
  have E4 : (W3 (F := Ideal) m ρ c (Proc.devRef .tc main_v4) : Vec Ideal S1600000x64 .f32)
      = takeFill (m ((c : Thread nD τ).loc main_arg0)) (W1 m ρ c (Proc.devRef .tc main_v3)) :=
    (v4_keep2 (W2 m ρ c)).trans ((v4_arr (W1 m ρ c)).trans (by rw [hx1]))
  have E5 : (W3 (F := Ideal) m ρ c (Proc.devRef .tc main_v5) : Vec Ideal S1600000x64 .f32)
      = takeFill (m ((c : Thread nD τ).loc main_arg0)) (W1 m ρ c (Proc.devRef .tc main_v1)) :=
    (v5_arr (W2 m ρ c)).trans (by rw [hx2, hv1])
  have A4 : ∀ j : Fin 64, (W3 (F := Ideal) m ρ c (Proc.devRef .tc main_v4) : Vec Ideal S1600000x64 .f32) (ix2 e j)
      = M2 (m ((c : Thread nD τ).loc main_arg0)) (nodeOf (m ((c : Thread nD τ).loc main_arg1)) hidx 1 e) j := fun j => by
    rw [E4]
    exact takeFill_apply _ _ htl e j (nodeOf (m ((c : Thread nD τ).loc main_arg1)) hidx 1 e) ((congrArg BitVec.toNat (ht e)).trans rfl)
  have A5 : ∀ j : Fin 64, (W3 (F := Ideal) m ρ c (Proc.devRef .tc main_v5) : Vec Ideal S1600000x64 .f32) (ix2 e j)
      = M2 (m ((c : Thread nD τ).loc main_arg0)) (nodeOf (m ((c : Thread nD τ).loc main_arg1)) hidx 0 e) j := fun j => by
    rw [E5]
    exact takeFill_apply _ _ hsl e j (nodeOf (m ((c : Thread nD τ).loc main_arg1)) hidx 0 e) ((congrArg BitVec.toNat (hs e)).trans rfl)
  -- the last stretch at (e, k): the format change is the identity, then the two halves of the concatenation
  refine (congrFun (v8_arr (W3 m ρ c)) (ix2 e k)).trans ?_
  rw [truncf_apply]
  refine (Cert.RowGather.concat_cols_apply (R := 1600000) (A := 64) (B := 64) (T := 128) rfl _ _
    concatenates_S1600000x64_S1600000x64_S1600000x128_d1 e k).trans ?_
  unfold rows h0
  by_cases hk : k.val < 64
  · rw [dif_pos hk, dif_pos hk]
    exact A4 ⟨k.val, hk⟩
  · rw [dif_neg hk, dif_neg hk, subf_apply, A5, A4]

/-- The first layer's weights. -/
theorem w1_at (c : Dev nD) (k : Fin 128) (o : Fin 64) :
    (W4 (F := Ideal) m ρ c (Proc.devRef .tc main_v9) : Vec Ideal S128x64 .bf16) (ix2 k o)
      = M2 (m ((c : Thread nD τ).loc main_arg2)) k o := by
  refine (congrFun (v9_arr (W3 m ρ c)) (ix2 k o)).trans ?_
  rw [truncf_apply, W3_arg2]
  rfl

/-- The second layer's weights. -/
theorem w2_at (c : Dev nD) (k : Fin 64) (o : Fin 64) :
    (W4 (F := Ideal) m ρ c (Proc.devRef .tc main_v10) : Vec Ideal S64x64 .bf16) (ix2 k o)
      = M2 (m ((c : Thread nD τ).loc main_arg6)) k o := by
  refine (congrFun (v10_arr (W3 m ρ c)) (ix2 k o)).trans ?_
  rw [truncf_apply, W3_arg6]
  rfl

/-- The first layer's bias as a row. -/
theorem b1_at (c : Dev nD) (o : Fin 64) :
    (W4 (F := Ideal) m ρ c (Proc.devRef .tc main_v11) : Vec Ideal S1x64 .f32) (ix2 (0 : Fin 1) o)
      = M1 (m ((c : Thread nD τ).loc main_arg3)) o := by
  refine (congrFun (v11_arr (W3 m ρ c)) (ix2 (0 : Fin 1) o)).trans ?_
  rw [shapeCast_a_1a_apply, W3_arg3]
  rfl

/-- The first normalisation's scale as a row. -/
theorem g1_at (c : Dev nD) (o : Fin 64) :
    (W4 (F := Ideal) m ρ c (Proc.devRef .tc main_v12) : Vec Ideal S1x64 .f32) (ix2 (0 : Fin 1) o)
      = M1 (m ((c : Thread nD τ).loc main_arg4)) o := by
  refine (congrFun (v12_arr (W3 m ρ c)) (ix2 (0 : Fin 1) o)).trans ?_
  rw [shapeCast_a_1a_apply, W3_arg4]
  rfl

/-- The first normalisation's shift as a row. -/
theorem be1_at (c : Dev nD) (o : Fin 64) :
    (W4 (F := Ideal) m ρ c (Proc.devRef .tc main_v13) : Vec Ideal S1x64 .f32) (ix2 (0 : Fin 1) o)
      = M1 (m ((c : Thread nD τ).loc main_arg5)) o := by
  refine (congrFun (v13_arr (W3 m ρ c)) (ix2 (0 : Fin 1) o)).trans ?_
  rw [shapeCast_a_1a_apply, W3_arg5]
  rfl

/-- The second layer's bias as a row. -/
theorem b2_at (c : Dev nD) (o : Fin 64) :
    (W4 (F := Ideal) m ρ c (Proc.devRef .tc main_v14) : Vec Ideal S1x64 .f32) (ix2 (0 : Fin 1) o)
      = M1 (m ((c : Thread nD τ).loc main_arg7)) o := by
  refine (congrFun (v14_arr (W3 m ρ c)) (ix2 (0 : Fin 1) o)).trans ?_
  rw [shapeCast_a_1a_apply, W3_arg7]
  rfl

/-- The second normalisation's scale as a row. -/
theorem g2_at (c : Dev nD) (o : Fin 64) :
    (W4 (F := Ideal) m ρ c (Proc.devRef .tc main_v15) : Vec Ideal S1x64 .f32) (ix2 (0 : Fin 1) o)
      = M1 (m ((c : Thread nD τ).loc main_arg8)) o := by
  refine (congrFun (v15_arr (W3 m ρ c)) (ix2 (0 : Fin 1) o)).trans ?_
  rw [shapeCast_a_1a_apply, W3_arg8]
  rfl

/-- The second normalisation's shift as a row. -/
theorem be2_at (c : Dev nD) (o : Fin 64) :
    (W4 (F := Ideal) m ρ c (Proc.devRef .tc main_v16) : Vec Ideal S1x64 .f32) (ix2 (0 : Fin 1) o)
      = M1 (m ((c : Thread nD τ).loc main_arg9)) o := by
  refine (congrFun (v16_arr (W3 m ρ c)) (ix2 (0 : Fin 1) o)).trans ?_
  rw [shapeCast_a_1a_apply, W3_arg9]
  rfl

end Cert.KernelIdeal.PrefixK

end
-- ==== Proof.Region0.lean ====
/-
  What the first region leaves in its three output arrays, as functions of the arrays it is entered with.

  The grid has 100 points: point t works on rows 16000·t … 16000·t + 15999 of the edge array, and points
  0 … 49 share one accumulator row, points 50 … 99 the other.  At each point the block's affine image
  (block · weights + bias) is written to the same rows of the first output, and its column sums and column sums of
  squares are added to the half's accumulator rows, which the half's first point resets to zero.  So after the last
  point the first output is the affine image of the whole edge array, and row p of the second and third outputs
  holds the column sums, resp. column sums of squares, of that image over half p of the edges.
-/
import proofs.«401892_j53961969107163_2_alg».proof.Proof.Gen.KernelIdeal.Frame
import proofs.«401892_j53961969107163_2_alg».proof.Proof.Spec
import proofs.«401892_j53961969107163_2_alg».proof.Proof.Consts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.R0

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

-- the buffer contents the region is entered from
variable (V : (c : Dev nD) → (b : Ref sig .tc) → Buf (Elt Ideal) ((c : Thread nD τ).loc b))

/-- The edge rows the region reads. -/
abbrev A0 (c : Dev nD) : Vec Ideal S1600000x128 .bf16 := V c (Pipeline.arrRef spec0 0)
/-- The weights. -/
abbrev A1 (c : Dev nD) : Vec Ideal S128x64 .bf16 := V c (Pipeline.arrRef spec0 1)
/-- The bias, as one row. -/
abbrev A2 (c : Dev nD) : Vec Ideal S1x64 .f32 := V c (Pipeline.arrRef spec0 2)

/-- The affine image of the edge rows. -/
def h1 (c : Dev nD) : Fin NE → Fin 64 → EReal :=
  lin (fun e k => A0 V c (ix2 e k)) (fun k o => A1 V c (ix2 k o)) (fun o => A2 V c (ix2 (0 : Fin 1) o))

/-! ## What one grid point leaves in each output's buffer

At a point that opens a half (its second grid coordinate is 0) the two accumulator buffers are first set to zero; at
every other point they are read as the point before left them.  Either way the point then stores the block's affine
image, and adds the image's column sums, resp. column sums of squares, to the accumulator rows. -/

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A half's first point leaves the block's affine image in the first output's buffer. -/
theorem aff_A (c : Dev nD) (i : grid0.Coords) (a2 : Memref sig .tc .vmem S16000x128 .bf16) (h2 : a2.IsWhole) (a3 : Memref sig .tc .vmem S128x64 .bf16) (h3 : a3.IsWhole) (a4 : Memref sig .tc .vmem S1x64 .f32) (h4 : a4.IsWhole) (a5 : Memref sig .tc .vmem S16000x64 .bf16) (h5 : a5.IsWhole) (a6 : Memref sig .tc .vmem S1x1x64 .f32) (h6 : a6.IsWhole) (a7 : Memref sig .tc .vmem S1x1x64 .f32) (h7 : a7.IsWhole) (hc : cond0_0 i) (x0 : Vec F S16000x128 .bf16) (x1 : Vec F S128x64 .bf16) (x2 : Vec F S1x64 .f32) :
    out0_A_3 c i a2 h2 a3 h3 a4 h4 a5 h5 a6 h6 a7 h7 hc x0 x1 x2 = k0_pay4 x0 x1 x2 := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_unit_zero hz2]
  simp only [View.readAt_eq_ld, h2.read_unread, h3.read_unread, h4.read_unread, View.ld_unit_zero (S := S16000x128) hz2, View.ld_unit_zero (S := S128x64) hz2, View.ld_unit_zero (S := S1x64) hz2]

/-- So does every later point. -/
theorem aff_B (c : Dev nD) (i : grid0.Coords) (a2 : Memref sig .tc .vmem S16000x128 .bf16) (h2 : a2.IsWhole) (a3 : Memref sig .tc .vmem S128x64 .bf16) (h3 : a3.IsWhole) (a4 : Memref sig .tc .vmem S1x64 .f32) (h4 : a4.IsWhole) (a5 : Memref sig .tc .vmem S16000x64 .bf16) (h5 : a5.IsWhole) (a6 : Memref sig .tc .vmem S1x1x64 .f32) (h6 : a6.IsWhole) (a7 : Memref sig .tc .vmem S1x1x64 .f32) (h7 : a7.IsWhole) (hc : ¬cond0_0 i) (x0 : Vec F S16000x128 .bf16) (x1 : Vec F S128x64 .bf16) (x2 : Vec F S1x64 .f32) (xo4 xo5 : Vec F S1x1x64 .f32) :
    out0_B_3 c i a2 h2 a3 h3 a4 h4 a5 h5 a6 h6 a7 h7 hc x0 x1 x2 xo4 xo5 = k0_pay4 x0 x1 x2 := by
  unfold out0_B_3
  rw [View.read_writes_eq_canon _ _ _ (cover0_B_3 c i a2 h2 a3 h3 a4 h4 a5 h5 a6 h6 a7 h7 hc x0 x1 x2 xo4 xo5)]
  unfold kernelRun0_B
  dsimp only
  sl_unfold_words
  rw [View.canon_unit_zero hz2]
  simp only [View.readAt_eq_ld, h2.read_unread, h3.read_unread, h4.read_unread, View.ld_unit_zero (S := S16000x128) hz2, View.ld_unit_zero (S := S128x64) hz2, View.ld_unit_zero (S := S1x64) hz2]

/-- A half's first point leaves zero plus the block's column sums in the second output's buffer. -/
theorem sum_A (c : Dev nD) (i : grid0.Coords) (a2 : Memref sig .tc .vmem S16000x128 .bf16) (h2 : a2.IsWhole) (a3 : Memref sig .tc .vmem S128x64 .bf16) (h3 : a3.IsWhole) (a4 : Memref sig .tc .vmem S1x64 .f32) (h4 : a4.IsWhole) (a5 : Memref sig .tc .vmem S16000x64 .bf16) (h5 : a5.IsWhole) (a6 : Memref sig .tc .vmem S1x1x64 .f32) (h6 : a6.IsWhole) (a7 : Memref sig .tc .vmem S1x1x64 .f32) (h7 : a7.IsWhole) (hc : cond0_0 i) (x0 : Vec F S16000x128 .bf16) (x1 : Vec F S128x64 .bf16) (x2 : Vec F S1x64 .f32) :
    out0_A_4 c i a2 h2 a3 h3 a4 h4 a5 h5 a6 h6 a7 h7 hc x0 x1 x2 = k0_pay5 x0 x1 x2 (k0_pay1 (F := F)) := by
  unfold out0_A_4
  rw [View.read_writes_eq_canon _ _ _ (cover0_A_4 c i a2 h2 a3 h3 a4 h4 a5 h5 a6 h6 a7 h7 hc x0 x1 x2)]
  unfold kernelRun0_A
  dsimp only
  sl_unfold_words
  rw [View.canon_cons_unit_zero (S := S1x1x64) hz3, View.readCov_unit_zero (S := S1x1x64) _ hz3]
  simp only [View.readAt_eq_ld, h2.read_unread, h3.read_unread, h4.read_unread, View.ld_unit_zero (S := S16000x128) hz2, View.ld_unit_zero (S := S128x64) hz2, View.ld_unit_zero (S := S1x64) hz2]

/-- A later point leaves what the buffer held plus the block's column sums. -/
theorem sum_B (c : Dev nD) (i : grid0.Coords) (a2 : Memref sig .tc .vmem S16000x128 .bf16) (h2 : a2.IsWhole) (a3 : Memref sig .tc .vmem S128x64 .bf16) (h3 : a3.IsWhole) (a4 : Memref sig .tc .vmem S1x64 .f32) (h4 : a4.IsWhole) (a5 : Memref sig .tc .vmem S16000x64 .bf16) (h5 : a5.IsWhole) (a6 : Memref sig .tc .vmem S1x1x64 .f32) (h6 : a6.IsWhole) (a7 : Memref sig .tc .vmem S1x1x64 .f32) (h7 : a7.IsWhole) (hc : ¬cond0_0 i) (x0 : Vec F S16000x128 .bf16) (x1 : Vec F S128x64 .bf16) (x2 : Vec F S1x64 .f32) (xo4 xo5 : Vec F S1x1x64 .f32) :
    out0_B_4 c i a2 h2 a3 h3 a4 h4 a5 h5 a6 h6 a7 h7 hc x0 x1 x2 xo4 xo5 = k0_pay5 x0 x1 x2 xo4 := by
  unfold out0_B_4
  rw [View.read_writes_eq_canon _ _ _ (cover0_B_4 c i a2 h2 a3 h3 a4 h4 a5 h5 a6 h6 a7 h7 hc x0 x1 x2 xo4 xo5)]
  unfold kernelRun0_B
  dsimp only
  sl_unfold_words
  rw [View.canon_unit_zero hz3]
  simp only [View.readAt_eq_ld, h2.read_unread, h3.read_unread, h4.read_unread, View.ld_unit_zero (S := S16000x128) hz2, View.ld_unit_zero (S := S128x64) hz2, View.ld_unit_zero (S := S1x64) hz2, h6.read_unread, View.ld_unit_zero (S := S1x1x64) hz3]

/-- A half's first point leaves zero plus the block's column sums of squares in the third output's buffer. -/
theorem sq_A (c : Dev nD) (i : grid0.Coords) (a2 : Memref sig .tc .vmem S16000x128 .bf16) (h2 : a2.IsWhole) (a3 : Memref sig .tc .vmem S128x64 .bf16) (h3 : a3.IsWhole) (a4 : Memref sig .tc .vmem S1x64 .f32) (h4 : a4.IsWhole) (a5 : Memref sig .tc .vmem S16000x64 .bf16) (h5 : a5.IsWhole) (a6 : Memref sig .tc .vmem S1x1x64 .f32) (h6 : a6.IsWhole) (a7 : Memref sig .tc .vmem S1x1x64 .f32) (h7 : a7.IsWhole) (hc : cond0_0 i) (x0 : Vec F S16000x128 .bf16) (x1 : Vec F S128x64 .bf16) (x2 : Vec F S1x64 .f32) :
    out0_A_5 c i a2 h2 a3 h3 a4 h4 a5 h5 a6 h6 a7 h7 hc x0 x1 x2 = k0_pay6 x0 x1 x2 (k0_pay2 (F := F)) := by
  unfold out0_A_5
  rw [View.read_writes_eq_canon _ _ _ (cover0_A_5 c i a2 h2 a3 h3 a4 h4 a5 h5 a6 h6 a7 h7 hc x0 x1 x2)]
  unfold kernelRun0_A
  dsimp only
  sl_unfold_words
  rw [View.canon_cons_unit_zero (S := S1x1x64) hz3, View.readCov_unit_zero (S := S1x1x64) _ hz3]
  simp only [View.readAt_eq_ld, h2.read_unread, h3.read_unread, h4.read_unread, View.ld_unit_zero (S := S16000x128) hz2, View.ld_unit_zero (S := S128x64) hz2, View.ld_unit_zero (S := S1x64) hz2]

/-- A later point leaves what the buffer held plus the block's column sums of squares. -/
theorem sq_B (c : Dev nD) (i : grid0.Coords) (a2 : Memref sig .tc .vmem S16000x128 .bf16) (h2 : a2.IsWhole) (a3 : Memref sig .tc .vmem S128x64 .bf16) (h3 : a3.IsWhole) (a4 : Memref sig .tc .vmem S1x64 .f32) (h4 : a4.IsWhole) (a5 : Memref sig .tc .vmem S16000x64 .bf16) (h5 : a5.IsWhole) (a6 : Memref sig .tc .vmem S1x1x64 .f32) (h6 : a6.IsWhole) (a7 : Memref sig .tc .vmem S1x1x64 .f32) (h7 : a7.IsWhole) (hc : ¬cond0_0 i) (x0 : Vec F S16000x128 .bf16) (x1 : Vec F S128x64 .bf16) (x2 : Vec F S1x64 .f32) (xo4 xo5 : Vec F S1x1x64 .f32) :
    out0_B_5 c i a2 h2 a3 h3 a4 h4 a5 h5 a6 h6 a7 h7 hc x0 x1 x2 xo4 xo5 = k0_pay6 x0 x1 x2 xo5 := by
  unfold out0_B_5
  rw [View.read_writes_eq_canon _ _ _ (cover0_B_5 c i a2 h2 a3 h3 a4 h4 a5 h5 a6 h6 a7 h7 hc x0 x1 x2 xo4 xo5)]
  unfold kernelRun0_B
  dsimp only
  sl_unfold_words
  rw [View.canon_unit_zero hz3]
  simp only [View.readAt_eq_ld, h2.read_unread, h3.read_unread, h4.read_unread, View.ld_unit_zero (S := S16000x128) hz2, View.ld_unit_zero (S := S128x64) hz2, View.ld_unit_zero (S := S1x64) hz2, h7.read_unread, View.ld_unit_zero (S := S1x1x64) hz3]

end Pieces

/-! ## The point's arithmetic, entry by entry

Over the extended reals the block product into a zero accumulator is the plain sum of products over the 128 input
columns, the change of float format is the identity, and a reduction along the rows is the sum over the 16000 rows. -/

section Payloads

/-- The product's left operand is read at the output's row … -/
theorem lhs_row (i : S16000x64.Idx) (q : dot_S16000x128_S128x64_S16000x64_1_0_0_1_n_n.contr.Idx) :
    (dot_S16000x128_S128x64_S16000x64_1_0_0_1_n_n.lhsIdx i q 0).val = (i 0).val := by
  unfold DotDims.lhsIdx
  rw [dif_neg (show ¬(0 : Fin S16000x128.rank) ∈ dot_S16000x128_S128x64_S16000x64_1_0_0_1_n_n.lhsBatch by decide), dif_pos (show (0 : Fin S16000x128.rank) ∈ dot_S16000x128_S128x64_S16000x64_1_0_0_1_n_n.lhsNonContracting by decide)]
  rfl
/-- … and the summation index; -/
theorem lhs_sum (i : S16000x64.Idx) (q : dot_S16000x128_S128x64_S16000x64_1_0_0_1_n_n.contr.Idx) :
    (dot_S16000x128_S128x64_S16000x64_1_0_0_1_n_n.lhsIdx i q 1).val = (q ⟨0, by decide⟩).val :=
  dot_S16000x128_S128x64_S16000x64_1_0_0_1_n_n.lhsIdx_val_of_single rfl i q
/-- the right operand at the summation index … -/
theorem rhs_sum (i : S16000x64.Idx) (q : dot_S16000x128_S128x64_S16000x64_1_0_0_1_n_n.contr.Idx) :
    (dot_S16000x128_S128x64_S16000x64_1_0_0_1_n_n.rhsIdx i q 0).val = (q ⟨0, by decide⟩).val :=
  dot_S16000x128_S128x64_S16000x64_1_0_0_1_n_n.rhsIdx_val_of_single rfl i q
/-- … and the output's column. -/
theorem rhs_col (i : S16000x64.Idx) (q : dot_S16000x128_S128x64_S16000x64_1_0_0_1_n_n.contr.Idx) :
    (dot_S16000x128_S128x64_S16000x64_1_0_0_1_n_n.rhsIdx i q 1).val = (i 1).val := by
  unfold DotDims.rhsIdx
  rw [dif_neg (show ¬(1 : Fin S128x64.rank) ∈ dot_S16000x128_S128x64_S16000x64_1_0_0_1_n_n.rhsBatch by decide), dif_pos (show (1 : Fin S128x64.rank) ∈ dot_S16000x128_S128x64_S16000x64_1_0_0_1_n_n.rhsNonContracting by decide)]
  rfl

/-- The block product into the zero accumulator, at row `r` and column `o`: the sum over the 128 input columns. -/
theorem product_read (x0 : FVec Ideal S16000x128 .bf16) (x1 : FVec Ideal S128x64 .bf16) (r : Fin 16000) (o : Fin 64) :
    matmul dot_S16000x128_S128x64_S16000x64_1_0_0_1_n_n none x0 x1 (constant (F := Ideal) S16000x64 .f32 0x00000000#32) (ix2 r o)
      = ∑ k : Fin 128, x0 (ix2 r k) * x1 (ix2 k o) := by
  simp only [matmul]
  rw [Ideal.matmul_constant_zero_apply, ← Equiv.sum_comp (contrEquiv1 dot_S16000x128_S128x64_S16000x64_1_0_0_1_n_n 128 rfl rfl).symm]
  refine Finset.sum_congr rfl fun k _ => ?_
  have hk := contrEquiv1_symm_val dot_S16000x128_S128x64_S16000x64_1_0_0_1_n_n 128 rfl rfl k
  have el : dot_S16000x128_S128x64_S16000x64_1_0_0_1_n_n.lhsIdx (ix2 r o) ((contrEquiv1 dot_S16000x128_S128x64_S16000x64_1_0_0_1_n_n 128 rfl rfl).symm k) = ix2 r k := funext fun a => Fin.ext (by
    match a with
    | ⟨0, _⟩ => exact lhs_row _ _
    | ⟨1, _⟩ => exact (lhs_sum _ _).trans hk)
  have er : dot_S16000x128_S128x64_S16000x64_1_0_0_1_n_n.rhsIdx (ix2 r o) ((contrEquiv1 dot_S16000x128_S128x64_S16000x64_1_0_0_1_n_n 128 rfl rfl).symm k) = ix2 k o := funext fun a => Fin.ext (by
    match a with
    | ⟨0, _⟩ => exact (rhs_sum _ _).trans hk
    | ⟨1, _⟩ => exact rhs_col _ _)
  rw [el, er]

/-- A sum along the rows of a 16000 × 64 block, at column `o`. -/
theorem rowsum_read (src : FVec Ideal S16000x64 .f32) (h : S16000x64.Reduces [0] S64) (hφ : FKind.Formats .f32)
    (hacc : (0x00000000#32 : BitVec 32) = 0x00000000#32) (o : Fin 64) :
    multiReduction .add [0] S64 src 0x00000000#32 h hφ hacc (ix1 o) = ∑ r : Fin 16000, src (ix2 r o) := by
  refine (Ideal.multiReduction_add_single src 0x00000000#32 h hφ hacc (ix1 o)).trans ?_
  refine Finset.sum_congr rfl fun r _ => congrArg src ?_
  funext a
  match a with
  | ⟨0, _⟩ => rfl
  | ⟨1, _⟩ => rfl

/-- A row of 64 viewed as a 1 × 1 × 64 block. -/
theorem row_as_block {α : Type} (v : S64.Idx → α) (h : S64.ShapeCasts S1x1x64) (u w : Fin 1) (o : Fin 64) :
    shapeCast S1x1x64 v h (ix3 u w o) = v (ix1 o) :=
  shapeCast_apply v h _ _ (by
    have hu : u.val = 0 := by omega
    have hw : w.val = 0 := by omega
    rw [Shape.rowMajor_val_one, Shape.rowMajor_val_three]
    show o.val = (u.val * 1 + w.val) * 64 + o.val
    rw [hu, hw]; omega)

/-- The affine image of a block, at row `r` and column `o`. -/
theorem image_read (x0 : Vec Ideal S16000x128 .bf16) (x1 : Vec Ideal S128x64 .bf16) (x2 : Vec Ideal S1x64 .f32)
    (r : Fin 16000) (o : Fin 64) :
    k0_pay3 x0 x1 x2 (ix2 r o) = (∑ k : Fin 128, x0 (ix2 r k) * x1 (ix2 k o)) + x2 (ix2 (0 : Fin 1) o) := by
  unfold k0_pay3
  simp only [shapeCast_self]
  show matmul dot_S16000x128_S128x64_S16000x64_1_0_0_1_n_n none x0 x1 (constant (F := Ideal) S16000x64 .f32 0x00000000#32) (ix2 r o)
      + broadcastTo S16000x64 x2 broadcasts_S1x64_S16000x64 (ix2 r o) = _
  rw [product_read, broadcastTo_1b_ab_apply]

/-- What is stored is the image itself: the narrowing of the format changes nothing over the extended reals. -/
theorem stored_read (x0 : Vec Ideal S16000x128 .bf16) (x1 : Vec Ideal S128x64 .bf16) (x2 : Vec Ideal S1x64 .f32)
    (r : Fin 16000) (o : Fin 64) :
    k0_pay4 x0 x1 x2 (ix2 r o) = k0_pay3 x0 x1 x2 (ix2 r o) := rfl

/-- The reset value is zero. -/
theorem reset_read (u w : Fin 1) (o : Fin 64) : k0_pay1 (F := Ideal) (ix3 u w o) = 0 := by
  show Ideal.ofBits .f32 0x00000000#32 = 0
  exact Ideal.ofBits_zero_f32
/-- The other accumulator's reset value is zero too. -/
theorem reset_read' (u w : Fin 1) (o : Fin 64) : k0_pay2 (F := Ideal) (ix3 u w o) = 0 := by
  show Ideal.ofBits .f32 0x00000000#32 = 0
  exact Ideal.ofBits_zero_f32

/-- The updated sums: what the accumulator held plus the image's column sum. -/
theorem sums_read (x0 : Vec Ideal S16000x128 .bf16) (x1 : Vec Ideal S128x64 .bf16) (x2 : Vec Ideal S1x64 .f32)
    (acc : Vec Ideal S1x1x64 .f32) (o : Fin 64) :
    k0_pay5 x0 x1 x2 acc (ix3 (0 : Fin 1) (0 : Fin 1) o)
      = acc (ix3 (0 : Fin 1) (0 : Fin 1) o) + ∑ r : Fin 16000, k0_pay3 x0 x1 x2 (ix2 r o) := by
  unfold k0_pay5
  simp only [shapeCast_self]
  show acc (ix3 (0 : Fin 1) (0 : Fin 1) o) + shapeCast S1x1x64 (multiReduction .add [0] S64 (k0_pay3 x0 x1 x2) 0x00000000#32
      reduces_S16000x64_S64 (.inl rfl) rfl) shapeCasts_S64_S1x1x64 (ix3 (0 : Fin 1) (0 : Fin 1) o) = _
  rw [row_as_block, rowsum_read]

/-- The updated sums of squares: what the accumulator held plus the column sum of the image's squares. -/
theorem squares_read (x0 : Vec Ideal S16000x128 .bf16) (x1 : Vec Ideal S128x64 .bf16) (x2 : Vec Ideal S1x64 .f32)
    (acc : Vec Ideal S1x1x64 .f32) (o : Fin 64) :
    k0_pay6 x0 x1 x2 acc (ix3 (0 : Fin 1) (0 : Fin 1) o)
      = acc (ix3 (0 : Fin 1) (0 : Fin 1) o)
        + ∑ r : Fin 16000, k0_pay3 x0 x1 x2 (ix2 r o) * k0_pay3 x0 x1 x2 (ix2 r o) := by
  unfold k0_pay6
  simp only [shapeCast_self]
  show acc (ix3 (0 : Fin 1) (0 : Fin 1) o) + shapeCast S1x1x64 (multiReduction .add [0] S64
      (mulf (k0_pay3 x0 x1 x2) (k0_pay3 x0 x1 x2)) 0x00000000#32
      reduces_S16000x64_S64 (.inl rfl) rfl) shapeCasts_S64_S1x1x64 (ix3 (0 : Fin 1) (0 : Fin 1) o) = _
  rw [row_as_block, rowsum_read]
  rfl

end Payloads

/-! ## The blocks a point works on

Point `t` reads rows `16000·t … 16000·t + 15999` of the edge array and the whole of the weights and of the bias; it
writes the same rows of the first output and row `t / 50` of the other two. -/

section Blocks

/-- Where each window's block sits at point `t`, decided once over the 100 points. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val / 50 ∧ win0_4.index t (1 : Fin 3) = 0 ∧ win0_4.index t (2 : Fin 3) = 0
    ∧ win0_5.index t (0 : Fin 3) = t.val / 50 ∧ win0_5.index t (1 : Fin 3) = 0 ∧ win0_5.index t (2 : Fin 3) = 0 :=
  (by decide +kernel : ∀ t : Fin grid0.N, _)

/-- The edge rows point `t` reads. -/
abbrev B0 (c : Dev nD) (t : Fin cfg0.N) : Vec Ideal S16000x128 .bf16 := iblk0 V c 0 t
/-- The weights as point `t` reads them. -/
abbrev B1 (c : Dev nD) (t : Fin cfg0.N) : Vec Ideal S128x64 .bf16 := iblk0 V c 1 t
/-- The bias as point `t` reads it. -/
abbrev B2 (c : Dev nD) (t : Fin cfg0.N) : Vec Ideal S1x64 .f32 := iblk0 V c 2 t

/-- Row `r` of point `t`'s edge block is row `16000·t + r` of the edge array. -/
theorem edges_read (c : Dev nD) (t : Fin cfg0.N) (r : Fin 16000) (k : Fin 128) (e : Fin NE)
    (he : e.val = t.val * 16000 + r.val) : B0 V c t (ix2 r k) = A0 V c (ix2 e k) := by
  obtain ⟨f0, f1, -⟩ := block_index t
  show iblk0 V c 0 t (ix2 r k) = _
  unfold iblk0
  show V c (Pipeline.arrRef spec0 0) (((cfg0.win 0).blk t).view.emb (ix2 r k)) = V c (Pipeline.arrRef spec0 0) (ix2 e k)
  congr 1
  funext a
  apply Fin.ext
  match a with
  | ⟨0, _⟩ => show win0_0.index t 0 * 16000 + 1 * r.val = e.val; rw [f0, he]; omega
  | ⟨1, _⟩ => show win0_0.index t 1 * 128 + 1 * k.val = k.val; rw [f1]; omega

/-- Every point reads the whole weights. -/
theorem weights_read (c : Dev nD) (t : Fin cfg0.N) (k : Fin 128) (o : Fin 64) : B1 V c t (ix2 k o) = A1 V c (ix2 k o) := by
  obtain ⟨-, -, f0, f1, -⟩ := block_index t
  show iblk0 V c 1 t (ix2 k o) = _
  unfold iblk0
  show V c (Pipeline.arrRef spec0 1) (((cfg0.win 1).blk t).view.emb (ix2 k o)) = V c (Pipeline.arrRef spec0 1) (ix2 k o)
  congr 1
  funext a
  apply Fin.ext
  match a with
  | ⟨0, _⟩ => show win0_1.index t 0 * 128 + 1 * k.val = k.val; rw [f0]; omega
  | ⟨1, _⟩ => show win0_1.index t 1 * 64 + 1 * o.val = o.val; rw [f1]; omega

/-- Every point reads the whole bias row. -/
theorem bias_read (c : Dev nD) (t : Fin cfg0.N) (o : Fin 64) :
    B2 V c t (ix2 (0 : Fin 1) o) = A2 V c (ix2 (0 : Fin 1) o) := by
  obtain ⟨-, -, -, -, f0, f1, -⟩ := block_index t
  show iblk0 V c 2 t (ix2 (0 : Fin 1) o) = _
  unfold iblk0
  show V c (Pipeline.arrRef spec0 2) (((cfg0.win 2).blk t).view.emb (ix2 (0 : Fin 1) o)) = V c (Pipeline.arrRef spec0 2) (ix2 (0 : Fin 1) o)
  congr 1
  funext a
  apply Fin.ext
  match a with
  | ⟨0, _⟩ => show win0_2.index t 0 * 1 + 1 * 0 = 0; rw [f0]
  | ⟨1, _⟩ => show win0_2.index t 1 * 64 + 1 * o.val = o.val; rw [f1]; omega

/-- So the affine image of point `t`'s block, at its row `r`, is the affine image of edge row `16000·t + r`. -/
theorem block_image (c : Dev nD) (t : Fin cfg0.N) (r : Fin 16000) (o : Fin 64) (e : Fin NE)
    (he : e.val = t.val * 16000 + r.val) :
    k0_pay3 (B0 V c t) (B1 V c t) (B2 V c t) (ix2 r o) = h1 V c e o := by
  refine (image_read (B0 V c t) (B1 V c t) (B2 V c t) r o).trans ?_
  unfold h1 lin
  congr 1
  · refine Finset.sum_congr rfl fun k _ => ?_
    rw [edges_read V c t r k e he, weights_read V c t k o]
  · exact bias_read V c t o

/-- The affine image with its row given as a natural number (zero past the last edge: never read). -/
def h1N (c : Dev nD) (e : ℕ) (o : Fin 64) : EReal := if h : e < NE then h1 V c ⟨e, h⟩ o else 0

/-- Column `o` of the affine image summed over the 16000 rows of block `n`. -/
def blockSum (c : Dev nD) (n : ℕ) (o : Fin 64) : EReal := ∑ r : Fin 16000, h1N V c (n * 16000 + r.val) o
/-- Column `o`'s squares summed over the 16000 rows of block `n`. -/
def blockSq (c : Dev nD) (n : ℕ) (o : Fin 64) : EReal :=
  ∑ r : Fin 16000, h1N V c (n * 16000 + r.val) o * h1N V c (n * 16000 + r.val) o

theorem image_at (c : Dev nD) (t : Fin cfg0.N) (r : Fin 16000) (o : Fin 64) :
    k0_pay3 (B0 V c t) (B1 V c t) (B2 V c t) (ix2 r o) = h1N V c (t.val * 16000 + r.val) o := by
  have hN : t.val < 100 := lt_of_lt_of_eq t.isLt (show cfg0.N = 100 from N_0)
  have hr := r.isLt
  have hb : t.val * 16000 + r.val < NE := by show _ < 1600000; omega
  unfold h1N
  rw [dif_pos hb]
  exact block_image V c t r o ⟨_, hb⟩ rfl

end Blocks

/-! ## What the buffers hold after each point -/

section Points

/-- After every point the first output's buffer holds the affine image of the point's block. -/
theorem point_image (c : Dev nD) (t : Fin cfg0.N) :
    (outsAt0 V c t.val t.isLt).1 = k0_pay4 (B0 V c t) (B1 V c t) (B2 V c t) := by
  by_cases h0 : t.val % 50 = 0
  · rw [outsAt0_A V c t h0]
    dsimp only
    exact aff_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)
  · rw [outsAt0_B V c t h0]
    dsimp only
    exact aff_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2

/-- A half's first point leaves its block's column sums in the second output's buffer. -/
theorem sums_first (c : Dev nD) (t : Fin cfg0.N) (h0 : t.val % 50 = 0) (o : Fin 64) :
    (outsAt0 V c t.val t.isLt).2.1 (ix3 (0 : Fin 1) (0 : Fin 1) o) = 0 + blockSum V c t.val o := by
  rw [outsAt0_A V c t h0]
  dsimp only
  refine (congrFun (sum_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)) (ix3 (0 : Fin 1) (0 : Fin 1) o)).trans ?_
  refine (sums_read (B0 V c t) (B1 V c t) (B2 V c t) (k0_pay1 (F := Ideal)) o).trans ?_
  rw [reset_read]
  unfold blockSum
  congr 1
  exact Finset.sum_congr rfl fun r _ => image_at V c t r o

/-- A later point adds its block's column sums to what the point before left. -/
theorem sums_next (c : Dev nD) (t : Fin cfg0.N) (h0 : ¬t.val % 50 = 0) (o : Fin 64) :
    (outsAt0 V c t.val t.isLt).2.1 (ix3 (0 : Fin 1) (0 : Fin 1) o)
      = (outsAt0 V c (t.val - 1) (Nat.lt_of_le_of_lt (Nat.sub_le _ _) t.isLt)).2.1 (ix3 (0 : Fin 1) (0 : Fin 1) o) + blockSum V c t.val o := by
  rw [outsAt0_B V c t h0]
  dsimp only
  refine (congrFun (sum_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) (ix3 (0 : Fin 1) (0 : Fin 1) o)).trans ?_
  refine (sums_read (B0 V c t) (B1 V c t) (B2 V c t) (outsAt0 V c (t.val - 1) (Nat.lt_of_le_of_lt (Nat.sub_le _ _) t.isLt)).2.1 o).trans ?_
  unfold blockSum
  congr 1
  exact Finset.sum_congr rfl fun r _ => image_at V c t r o

/-- A half's first point leaves its block's column sums of squares in the third output's buffer. -/
theorem squares_first (c : Dev nD) (t : Fin cfg0.N) (h0 : t.val % 50 = 0) (o : Fin 64) :
    (outsAt0 V c t.val t.isLt).2.2 (ix3 (0 : Fin 1) (0 : Fin 1) o) = 0 + blockSq V c t.val o := by
  rw [outsAt0_A V c t h0]
  dsimp only
  refine (congrFun (sq_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) ((hcond0_0 t).mpr h0) (iblk0 V c 0 t) (iblk0 V c 1 t) (iblk0 V c 2 t)) (ix3 (0 : Fin 1) (0 : Fin 1) o)).trans ?_
  refine (squares_read (B0 V c t) (B1 V c t) (B2 V c t) (k0_pay2 (F := Ideal)) o).trans ?_
  rw [reset_read']
  unfold blockSq
  congr 1
  exact Finset.sum_congr rfl fun r _ => by rw [image_at V c t r o]

/-- A later point adds its block's column sums of squares to what the point before left. -/
theorem squares_next (c : Dev nD) (t : Fin cfg0.N) (h0 : ¬t.val % 50 = 0) (o : Fin 64) :
    (outsAt0 V c t.val t.isLt).2.2 (ix3 (0 : Fin 1) (0 : Fin 1) o)
      = (outsAt0 V c (t.val - 1) (Nat.lt_of_le_of_lt (Nat.sub_le _ _) t.isLt)).2.2 (ix3 (0 : Fin 1) (0 : Fin 1) o) + blockSq V c t.val o := by
  rw [outsAt0_B V c t h0]
  dsimp only
  refine (congrFun (sq_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (fun h => h0 ((hcond0_0 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) (ix3 (0 : Fin 1) (0 : Fin 1) o)).trans ?_
  refine (squares_read (B0 V c t) (B1 V c t) (B2 V c t) (outsAt0 V c (t.val - 1) (Nat.lt_of_le_of_lt (Nat.sub_le _ _) t.isLt)).2.2 o).trans ?_
  unfold blockSq
  congr 1
  exact Finset.sum_congr rfl fun r _ => by rw [image_at V c t r o]

/-- A sequence that restarts from zero at every multiple of 50 and otherwise grows by `B n` is, at `n`, the sum of
    `B` over the points since the last restart. -/
theorem since_restart (N : ℕ) (a : (n : ℕ) → n < N → EReal) (B : ℕ → EReal)
    (hA : ∀ n (h : n < N), n % 50 = 0 → a n h = 0 + B n)
    (hB : ∀ n (h : n + 1 < N), ¬(n + 1) % 50 = 0 → a (n + 1) h = a n (Nat.lt_of_succ_lt h) + B (n + 1)) :
    ∀ n (h : n < N), a n h = ∑ j ∈ Finset.range (n % 50 + 1), B (n - n % 50 + j)
  | 0, h => by
    rw [hA 0 h rfl]; simp
  | n + 1, h => by
    by_cases h0 : (n + 1) % 50 = 0
    · rw [hA (n + 1) h h0, h0]; simp
    · rw [hB n h h0, since_restart N a B hA hB n (Nat.lt_of_succ_lt h)]
      have e1 : (n + 1) % 50 = n % 50 + 1 := by omega
      have e2 : n + 1 - (n % 50 + 1) = n - n % 50 := by omega
      rw [e1, e2, Finset.sum_range_succ (fun j => B (n - n % 50 + j)) (n % 50 + 1)]
      rw [show n - n % 50 + (n % 50 + 1) = n + 1 by omega]

/-- After point `n` the second output's buffer holds the column sums of the blocks since the half began. -/
theorem sums_since (c : Dev nD) (o : Fin 64) : ∀ n (h : n < cfg0.N),
    (outsAt0 V c n h).2.1 (ix3 (0 : Fin 1) (0 : Fin 1) o) = ∑ j ∈ Finset.range (n % 50 + 1), blockSum V c (n - n % 50 + j) o :=
  since_restart cfg0.N (fun n h => (outsAt0 V c n h).2.1 (ix3 (0 : Fin 1) (0 : Fin 1) o)) (fun n => blockSum V c n o)
    (fun n h hn => sums_first V c ⟨n, h⟩ hn o)
    (fun n h hn => sums_next V c ⟨n + 1, h⟩ hn o)

/-- After point `n` the third output's buffer holds the column sums of squares of the blocks since the half began. -/
theorem squares_since (c : Dev nD) (o : Fin 64) : ∀ n (h : n < cfg0.N),
    (outsAt0 V c n h).2.2 (ix3 (0 : Fin 1) (0 : Fin 1) o) = ∑ j ∈ Finset.range (n % 50 + 1), blockSq V c (n - n % 50 + j) o :=
  since_restart cfg0.N (fun n h => (outsAt0 V c n h).2.2 (ix3 (0 : Fin 1) (0 : Fin 1) o)) (fun n => blockSq V c n o)
    (fun n h hn => squares_first V c ⟨n, h⟩ hn o)
    (fun n h hn => squares_next V c ⟨n + 1, h⟩ hn o)

/-- After a half's last point the buffer holds the half's column sums. -/
theorem half_sums (c : Dev nD) (t : Fin cfg0.N) (h49 : t.val % 50 = 49) (o : Fin 64) (p : Fin 2) (hp : p.val = t.val / 50) :
    (outsAt0 V c t.val t.isLt).2.1 (ix3 (0 : Fin 1) (0 : Fin 1) o) = halfSum (h1 V c) p o := by
  rw [sums_since V c o t.val t.isLt, show t.val % 50 + 1 = 50 by omega, h49, Finset.sum_range]
  unfold halfSum blockSum
  refine Finset.sum_congr rfl fun i _ => Finset.sum_congr rfl fun r _ => ?_
  have hi := i.isLt
  have e : (t.val - 49 + i.val) * 16000 + r.val = (row p i r).val := by
    show _ = (p.val * 50 + i.val) * 16000 + r.val
    rw [hp]; omega
  unfold h1N
  rw [dif_pos (e ▸ (row p i r).isLt)]
  exact congrArg (fun x => h1 V c x o) (Fin.ext e)

/-- After a half's last point the buffer holds the half's column sums of squares. -/
theorem half_squares (c : Dev nD) (t : Fin cfg0.N) (h49 : t.val % 50 = 49) (o : Fin 64) (p : Fin 2) (hp : p.val = t.val / 50) :
    (outsAt0 V c t.val t.isLt).2.2 (ix3 (0 : Fin 1) (0 : Fin 1) o) = halfSumSq (h1 V c) p o := by
  rw [squares_since V c o t.val t.isLt, show t.val % 50 + 1 = 50 by omega, h49, Finset.sum_range]
  unfold halfSumSq blockSq
  refine Finset.sum_congr rfl fun i _ => Finset.sum_congr rfl fun r _ => ?_
  have hi := i.isLt
  have e : (t.val - 49 + i.val) * 16000 + r.val = (row p i r).val := by
    show _ = (p.val * 50 + i.val) * 16000 + r.val
    rw [hp]; omega
  unfold h1N
  rw [dif_pos (e ▸ (row p i r).isLt)]
  exact congrArg (fun x => h1 V c x o * h1 V c x o) (Fin.ext e)

end Points

/-! ## What is written back, and the arrays after the last point

Every point writes its block of the first output back, and the blocks tile the array; each half's accumulator rows are
written back once, after the half's last point. -/

section Final

/-- The first output as a whole: the affine image, row by row. -/
def G3 (c : Dev nD) : S1600000x64.Idx → EReal :=
  fun i => h1 V c ⟨(i 0).val, (i 0).isLt⟩ ⟨(i 1).val, (i 1).isLt⟩

theorem G3_at (c : Dev nD) (i : S1600000x64.Idx) (e : Fin NE) (o : Fin 64) (he : (i 0).val = e.val) (ho : (i 1).val = o.val) :
    G3 V c i = h1 V c e o := by
  have e0 : (⟨(i 0).val, (i 0).isLt⟩ : Fin NE) = e := Fin.ext he
  have e1 : (⟨(i 1).val, (i 1).isLt⟩ : Fin 64) = o := Fin.ext ho
  unfold G3
  rw [e0, e1]

/-- Point `t` writes back rows `16000·t … 16000·t + 15999` of it. -/
theorem flushed3_eq (c : Dev nD) (t : Fin cfg0.N) :
    (dat0 (F := Ideal) V c).flushed 3 t = ((cfg0.win 3).blk t).view.read (Elt Ideal) (G3 V c) := by
  obtain ⟨-, -, -, -, -, -, f0, f1, -⟩ := block_index t
  have hN : t.val < 100 := lt_of_lt_of_eq t.isLt (show cfg0.N = 100 from N_0)
  show (cfg0.win 3).cut (grid0.coords t) ((dat0 V c).after 3 t) = _
  rw [after0_3, point_image V c t]
  funext j
  have hj0 : (j 0).val < 16000 := (j 0).isLt
  have hj1 : (j 1).val < 64 := (j 1).isLt
  have hx : (cfg0.win 3).xinj (grid0.coords t) j = ix2 (⟨(j 0).val, hj0⟩ : Fin 16000) (⟨(j 1).val, hj1⟩ : Fin 64) :=
    funext fun a => match a with
      | ⟨0, _⟩ => rfl
      | ⟨1, _⟩ => rfl
  show k0_pay4 (B0 V c t) (B1 V c t) (B2 V c t) ((cfg0.win 3).xinj (grid0.coords t) j) = G3 V c (((cfg0.win 3).blk t).view.emb j)
  refine (congrArg (k0_pay4 (B0 V c t) (B1 V c t) (B2 V c t)) hx).trans ?_
  refine (stored_read (B0 V c t) (B1 V c t) (B2 V c t) ⟨(j 0).val, hj0⟩ ⟨(j 1).val, hj1⟩).trans ?_
  have hb : t.val * 16000 + (j 0).val < NE := by show _ < 1600000; omega
  refine (block_image V c t ⟨(j 0).val, hj0⟩ ⟨(j 1).val, hj1⟩ ⟨t.val * 16000 + (j 0).val, hb⟩ rfl).trans ?_
  refine (G3_at V c _ _ _ ?_ ?_).symm
  · show win0_3.index t 0 * 16000 + 1 * (j 0).val = t.val * 16000 + (j 0).val; rw [f0]
    omega
  · show win0_3.index t 1 * 64 + 1 * (j 1).val = (j 1).val; rw [f1]; omega

theorem mem_blk3 (t : Fin cfg0.N) (i : S1600000x64.Idx) :
    i ∈ ((cfg0.win 3).blk t).view.set ↔ ∀ a : Fin 2, win0_3.index t a * S16000x64.size a ≤ (i a).val ∧ (i a).val < win0_3.index t a * S16000x64.size a + S16000x64.size a := by
  show i ∈ ((View.whole main_v17_0).slice (win0_3.rect t)).set ↔ _
  rw [View.set_slice_whole, Rect.mem_set_unit]
  exact Iff.rfl

/-- Row `e` is in the block of point `e / 16000`. -/
theorem cover3 (i : S1600000x64.Idx) :
    ∃ t : Fin cfg0.N, (cfg0.win 3).flush t = true ∧ i ∈ ((cfg0.win 3).blk t).view.set := by
  have hi0 : (i 0).val < 1600000 := (i 0).isLt
  have hi1 : (i 1).val < 64 := (i 1).isLt
  have hN : cfg0.N = 100 := N_0
  obtain ⟨t, ht⟩ : ∃ t : Fin cfg0.N, t.val = (i 0).val / 16000 := ⟨⟨(i 0).val / 16000, by rw [hN]; omega⟩, rfl⟩
  obtain ⟨-, -, -, -, -, -, f0, f1, -⟩ := block_index t
  refine ⟨t, flush0_3 t, ?_⟩
  rw [mem_blk3]
  intro a
  match a with
  | ⟨0, _⟩ => show win0_3.index t 0 * 16000 ≤ (i 0).val ∧ (i 0).val < win0_3.index t 0 * 16000 + 16000; rw [f0, ht]; omega
  | ⟨1, _⟩ => show win0_3.index t 1 * 64 ≤ (i 1).val ∧ (i 1).val < win0_3.index t 1 * 64 + 64; rw [f1]; omega

/-- So the first output ends as the affine image of the whole edge array. -/
theorem final3 (c : Dev nD) : (dat0 (F := Ideal) V c).arrAt 3 cfg0.N = G3 V c :=
  (dat0 V c).arrAt_eq_of_cover 3 (G3 V c) (fun t _ => flushed3_eq V c t) cover3

/-- Row `p` of the second output as a whole: half `p`'s column sums. -/
def G4 (c : Dev nD) : S2x1x64.Idx → EReal :=
  fun i => halfSum (h1 V c) ⟨(i 0).val, (i 0).isLt⟩ ⟨(i 2).val, (i 2).isLt⟩

theorem G4_at (c : Dev nD) (i : S2x1x64.Idx) (p : Fin 2) (o : Fin 64) (hp : (i 0).val = p.val) (ho : (i 2).val = o.val) :
    G4 V c i = halfSum (h1 V c) p o := by
  have e0 : (⟨(i 0).val, (i 0).isLt⟩ : Fin 2) = p := Fin.ext hp
  have e2 : (⟨(i 2).val, (i 2).isLt⟩ : Fin 64) = o := Fin.ext ho
  unfold G4
  rw [e0, e2]

/-- The one write-back of a half, after its last point, writes the half's row of it. -/
theorem flushed4_eq (c : Dev nD) (t : Fin cfg0.N) (hf : (cfg0.win 4).flush t = true) :
    (dat0 (F := Ideal) V c).flushed 4 t = ((cfg0.win 4).blk t).view.read (Elt Ideal) (G4 V c) := by
  obtain ⟨-, -, -, -, -, -, -, -, f0, f1, f2, -⟩ := block_index t
  have h49 : t.val % 50 = 49 := (flush0_4 t).mp hf
  have hN : t.val < 100 := lt_of_lt_of_eq t.isLt (show cfg0.N = 100 from N_0)
  show (cfg0.win 4).cut (grid0.coords t) ((dat0 V c).after 4 t) = _
  rw [after0_4]
  funext j
  have hj0 : (j 0).val < 1 := (j 0).isLt
  have hj1 : (j 1).val < 1 := (j 1).isLt
  have hj2 : (j 2).val < 64 := (j 2).isLt
  have hx : (cfg0.win 4).xinj (grid0.coords t) j = ix3 (0 : Fin 1) (0 : Fin 1) (⟨(j 2).val, hj2⟩ : Fin 64) :=
    funext fun a => Fin.ext (by
      match a with
      | ⟨0, _⟩ => show (j 0).val = 0; omega
      | ⟨1, _⟩ => show (j 1).val = 0; omega
      | ⟨2, _⟩ => rfl)
  show (outsAt0 V c t.val t.isLt).2.1 ((cfg0.win 4).xinj (grid0.coords t) j) = G4 V c (((cfg0.win 4).blk t).view.emb j)
  refine (congrArg (outsAt0 V c t.val t.isLt).2.1 hx).trans ?_
  refine (half_sums V c t h49 ⟨(j 2).val, hj2⟩ ⟨t.val / 50, by omega⟩ rfl).trans ?_
  refine (G4_at V c _ _ _ ?_ ?_).symm
  · show win0_4.index t 0 * 1 + 1 * (j 0).val = t.val / 50; rw [f0]; omega
  · show win0_4.index t 2 * 64 + 1 * (j 2).val = (j 2).val; rw [f2]; omega

theorem mem_blk4 (t : Fin cfg0.N) (i : S2x1x64.Idx) :
    i ∈ ((cfg0.win 4).blk t).view.set ↔ ∀ a : Fin 3, win0_4.index t a * S1x1x64.size a ≤ (i a).val ∧ (i a).val < win0_4.index t a * S1x1x64.size a + S1x1x64.size a := by
  show i ∈ ((View.whole main_v17_1).slice (win0_4.rect t)).set ↔ _
  rw [View.set_slice_whole, Rect.mem_set_unit]
  exact Iff.rfl

/-- Row `p` is written after point `50·p + 49`. -/
theorem cover4 (i : S2x1x64.Idx) :
    ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 64 := (i 2).isLt
  have hN : cfg0.N = 100 := N_0
  obtain ⟨t, ht⟩ : ∃ t : Fin cfg0.N, t.val = (i 0).val * 50 + 49 := ⟨⟨(i 0).val * 50 + 49, by rw [hN]; omega⟩, rfl⟩
  obtain ⟨-, -, -, -, -, -, -, -, f0, f1, f2, -⟩ := block_index t
  refine ⟨t, (flush0_4 t).mpr (by rw [ht]; omega), ?_⟩
  rw [mem_blk4]
  intro a
  match a with
  | ⟨0, _⟩ => show win0_4.index t 0 * 1 ≤ (i 0).val ∧ (i 0).val < win0_4.index t 0 * 1 + 1; rw [f0, ht]; omega
  | ⟨1, _⟩ => show win0_4.index t 1 * 1 ≤ (i 1).val ∧ (i 1).val < win0_4.index t 1 * 1 + 1; rw [f1]; omega
  | ⟨2, _⟩ => show win0_4.index t 2 * 64 ≤ (i 2).val ∧ (i 2).val < win0_4.index t 2 * 64 + 64; rw [f2]; omega

/-- So the second output ends as that function. -/
theorem final4 (c : Dev nD) : (dat0 (F := Ideal) V c).arrAt 4 cfg0.N = G4 V c :=
  (dat0 V c).arrAt_eq_of_cover 4 (G4 V c) (flushed4_eq V c) cover4

/-- Row `p` of the third output as a whole: half `p`'s column sums of squares. -/
def G5 (c : Dev nD) : S2x1x64.Idx → EReal :=
  fun i => halfSumSq (h1 V c) ⟨(i 0).val, (i 0).isLt⟩ ⟨(i 2).val, (i 2).isLt⟩

theorem G5_at (c : Dev nD) (i : S2x1x64.Idx) (p : Fin 2) (o : Fin 64) (hp : (i 0).val = p.val) (ho : (i 2).val = o.val) :
    G5 V c i = halfSumSq (h1 V c) p o := by
  have e0 : (⟨(i 0).val, (i 0).isLt⟩ : Fin 2) = p := Fin.ext hp
  have e2 : (⟨(i 2).val, (i 2).isLt⟩ : Fin 64) = o := Fin.ext ho
  unfold G5
  rw [e0, e2]

/-- The one write-back of a half, after its last point, writes the half's row of it. -/
theorem flushed5_eq (c : Dev nD) (t : Fin cfg0.N) (hf : (cfg0.win 5).flush t = true) :
    (dat0 (F := Ideal) V c).flushed 5 t = ((cfg0.win 5).blk t).view.read (Elt Ideal) (G5 V c) := by
  obtain ⟨-, -, -, -, -, -, -, -, -, -, -, f0, f1, f2⟩ := block_index t
  have h49 : t.val % 50 = 49 := (flush0_5 t).mp hf
  have hN : t.val < 100 := lt_of_lt_of_eq t.isLt (show cfg0.N = 100 from N_0)
  show (cfg0.win 5).cut (grid0.coords t) ((dat0 V c).after 5 t) = _
  rw [after0_5]
  funext j
  have hj0 : (j 0).val < 1 := (j 0).isLt
  have hj1 : (j 1).val < 1 := (j 1).isLt
  have hj2 : (j 2).val < 64 := (j 2).isLt
  have hx : (cfg0.win 5).xinj (grid0.coords t) j = ix3 (0 : Fin 1) (0 : Fin 1) (⟨(j 2).val, hj2⟩ : Fin 64) :=
    funext fun a => Fin.ext (by
      match a with
      | ⟨0, _⟩ => show (j 0).val = 0; omega
      | ⟨1, _⟩ => show (j 1).val = 0; omega
      | ⟨2, _⟩ => rfl)
  show (outsAt0 V c t.val t.isLt).2.2 ((cfg0.win 5).xinj (grid0.coords t) j) = G5 V c (((cfg0.win 5).blk t).view.emb j)
  refine (congrArg (outsAt0 V c t.val t.isLt).2.2 hx).trans ?_
  refine (half_squares V c t h49 ⟨(j 2).val, hj2⟩ ⟨t.val / 50, by omega⟩ rfl).trans ?_
  refine (G5_at V c _ _ _ ?_ ?_).symm
  · show win0_5.index t 0 * 1 + 1 * (j 0).val = t.val / 50; rw [f0]; omega
  · show win0_5.index t 2 * 64 + 1 * (j 2).val = (j 2).val; rw [f2]; omega

theorem mem_blk5 (t : Fin cfg0.N) (i : S2x1x64.Idx) :
    i ∈ ((cfg0.win 5).blk t).view.set ↔ ∀ a : Fin 3, win0_5.index t a * S1x1x64.size a ≤ (i a).val ∧ (i a).val < win0_5.index t a * S1x1x64.size a + S1x1x64.size a := by
  show i ∈ ((View.whole main_v17_2).slice (win0_5.rect t)).set ↔ _
  rw [View.set_slice_whole, Rect.mem_set_unit]
  exact Iff.rfl

/-- Row `p` is written after point `50·p + 49`. -/
theorem cover5 (i : S2x1x64.Idx) :
    ∃ t : Fin cfg0.N, (cfg0.win 5).flush t = true ∧ i ∈ ((cfg0.win 5).blk t).view.set := by
  have hi0 : (i 0).val < 2 := (i 0).isLt
  have hi1 : (i 1).val < 1 := (i 1).isLt
  have hi2 : (i 2).val < 64 := (i 2).isLt
  have hN : cfg0.N = 100 := N_0
  obtain ⟨t, ht⟩ : ∃ t : Fin cfg0.N, t.val = (i 0).val * 50 + 49 := ⟨⟨(i 0).val * 50 + 49, by rw [hN]; omega⟩, rfl⟩
  obtain ⟨-, -, -, -, -, -, -, -, -, -, -, f0, f1, f2⟩ := block_index t
  refine ⟨t, (flush0_5 t).mpr (by rw [ht]; omega), ?_⟩
  rw [mem_blk5]
  intro a
  match a with
  | ⟨0, _⟩ => show win0_5.index t 0 * 1 ≤ (i 0).val ∧ (i 0).val < win0_5.index t 0 * 1 + 1; rw [f0, ht]; omega
  | ⟨1, _⟩ => show win0_5.index t 1 * 1 ≤ (i 1).val ∧ (i 1).val < win0_5.index t 1 * 1 + 1; rw [f1]; omega
  | ⟨2, _⟩ => show win0_5.index t 2 * 64 ≤ (i 2).val ∧ (i 2).val < win0_5.index t 2 * 64 + 64; rw [f2]; omega

/-- So the third output ends as that function. -/
theorem final5 (c : Dev nD) : (dat0 (F := Ideal) V c).arrAt 5 cfg0.N = G5 V c :=
  (dat0 V c).arrAt_eq_of_cover 5 (G5 V c) (flushed5_eq V c) cover5

end Final

/-- The first output after the last point: the affine image, row by row. -/
theorem out3 (c : Dev nD) (e : Fin NE) (o : Fin 64) :
    ((dat0 (F := Ideal) V c).arrAt 3 cfg0.N : Vec Ideal S1600000x64 .bf16) (ix2 e o) = h1 V c e o :=
  (congrFun (final3 V c) (ix2 e o)).trans (G3_at V c (ix2 e o) e o rfl rfl)

/-- The second output after the last point: each half's column sums of the affine image. -/
theorem out4 (c : Dev nD) (p : Fin 2) (o : Fin 64) :
    ((dat0 (F := Ideal) V c).arrAt 4 cfg0.N : Vec Ideal S2x1x64 .f32) (ix3 p (0 : Fin 1) o) = halfSum (h1 V c) p o :=
  (congrFun (final4 V c) (ix3 p (0 : Fin 1) o)).trans (G4_at V c (ix3 p (0 : Fin 1) o) p o rfl rfl)

/-- The third output after the last point: each half's column sums of squares of the affine image. -/
theorem out5 (c : Dev nD) (p : Fin 2) (o : Fin 64) :
    ((dat0 (F := Ideal) V c).arrAt 5 cfg0.N : Vec Ideal S2x1x64 .f32) (ix3 p (0 : Fin 1) o) = halfSumSq (h1 V c) p o :=
  (congrFun (final5 V c) (ix3 p (0 : Fin 1) o)).trans (G5_at V c (ix3 p (0 : Fin 1) o) p o rfl rfl)

end Cert.KernelIdeal.R0

end
-- ==== Proof.Region1.lean ====
/-
  What the second region leaves in its two output arrays, as functions of the arrays it is entered with.

  The grid is the first region's: 100 points of 16000 rows, two halves of 50 points, each half with its own
  accumulator row reset at the half's first point.  At each point the block of first-layer values is normalised
  with the given column means and variances, scaled, shifted, clipped below at zero, and sent through the second
  affine layer; the column sums and column sums of squares of the result are added to the half's accumulator rows.
-/
import proofs.«401892_j53961969107163_2_alg».proof.Proof.Gen.KernelIdeal.Frame
import proofs.«401892_j53961969107163_2_alg».proof.Proof.Spec
import proofs.«401892_j53961969107163_2_alg».proof.Proof.Consts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.R1

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

-- the buffer contents the region is entered from
variable (V : (c : Dev nD) → (b : Ref sig .tc) → Buf (Elt Ideal) ((c : Thread nD τ).loc b))

/-- The first layer's values, one row per edge. -/
abbrev B0 (c : Dev nD) : Vec Ideal S1600000x64 .bf16 := V c (Pipeline.arrRef spec1 0)
/-- The first normalisation's scale. -/
abbrev B1 (c : Dev nD) : Vec Ideal S1x64 .f32 := V c (Pipeline.arrRef spec1 1)
/-- The first normalisation's shift. -/
abbrev B2 (c : Dev nD) : Vec Ideal S1x64 .f32 := V c (Pipeline.arrRef spec1 2)
/-- The first layer's column means. -/
abbrev B3 (c : Dev nD) : Vec Ideal S1x64 .f32 := V c (Pipeline.arrRef spec1 3)
/-- The first layer's column variances. -/
abbrev B4 (c : Dev nD) : Vec Ideal S1x64 .f32 := V c (Pipeline.arrRef spec1 4)
/-- The second layer's weights. -/
abbrev B5 (c : Dev nD) : Vec Ideal S64x64 .bf16 := V c (Pipeline.arrRef spec1 5)
/-- The second layer's bias. -/
abbrev B6 (c : Dev nD) : Vec Ideal S1x64 .f32 := V c (Pipeline.arrRef spec1 6)

/-- The second layer's values of the region's operands. -/
def h2 (c : Dev nD) : Fin NE → Fin 64 → EReal :=
  lin (bnrelu (fun e o => B0 V c (ix2 e o)) (fun o => B3 V c (ix2 (0 : Fin 1) o)) (fun o => B4 V c (ix2 (0 : Fin 1) o))
        (fun o => B1 V c (ix2 (0 : Fin 1) o)) (fun o => B2 V c (ix2 (0 : Fin 1) o)))
    (fun k o => B5 V c (ix2 k o)) (fun o => B6 V c (ix2 (0 : Fin 1) o))

/-! ## What each control case leaves in the two accumulator rows -/

section Pieces
variable {F : FTy → Type} [FloatOps F]

/-- The zero offsets of a whole-block access, rank 3. -/
theorem hz3 : (![0, 0, 0] : Fin 3 → Nat) = fun _ => 0 := funext fun a => by fin_cases a <;> rfl
/-- The zero offsets of a whole-block access, rank 2. -/
theorem hz2 : (![0, 0] : Fin 2 → Nat) = fun _ => 0 := funext fun a => by fin_cases a <;> rfl

/-- A continuing point leaves, in the first row, the row it found plus the column sums of the point's second-layer block. -/
theorem out_B7 (c : Dev nD) (i : grid1.Coords) (a2 : Memref sig .tc .vmem S16000x64 .bf16) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S1x64 .f32) (h6 : a6.IsWhole) (a7 : Memref sig .tc .vmem S64x64 .bf16) (h7 : a7.IsWhole) (a8 : Memref sig .tc .vmem S1x64 .f32) (h8 : a8.IsWhole) (a9 : Memref sig .tc .vmem S1x1x64 .f32) (h9 : a9.IsWhole) (a10 : Memref sig .tc .vmem S1x1x64 .f32) (h10 : a10.IsWhole) (hc : ¬cond1_0 i) (x0 : Vec F S16000x64 .bf16) (x1 : Vec F S1x64 .f32) (x2 : Vec F S1x64 .f32) (x3 : Vec F S1x64 .f32) (x4 : Vec F S1x64 .f32) (x5 : Vec F S64x64 .bf16) (x6 : Vec F S1x64 .f32) (xo7 xo8 : Vec F S1x1x64 .f32) :
    out1_B_7 c i a2 h2 a3 h3 a4 h4 a5 h5 a6 h6 a7 h7 a8 h8 a9 h9 a10 h10 hc x0 x1 x2 x3 x4 x5 x6 xo7 xo8 = k1_pay1 (k1_pay5 x0 x4 x3 x1 x2 x5 x6) xo7 := by
  unfold out1_B_7
  rw [View.read_writes_eq_canon _ _ _ (cover1_B_7 c i a2 h2 a3 h3 a4 h4 a5 h5 a6 h6 a7 h7 a8 h8 a9 h9 a10 h10 hc x0 x1 x2 x3 x4 x5 x6 xo7 xo8)]
  unfold kernelRun1_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread,
    View.ld_unit_zero (S := S16000x64) hz2, View.ld_unit_zero (S := S1x64) hz2, View.ld_unit_zero (S := S64x64) hz2, View.ld_unit_zero (S := S1x1x64) hz3]

/-- A continuing point leaves, in the second row, the row it found plus the column sums of squares. -/
theorem out_B8 (c : Dev nD) (i : grid1.Coords) (a2 : Memref sig .tc .vmem S16000x64 .bf16) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S1x64 .f32) (h6 : a6.IsWhole) (a7 : Memref sig .tc .vmem S64x64 .bf16) (h7 : a7.IsWhole) (a8 : Memref sig .tc .vmem S1x64 .f32) (h8 : a8.IsWhole) (a9 : Memref sig .tc .vmem S1x1x64 .f32) (h9 : a9.IsWhole) (a10 : Memref sig .tc .vmem S1x1x64 .f32) (h10 : a10.IsWhole) (hc : ¬cond1_0 i) (x0 : Vec F S16000x64 .bf16) (x1 : Vec F S1x64 .f32) (x2 : Vec F S1x64 .f32) (x3 : Vec F S1x64 .f32) (x4 : Vec F S1x64 .f32) (x5 : Vec F S64x64 .bf16) (x6 : Vec F S1x64 .f32) (xo7 xo8 : Vec F S1x1x64 .f32) :
    out1_B_8 c i a2 h2 a3 h3 a4 h4 a5 h5 a6 h6 a7 h7 a8 h8 a9 h9 a10 h10 hc x0 x1 x2 x3 x4 x5 x6 xo7 xo8 = k1_pay2 (k1_pay5 x0 x4 x3 x1 x2 x5 x6) xo8 := by
  unfold out1_B_8
  rw [View.read_writes_eq_canon _ _ _ (cover1_B_8 c i a2 h2 a3 h3 a4 h4 a5 h5 a6 h6 a7 h7 a8 h8 a9 h9 a10 h10 hc x0 x1 x2 x3 x4 x5 x6 xo7 xo8)]
  unfold kernelRun1_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread,
    View.ld_unit_zero (S := S16000x64) hz2, View.ld_unit_zero (S := S1x64) hz2, View.ld_unit_zero (S := S64x64) hz2, View.ld_unit_zero (S := S1x1x64) hz3]

/-- A half's first point stores the zero row, reads it back, and leaves it plus the column sums. -/
theorem out_A7 (c : Dev nD) (i : grid1.Coords) (a2 : Memref sig .tc .vmem S16000x64 .bf16) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S1x64 .f32) (h6 : a6.IsWhole) (a7 : Memref sig .tc .vmem S64x64 .bf16) (h7 : a7.IsWhole) (a8 : Memref sig .tc .vmem S1x64 .f32) (h8 : a8.IsWhole) (a9 : Memref sig .tc .vmem S1x1x64 .f32) (h9 : a9.IsWhole) (a10 : Memref sig .tc .vmem S1x1x64 .f32) (h10 : a10.IsWhole) (hc : cond1_0 i) (x0 : Vec F S16000x64 .bf16) (x1 : Vec F S1x64 .f32) (x2 : Vec F S1x64 .f32) (x3 : Vec F S1x64 .f32) (x4 : Vec F S1x64 .f32) (x5 : Vec F S64x64 .bf16) (x6 : Vec F S1x64 .f32) :
    out1_A_7 c i a2 h2 a3 h3 a4 h4 a5 h5 a6 h6 a7 h7 a8 h8 a9 h9 a10 h10 hc x0 x1 x2 x3 x4 x5 x6 = k1_pay1 (k1_pay5 x0 x4 x3 x1 x2 x5 x6) (k1_pay3 (F := F)) := by
  unfold out1_A_7
  rw [View.read_writes_eq_canon _ _ _ (cover1_A_7 c i a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x1x64) hz3, View.readCov_unit_zero (S := S1x1x64) _ hz3]
  simp only [View.readAt_eq_ld, h2.read_unread, h3.read_unread, h4.read_unread, h5.read_unread, h6.read_unread, h7.read_unread, h8.read_unread, h9.read_unread, h10.read_unread,
    View.ld_unit_zero (S := S16000x64) hz2, View.ld_unit_zero (S := S1x64) hz2, View.ld_unit_zero (S := S64x64) hz2, View.ld_unit_zero (S := S1x1x64) hz3]

/-- A half's first point stores the zero row, reads it back, and leaves it plus the column sums of squares. -/
theorem out_A8 (c : Dev nD) (i : grid1.Coords) (a2 : Memref sig .tc .vmem S16000x64 .bf16) (h2 : a2.IsWhole) (a3 : Memref sig .tc .vmem S1x64 .f32) (h3 : a3.IsWhole) (a4 : Memref sig .tc .vmem S1x64 .f32) (h4 : a4.IsWhole) (a5 : Memref sig .tc .vmem S1x64 .f32) (h5 : a5.IsWhole) (a6 : Memref sig .tc .vmem S1x64 .f32) (h6 : a6.IsWhole) (a7 : Memref sig .tc .vmem S64x64 .bf16) (h7 : a7.IsWhole) (a8 : Memref sig .tc .vmem S1x64 .f32) (h8 : a8.IsWhole) (a9 : Memref sig .tc .vmem S1x1x64 .f32) (h9 : a9.IsWhole) (a10 : Memref sig .tc .vmem S1x1x64 .f32) (h10 : a10.IsWhole) (hc : cond1_0 i) (x0 : Vec F S16000x64 .bf16) (x1 : Vec F S1x64 .f32) (x2 : Vec F S1x64 .f32) (x3 : Vec F S1x64 .f32) (x4 : Vec F S1x64 .f32) (x5 : Vec F S64x64 .bf16) (x6 : Vec F S1x64 .f32) :
    out1_A_8 c i a2 h2 a3 h3 a4 h4 a5 h5 a6 h6 a7 h7 a8 h8 a9 h9 a10 h10 hc x0 x1 x2 x3 x4 x5 x6 = k1_pay2 (k1_pay5 x0 x4 x3 x1 x2 x5 x6) (k1_pay4 (F := F)) := by
  unfold out1_A_8
  rw [View.read_writes_eq_canon _ _ _ (cover1_A_8 c i a2 h2 a3 h3 a4 h4 a5 h5 a6 h6 a7 h7 a8 h8 a9 h9 a10 h10 hc x0 x1 x2 x3 x4 x5 x6)]
  unfold kernelRun1_A
  dsimp only
  sl_unfold_words
  rw [View.canon_cons_unit_zero (S := S1x1x64) hz3, View.readCov_unit_zero (S := S1x1x64) _ hz3]
  simp only [View.readAt_eq_ld, h2.read_unread, h3.read_unread, h4.read_unread, h5.read_unread, h6.read_unread, h7.read_unread, h8.read_unread, h9.read_unread, h10.read_unread,
    View.ld_unit_zero (S := S16000x64) hz2, View.ld_unit_zero (S := S1x64) hz2, View.ld_unit_zero (S := S64x64) hz2, View.ld_unit_zero (S := S1x1x64) hz3]

end Pieces
/-! ## The matrix product of a block of 16000 rows with the 64 × 64 weights, entry by entry -/

/-- Which entry of each factor the product reads at an inner coordinate: the left factor's row is the result's row, -/
theorem lhs_0 (i : S16000x64.Idx) (q : dot_S16000x64_S64x64_S16000x64_1_0_0_1_n_n.contr.Idx) : (dot_S16000x64_S64x64_S16000x64_1_0_0_1_n_n.lhsIdx i q 0).val = (i 0).val := by
  unfold DotDims.lhsIdx
  rw [dif_neg (show ¬(0 : Fin S16000x64.rank) ∈ dot_S16000x64_S64x64_S16000x64_1_0_0_1_n_n.lhsBatch by decide), dif_pos (show (0 : Fin S16000x64.rank) ∈ dot_S16000x64_S64x64_S16000x64_1_0_0_1_n_n.lhsNonContracting by decide)]
  rfl
/-- its column the inner coordinate; -/
theorem lhs_1 (i : S16000x64.Idx) (q : dot_S16000x64_S64x64_S16000x64_1_0_0_1_n_n.contr.Idx) : (dot_S16000x64_S64x64_S16000x64_1_0_0_1_n_n.lhsIdx i q 1).val = (q ⟨0, by decide⟩).val :=
  dot_S16000x64_S64x64_S16000x64_1_0_0_1_n_n.lhsIdx_val_of_single rfl i q
/-- the right factor's row is the inner coordinate, -/
theorem rhs_0 (i : S16000x64.Idx) (q : dot_S16000x64_S64x64_S16000x64_1_0_0_1_n_n.contr.Idx) : (dot_S16000x64_S64x64_S16000x64_1_0_0_1_n_n.rhsIdx i q 0).val = (q ⟨0, by decide⟩).val :=
  dot_S16000x64_S64x64_S16000x64_1_0_0_1_n_n.rhsIdx_val_of_single rfl i q
/-- its column the result's column. -/
theorem rhs_1 (i : S16000x64.Idx) (q : dot_S16000x64_S64x64_S16000x64_1_0_0_1_n_n.contr.Idx) : (dot_S16000x64_S64x64_S16000x64_1_0_0_1_n_n.rhsIdx i q 1).val = (i 1).val := by
  unfold DotDims.rhsIdx
  rw [dif_neg (show ¬(1 : Fin S64x64.rank) ∈ dot_S16000x64_S64x64_S16000x64_1_0_0_1_n_n.rhsBatch by decide), dif_pos (show (1 : Fin S64x64.rank) ∈ dot_S16000x64_S64x64_S16000x64_1_0_0_1_n_n.rhsNonContracting by decide)]
  rfl

/-- The product into a zero accumulator, at row p and column q: the sum over the 64 inner coordinates. -/
theorem matmul_zero_apply (a : FVec Ideal S16000x64 .bf16) (w : FVec Ideal S64x64 .bf16) (p : Fin 16000) (q : Fin 64) :
    matmul dot_S16000x64_S64x64_S16000x64_1_0_0_1_n_n none a w (constant S16000x64 .f32 0x00000000#32) (ix2 p q) = ∑ k : Fin 64, a (ix2 p k) * w (ix2 k q) := by
  refine (Ideal.matmul_constant_zero_apply dot_S16000x64_S64x64_S16000x64_1_0_0_1_n_n none a w (ix2 p q)).trans ?_
  rw [← Equiv.sum_comp (contrEquiv1 dot_S16000x64_S64x64_S16000x64_1_0_0_1_n_n 64 rfl rfl).symm]
  refine Finset.sum_congr rfl fun k _ => ?_
  have hk := contrEquiv1_symm_val dot_S16000x64_S64x64_S16000x64_1_0_0_1_n_n 64 rfl rfl k
  have el : dot_S16000x64_S64x64_S16000x64_1_0_0_1_n_n.lhsIdx (ix2 p q) ((contrEquiv1 dot_S16000x64_S64x64_S16000x64_1_0_0_1_n_n 64 rfl rfl).symm k) = ix2 p k := funext fun a => Fin.ext (by
    match a with
    | ⟨0, _⟩ => exact lhs_0 _ _
    | ⟨1, _⟩ => exact (lhs_1 _ _).trans hk)
  have er : dot_S16000x64_S64x64_S16000x64_1_0_0_1_n_n.rhsIdx (ix2 p q) ((contrEquiv1 dot_S16000x64_S64x64_S16000x64_1_0_0_1_n_n 64 rfl rfl).symm k) = ix2 k q := funext fun a => Fin.ext (by
    match a with
    | ⟨0, _⟩ => exact (rhs_0 _ _).trans hk
    | ⟨1, _⟩ => exact rhs_1 _ _)
  rw [el, er]

/-! ## The body's payloads, entry by entry -/

/-- The inverse square root of a vector, entry by entry. -/
theorem rsqrt_apply {s : Shape} {φ : FTy} (a : FVec Ideal s φ) (i : s.Idx) : rsqrt a i = Ideal.rsqrt (a i) := rfl

/-- A vector of length a viewed as a 1 × 1 × a block reads, at (u, v, i), the vector at i. -/
theorem shapeCast_a_11a_apply {α : Type} {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv]; simp)

/-- The sum down the 16000 rows of a block, at column o. -/
theorem colsum_apply (v : FVec Ideal S16000x64 .f32) (hφ : FKind.Formats .f32)
    (hacc : (0x00000000#32 : BitVec 32) = FKind.add.neutral .f32 hφ) (o : Fin 64) :
    multiReduction .add [0] S64 v 0x00000000#32 reduces_S16000x64_S64 hφ hacc (ix1 o) = ∑ r : Fin 16000, v (ix2 r o) := by
  refine (Ideal.multiReduction_add_single v _ reduces_S16000x64_S64 hφ hacc (ix1 o)).trans ?_
  exact Finset.sum_congr rfl fun k _ => congrArg v (funext fun a => Fin.ext (by match a with | ⟨0, _⟩ => rfl | ⟨1, _⟩ => rfl))

/-- The second layer's block from the first layer's block and the six small operands. -/
theorem pay5_apply (v3 : Vec Ideal S16000x64 .bf16) (v6 v11 v17 v21 : Vec Ideal S1x64 .f32) (v28 : Vec Ideal S64x64 .bf16)
    (v31 : Vec Ideal S1x64 .f32) (p : Fin 16000) (q : Fin 64) :
    k1_pay5 (F := Ideal) v3 v6 v11 v17 v21 v28 v31 (ix2 p q)
      = (∑ k : Fin 64, max ((v3 (ix2 p k) - v11 (ix2 (0 : Fin 1) k)) * Ideal.rsqrt (v6 (ix2 (0 : Fin 1) k) + eps) * v17 (ix2 (0 : Fin 1) k)
            + v21 (ix2 (0 : Fin 1) k)) 0 * v28 (ix2 k q)) + v31 (ix2 (0 : Fin 1) q) := by
  unfold k1_pay5
  simp only [addf_apply, matmul_zero_apply, truncf_apply, maximumf_apply, mulf_apply, subf_apply, extf_apply, shapeCast_self,
    broadcastTo_1b_ab_apply, broadcast_apply, rsqrt_apply]
  rw [show (FloatOps.ofBits FTy.f32 (0#32) : Ideal .f32) = (0 : EReal) from Cert.Consts.ofBits_zero]
  rfl

/-- The accumulator row plus the block's column sums. -/
theorem pay1_apply (v34 : FVec Ideal S16000x64 .f32) (v35 : Vec Ideal S1x1x64 .f32) (o : Fin 64) :
    k1_pay1 (F := Ideal) v34 v35 (ix3 (0 : Fin 1) (0 : Fin 1) o) = v35 (ix3 (0 : Fin 1) (0 : Fin 1) o) + ∑ r : Fin 16000, v34 (ix2 r o) := by
  unfold k1_pay1
  simp only [addf_apply, shapeCast_self, shapeCast_a_11a_apply]
  exact congrArg (v35 (ix3 (0 : Fin 1) (0 : Fin 1) o) + ·) (colsum_apply v34 _ _ o)

/-- The accumulator row plus the block's column sums of squares. -/
theorem pay2_apply (v34 : FVec Ideal S16000x64 .f32) (v41 : Vec Ideal S1x1x64 .f32) (o : Fin 64) :
    k1_pay2 (F := Ideal) v34 v41 (ix3 (0 : Fin 1) (0 : Fin 1) o)
      = v41 (ix3 (0 : Fin 1) (0 : Fin 1) o) + ∑ r : Fin 16000, v34 (ix2 r o) * v34 (ix2 r o) := by
  unfold k1_pay2
  simp only [addf_apply, shapeCast_self, shapeCast_a_11a_apply]
  exact congrArg (v41 (ix3 (0 : Fin 1) (0 : Fin 1) o) + ·) (colsum_apply (mulf v34 v34) _ _ o)

/-- The reset row is zero. -/
theorem pay3_apply (j : S1x1x64.Idx) : k1_pay3 (F := Ideal) j = 0 := by
  unfold k1_pay3
  exact Cert.Consts.ofBits_zero

/-- So is the second reset row. -/
theorem pay4_apply (j : S1x1x64.Idx) : k1_pay4 (F := Ideal) j = 0 := by
  unfold k1_pay4
  exact Cert.Consts.ofBits_zero

/-! ## The windows' blocks as entries of the arrays -/

/-- The input windows' index maps, decided over the grid: the edge window's block row is the point's number, and the
    small operands' windows never move. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Row r of the edge window's block at point t is edge t · 16000 + r. -/
theorem blk0_apply (c : Dev nD) (t : Fin cfg1.N) (r : Fin 16000) (k : Fin 64) (e : Fin NE) (he : e.val = t.val * 16000 + r.val) :
    (iblk1 V c 0 t : Vec Ideal S16000x64 .bf16) (ix2 r k) = B0 V c (ix2 e k) := by
  unfold iblk1
  rw [View.read_apply]
  show V c (Pipeline.arrRef spec1 0) _ = V c (Pipeline.arrRef spec1 0) _
  congr 1
  funext a
  apply Fin.ext
  obtain ⟨e0, e1, -⟩ := idx_facts t
  match a with
  | ⟨0, _⟩ => show win1_0.index t (0 : Fin 2) * 16000 + 1 * r.val = e.val; rw [e0, he]; omega
  | ⟨1, _⟩ => show win1_0.index t (1 : Fin 2) * 64 + 1 * k.val = k.val; rw [e1]; omega

/-- The scale's window is the whole row. -/
theorem blk1_apply (c : Dev nD) (t : Fin cfg1.N) (k : Fin 64) :
    (iblk1 V c 1 t : Vec Ideal S1x64 .f32) (ix2 (0 : Fin 1) k) = B1 V c (ix2 (0 : Fin 1) k) := by
  unfold iblk1
  rw [View.read_apply]
  show V c (Pipeline.arrRef spec1 1) _ = V c (Pipeline.arrRef spec1 1) _
  congr 1
  funext a
  apply Fin.ext
  have hi : win1_1.index t (0 : Fin 2) = 0 ∧ win1_1.index t (1 : Fin 2) = 0 := by
    have := idx_facts t; tauto
  match a with
  | ⟨0, _⟩ => show win1_1.index t (0 : Fin 2) * 1 + 1 * 0 = 0; rw [hi.1]
  | ⟨1, _⟩ => show win1_1.index t (1 : Fin 2) * 64 + 1 * k.val = k.val; rw [hi.2]; omega

/-- The shift's window is the whole row. -/
theorem blk2_apply (c : Dev nD) (t : Fin cfg1.N) (k : Fin 64) :
    (iblk1 V c 2 t : Vec Ideal S1x64 .f32) (ix2 (0 : Fin 1) k) = B2 V c (ix2 (0 : Fin 1) k) := by
  unfold iblk1
  rw [View.read_apply]
  show V c (Pipeline.arrRef spec1 2) _ = V c (Pipeline.arrRef spec1 2) _
  congr 1
  funext a
  apply Fin.ext
  have hi : win1_2.index t (0 : Fin 2) = 0 ∧ win1_2.index t (1 : Fin 2) = 0 := by
    have := idx_facts t; tauto
  match a with
  | ⟨0, _⟩ => show win1_2.index t (0 : Fin 2) * 1 + 1 * 0 = 0; rw [hi.1]
  | ⟨1, _⟩ => show win1_2.index t (1 : Fin 2) * 64 + 1 * k.val = k.val; rw [hi.2]; omega

/-- The means' window is the whole row. -/
theorem blk3_apply (c : Dev nD) (t : Fin cfg1.N) (k : Fin 64) :
    (iblk1 V c 3 t : Vec Ideal S1x64 .f32) (ix2 (0 : Fin 1) k) = B3 V c (ix2 (0 : Fin 1) k) := by
  unfold iblk1
  rw [View.read_apply]
  show V c (Pipeline.arrRef spec1 3) _ = V c (Pipeline.arrRef spec1 3) _
  congr 1
  funext a
  apply Fin.ext
  have hi : win1_3.index t (0 : Fin 2) = 0 ∧ win1_3.index t (1 : Fin 2) = 0 := by
    have := idx_facts t; tauto
  match a with
  | ⟨0, _⟩ => show win1_3.index t (0 : Fin 2) * 1 + 1 * 0 = 0; rw [hi.1]
  | ⟨1, _⟩ => show win1_3.index t (1 : Fin 2) * 64 + 1 * k.val = k.val; rw [hi.2]; omega

/-- The variances' window is the whole row. -/
theorem blk4_apply (c : Dev nD) (t : Fin cfg1.N) (k : Fin 64) :
    (iblk1 V c 4 t : Vec Ideal S1x64 .f32) (ix2 (0 : Fin 1) k) = B4 V c (ix2 (0 : Fin 1) k) := by
  unfold iblk1
  rw [View.read_apply]
  show V c (Pipeline.arrRef spec1 4) _ = V c (Pipeline.arrRef spec1 4) _
  congr 1
  funext a
  apply Fin.ext
  have hi : win1_4.index t (0 : Fin 2) = 0 ∧ win1_4.index t (1 : Fin 2) = 0 := by
    have := idx_facts t; tauto
  match a with
  | ⟨0, _⟩ => show win1_4.index t (0 : Fin 2) * 1 + 1 * 0 = 0; rw [hi.1]
  | ⟨1, _⟩ => show win1_4.index t (1 : Fin 2) * 64 + 1 * k.val = k.val; rw [hi.2]; omega

/-- The weights' window is the whole matrix. -/
theorem blk5_apply (c : Dev nD) (t : Fin cfg1.N) (k o : Fin 64) :
    (iblk1 V c 5 t : Vec Ideal S64x64 .bf16) (ix2 k o) = B5 V c (ix2 k o) := by
  unfold iblk1
  rw [View.read_apply]
  show V c (Pipeline.arrRef spec1 5) _ = V c (Pipeline.arrRef spec1 5) _
  congr 1
  funext a
  apply Fin.ext
  have hi : win1_5.index t (0 : Fin 2) = 0 ∧ win1_5.index t (1 : Fin 2) = 0 := by
    have := idx_facts t; tauto
  match a with
  | ⟨0, _⟩ => show win1_5.index t (0 : Fin 2) * 64 + 1 * k.val = k.val; rw [hi.1]; omega
  | ⟨1, _⟩ => show win1_5.index t (1 : Fin 2) * 64 + 1 * o.val = o.val; rw [hi.2]; omega

/-- The bias's window is the whole row. -/
theorem blk6_apply (c : Dev nD) (t : Fin cfg1.N) (k : Fin 64) :
    (iblk1 V c 6 t : Vec Ideal S1x64 .f32) (ix2 (0 : Fin 1) k) = B6 V c (ix2 (0 : Fin 1) k) := by
  unfold iblk1
  rw [View.read_apply]
  show V c (Pipeline.arrRef spec1 6) _ = V c (Pipeline.arrRef spec1 6) _
  congr 1
  funext a
  apply Fin.ext
  have hi : win1_6.index t (0 : Fin 2) = 0 ∧ win1_6.index t (1 : Fin 2) = 0 := by
    have := idx_facts t; tauto
  match a with
  | ⟨0, _⟩ => show win1_6.index t (0 : Fin 2) * 1 + 1 * 0 = 0; rw [hi.1]
  | ⟨1, _⟩ => show win1_6.index t (1 : Fin 2) * 64 + 1 * k.val = k.val; rw [hi.2]; omega

/-! ## One point's addends -/

/-- At point t the body's second-layer block is the second layer's values of edges t · 16000 … t · 16000 + 15999. -/
theorem point_apply (c : Dev nD) (t : Fin cfg1.N) (r : Fin 16000) (o : Fin 64) (e : Fin NE) (he : e.val = t.val * 16000 + r.val) :
    k1_pay5 (F := Ideal) (iblk1 V c 0 t) (iblk1 V c 4 t) (iblk1 V c 3 t) (iblk1 V c 1 t) (iblk1 V c 2 t) (iblk1 V c 5 t) (iblk1 V c 6 t) (ix2 r o)
      = h2 V c e o := by
  refine (pay5_apply (iblk1 V c 0 t) (iblk1 V c 4 t) (iblk1 V c 3 t) (iblk1 V c 1 t) (iblk1 V c 2 t) (iblk1 V c 5 t) (iblk1 V c 6 t) r o).trans ?_
  show _ = (∑ k : Fin 64, max ((B0 V c (ix2 e k) - B3 V c (ix2 (0 : Fin 1) k)) * Ideal.rsqrt (B4 V c (ix2 (0 : Fin 1) k) + eps) * B1 V c (ix2 (0 : Fin 1) k)
      + B2 V c (ix2 (0 : Fin 1) k)) 0 * B5 V c (ix2 k o)) + B6 V c (ix2 (0 : Fin 1) o)
  rw [blk6_apply V c t o]
  refine congrArg (· + B6 V c (ix2 (0 : Fin 1) o)) (Finset.sum_congr rfl fun k _ => ?_)
  rw [blk0_apply V c t r k e he, blk1_apply V c t k, blk2_apply V c t k, blk3_apply V c t k, blk4_apply V c t k, blk5_apply V c t k o]

/-! ## The running sums -/

/-- A quantity that restarts at the multiples of 50 with that point's addend, and at every other point adds the point's
    addend to its value at the point before, is at every point the sum of the addends since the last restart. -/
theorem run_sum (N : ℕ) (f : (n : ℕ) → n < N → EReal) (M : ℕ → EReal)
    (hA : ∀ n (h : n < N), n % 50 = 0 → f n h = M n)
    (hB : ∀ n (h : n + 1 < N), ¬(n + 1) % 50 = 0 → f (n + 1) h = f n (Nat.lt_of_succ_lt h) + M (n + 1)) :
    ∀ n (h : n < N), f n h = ∑ j ∈ Finset.range (n % 50 + 1), M (n - n % 50 + j)
  | 0, h => by rw [hA 0 h rfl]; simp
  | n + 1, h => by
    by_cases h0 : (n + 1) % 50 = 0
    · rw [hA _ h h0, h0]; simp
    · rw [hB n h h0, run_sum N f M hA hB n (Nat.lt_of_succ_lt h)]
      have e1 : (n + 1) % 50 = n % 50 + 1 := by omega
      have e2 : n + 1 - (n % 50 + 1) = n - n % 50 := by omega
      have e3 : n - n % 50 + (n % 50 + 1) = n + 1 := by omega
      rw [e1, e2, Finset.sum_range_succ _ (n % 50 + 1), e3]

/-- The column sums of the second layer's values over the 16000 edges of block n (zero past the last block). -/
def blockSum (c : Dev nD) (n : ℕ) (o : Fin 64) : EReal :=
  if h : n < 100 then ∑ r : Fin 16000, h2 V c ⟨n * 16000 + r.val, by have := r.isLt; show n * 16000 + r.val < 1600000; omega⟩ o else 0

/-- The column sums of squares of the second layer's values over block n (zero past the last block). -/
def blockSumSq (c : Dev nD) (n : ℕ) (o : Fin 64) : EReal :=
  if h : n < 100 then ∑ r : Fin 16000, h2 V c ⟨n * 16000 + r.val, by have := r.isLt; show n * 16000 + r.val < 1600000; omega⟩ o
      * h2 V c ⟨n * 16000 + r.val, by have := r.isLt; show n * 16000 + r.val < 1600000; omega⟩ o else 0

/-- The column sums of the body's second-layer block at point n are block n's. -/
theorem pointSum (c : Dev nD) (n : ℕ) (h : n < cfg1.N) (o : Fin 64) :
    (∑ r : Fin 16000, k1_pay5 (F := Ideal) (iblk1 V c 0 ⟨n, h⟩) (iblk1 V c 4 ⟨n, h⟩) (iblk1 V c 3 ⟨n, h⟩) (iblk1 V c 1 ⟨n, h⟩) (iblk1 V c 2 ⟨n, h⟩) (iblk1 V c 5 ⟨n, h⟩) (iblk1 V c 6 ⟨n, h⟩) (ix2 r o)) = blockSum V c n o := by
  have hN : n < 100 := lt_of_lt_of_eq h (show cfg1.N = 100 from N_1)
  unfold blockSum
  rw [dif_pos hN]
  exact Finset.sum_congr rfl fun r _ => point_apply V c ⟨n, h⟩ r o _ rfl

/-- The column sums of squares of the body's second-layer block at point n are block n's. -/
theorem pointSumSq (c : Dev nD) (n : ℕ) (h : n < cfg1.N) (o : Fin 64) :
    (∑ r : Fin 16000, k1_pay5 (F := Ideal) (iblk1 V c 0 ⟨n, h⟩) (iblk1 V c 4 ⟨n, h⟩) (iblk1 V c 3 ⟨n, h⟩) (iblk1 V c 1 ⟨n, h⟩) (iblk1 V c 2 ⟨n, h⟩) (iblk1 V c 5 ⟨n, h⟩) (iblk1 V c 6 ⟨n, h⟩) (ix2 r o) * k1_pay5 (F := Ideal) (iblk1 V c 0 ⟨n, h⟩) (iblk1 V c 4 ⟨n, h⟩) (iblk1 V c 3 ⟨n, h⟩) (iblk1 V c 1 ⟨n, h⟩) (iblk1 V c 2 ⟨n, h⟩) (iblk1 V c 5 ⟨n, h⟩) (iblk1 V c 6 ⟨n, h⟩) (ix2 r o)) = blockSumSq V c n o := by
  have hN : n < 100 := lt_of_lt_of_eq h (show cfg1.N = 100 from N_1)
  unfold blockSumSq
  rw [dif_pos hN]
  exact Finset.sum_congr rfl fun r _ => congrArg₂ (· * ·) (point_apply V c ⟨n, h⟩ r o _ rfl) (point_apply V c ⟨n, h⟩ r o _ rfl)

/-- At a half's first point the first row is left at the point's column sums. -/
theorem stepA7 (c : Dev nD) (n : ℕ) (h : n < cfg1.N) (h0 : n % 50 = 0) (o : Fin 64) :
    ((outsAt1 V c n h).1 : Vec Ideal S1x1x64 .f32) (ix3 (0 : Fin 1) (0 : Fin 1) o) = blockSum V c n o := by
  rw [outsAt1_A V c ⟨n, h⟩ h0]
  dsimp only
  refine (congrFun (out_A7 (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) (ms1_6 ⟨n, h⟩) (hs1_6 ⟨n, h⟩) (ms1_7 ⟨n, h⟩) (hs1_7 ⟨n, h⟩) (ms1_8 ⟨n, h⟩) (hs1_8 ⟨n, h⟩) ((hcond1_0 ⟨n, h⟩).mpr h0) (iblk1 V c 0 ⟨n, h⟩) (iblk1 V c 1 ⟨n, h⟩) (iblk1 V c 2 ⟨n, h⟩) (iblk1 V c 3 ⟨n, h⟩) (iblk1 V c 4 ⟨n, h⟩) (iblk1 V c 5 ⟨n, h⟩) (iblk1 V c 6 ⟨n, h⟩)) (ix3 (0 : Fin 1) (0 : Fin 1) o)).trans ?_
  refine (pay1_apply (k1_pay5 (F := Ideal) (iblk1 V c 0 ⟨n, h⟩) (iblk1 V c 4 ⟨n, h⟩) (iblk1 V c 3 ⟨n, h⟩) (iblk1 V c 1 ⟨n, h⟩) (iblk1 V c 2 ⟨n, h⟩) (iblk1 V c 5 ⟨n, h⟩) (iblk1 V c 6 ⟨n, h⟩)) (k1_pay3 (F := Ideal)) o).trans ?_
  rw [pay3_apply, zero_add]
  exact pointSum V c n h o

/-- At a half's first point the second row is left at the point's column sums of squares. -/
theorem stepA8 (c : Dev nD) (n : ℕ) (h : n < cfg1.N) (h0 : n % 50 = 0) (o : Fin 64) :
    ((outsAt1 V c n h).2 : Vec Ideal S1x1x64 .f32) (ix3 (0 : Fin 1) (0 : Fin 1) o) = blockSumSq V c n o := by
  rw [outsAt1_A V c ⟨n, h⟩ h0]
  dsimp only
  refine (congrFun (out_A8 (F := Ideal) c (grid1.coords ⟨n, h⟩) (ms1_0 ⟨n, h⟩) (hs1_0 ⟨n, h⟩) (ms1_1 ⟨n, h⟩) (hs1_1 ⟨n, h⟩) (ms1_2 ⟨n, h⟩) (hs1_2 ⟨n, h⟩) (ms1_3 ⟨n, h⟩) (hs1_3 ⟨n, h⟩) (ms1_4 ⟨n, h⟩) (hs1_4 ⟨n, h⟩) (ms1_5 ⟨n, h⟩) (hs1_5 ⟨n, h⟩) (ms1_6 ⟨n, h⟩) (hs1_6 ⟨n, h⟩) (ms1_7 ⟨n, h⟩) (hs1_7 ⟨n, h⟩) (ms1_8 ⟨n, h⟩) (hs1_8 ⟨n, h⟩) ((hcond1_0 ⟨n, h⟩).mpr h0) (iblk1 V c 0 ⟨n, h⟩) (iblk1 V c 1 ⟨n, h⟩) (iblk1 V c 2 ⟨n, h⟩) (iblk1 V c 3 ⟨n, h⟩) (iblk1 V c 4 ⟨n, h⟩) (iblk1 V c 5 ⟨n, h⟩) (iblk1 V c 6 ⟨n, h⟩)) (ix3 (0 : Fin 1) (0 : Fin 1) o)).trans ?_
  refine (pay2_apply (k1_pay5 (F := Ideal) (iblk1 V c 0 ⟨n, h⟩) (iblk1 V c 4 ⟨n, h⟩) (iblk1 V c 3 ⟨n, h⟩) (iblk1 V c 1 ⟨n, h⟩) (iblk1 V c 2 ⟨n, h⟩) (iblk1 V c 5 ⟨n, h⟩) (iblk1 V c 6 ⟨n, h⟩)) (k1_pay4 (F := Ideal)) o).trans ?_
  rw [pay4_apply, zero_add]
  exact pointSumSq V c n h o

/-- At every other point the first row gains the point's column sums. -/
theorem stepB7 (c : Dev nD) (n : ℕ) (h : n + 1 < cfg1.N) (h0 : ¬(n + 1) % 50 = 0) (o : Fin 64) :
    ((outsAt1 V c (n + 1) h).1 : Vec Ideal S1x1x64 .f32) (ix3 (0 : Fin 1) (0 : Fin 1) o)
      = ((outsAt1 V c n (Nat.lt_of_succ_lt h)).1 : Vec Ideal S1x1x64 .f32) (ix3 (0 : Fin 1) (0 : Fin 1) o) + blockSum V c (n + 1) o := by
  rw [outsAt1_B V c ⟨n + 1, h⟩ h0]
  dsimp only
  simp only [Nat.add_sub_cancel]
  refine (congrFun (out_B7 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (fun hh => h0 ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (outsAt1 V c n (Nat.lt_of_succ_lt h)).1 (outsAt1 V c n (Nat.lt_of_succ_lt h)).2) (ix3 (0 : Fin 1) (0 : Fin 1) o)).trans ?_
  refine (pay1_apply (k1_pay5 (F := Ideal) (iblk1 V c 0 ⟨n + 1, h⟩) (iblk1 V c 4 ⟨n + 1, h⟩) (iblk1 V c 3 ⟨n + 1, h⟩) (iblk1 V c 1 ⟨n + 1, h⟩) (iblk1 V c 2 ⟨n + 1, h⟩) (iblk1 V c 5 ⟨n + 1, h⟩) (iblk1 V c 6 ⟨n + 1, h⟩)) (outsAt1 V c n (Nat.lt_of_succ_lt h)).1 o).trans ?_
  exact congrArg (((outsAt1 V c n (Nat.lt_of_succ_lt h)).1 : Vec Ideal S1x1x64 .f32) (ix3 (0 : Fin 1) (0 : Fin 1) o) + ·) (pointSum V c (n + 1) h o)

/-- At every other point the second row gains the point's column sums of squares. -/
theorem stepB8 (c : Dev nD) (n : ℕ) (h : n + 1 < cfg1.N) (h0 : ¬(n + 1) % 50 = 0) (o : Fin 64) :
    ((outsAt1 V c (n + 1) h).2 : Vec Ideal S1x1x64 .f32) (ix3 (0 : Fin 1) (0 : Fin 1) o)
      = ((outsAt1 V c n (Nat.lt_of_succ_lt h)).2 : Vec Ideal S1x1x64 .f32) (ix3 (0 : Fin 1) (0 : Fin 1) o) + blockSumSq V c (n + 1) o := by
  rw [outsAt1_B V c ⟨n + 1, h⟩ h0]
  dsimp only
  simp only [Nat.add_sub_cancel]
  refine (congrFun (out_B8 (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (ms1_7 ⟨n + 1, h⟩) (hs1_7 ⟨n + 1, h⟩) (ms1_8 ⟨n + 1, h⟩) (hs1_8 ⟨n + 1, h⟩) (fun hh => h0 ((hcond1_0 ⟨n + 1, h⟩).mp hh)) (iblk1 V c 0 ⟨n + 1, h⟩) (iblk1 V c 1 ⟨n + 1, h⟩) (iblk1 V c 2 ⟨n + 1, h⟩) (iblk1 V c 3 ⟨n + 1, h⟩) (iblk1 V c 4 ⟨n + 1, h⟩) (iblk1 V c 5 ⟨n + 1, h⟩) (iblk1 V c 6 ⟨n + 1, h⟩) (outsAt1 V c n (Nat.lt_of_succ_lt h)).1 (outsAt1 V c n (Nat.lt_of_succ_lt h)).2) (ix3 (0 : Fin 1) (0 : Fin 1) o)).trans ?_
  refine (pay2_apply (k1_pay5 (F := Ideal) (iblk1 V c 0 ⟨n + 1, h⟩) (iblk1 V c 4 ⟨n + 1, h⟩) (iblk1 V c 3 ⟨n + 1, h⟩) (iblk1 V c 1 ⟨n + 1, h⟩) (iblk1 V c 2 ⟨n + 1, h⟩) (iblk1 V c 5 ⟨n + 1, h⟩) (iblk1 V c 6 ⟨n + 1, h⟩)) (outsAt1 V c n (Nat.lt_of_succ_lt h)).2 o).trans ?_
  exact congrArg (((outsAt1 V c n (Nat.lt_of_succ_lt h)).2 : Vec Ideal S1x1x64 .f32) (ix3 (0 : Fin 1) (0 : Fin 1) o) + ·) (pointSumSq V c (n + 1) h o)

/-- After every point the first row holds the column sums of the blocks since the half's first. -/
theorem acc7 (c : Dev nD) (o : Fin 64) : ∀ n (h : n < cfg1.N),
    ((outsAt1 V c n h).1 : Vec Ideal S1x1x64 .f32) (ix3 (0 : Fin 1) (0 : Fin 1) o)
      = ∑ j ∈ Finset.range (n % 50 + 1), blockSum V c (n - n % 50 + j) o :=
  run_sum cfg1.N (fun n h => ((outsAt1 V c n h).1 : Vec Ideal S1x1x64 .f32) (ix3 (0 : Fin 1) (0 : Fin 1) o)) (fun n => blockSum V c n o)
    (fun n h h0 => stepA7 V c n h h0 o) (fun n h h0 => stepB7 V c n h h0 o)

/-- After every point the second row holds the column sums of squares of the blocks since the half's first. -/
theorem acc8 (c : Dev nD) (o : Fin 64) : ∀ n (h : n < cfg1.N),
    ((outsAt1 V c n h).2 : Vec Ideal S1x1x64 .f32) (ix3 (0 : Fin 1) (0 : Fin 1) o)
      = ∑ j ∈ Finset.range (n % 50 + 1), blockSumSq V c (n - n % 50 + j) o :=
  run_sum cfg1.N (fun n h => ((outsAt1 V c n h).2 : Vec Ideal S1x1x64 .f32) (ix3 (0 : Fin 1) (0 : Fin 1) o)) (fun n => blockSumSq V c n o)
    (fun n h h0 => stepA8 V c n h h0 o) (fun n h h0 => stepB8 V c n h h0 o)

/-- At a half's last point the first row holds the half's column sums. -/
theorem half7 (c : Dev nD) (p : Fin 2) (o : Fin 64) (h : p.val * 50 + 49 < cfg1.N) :
    ((outsAt1 V c (p.val * 50 + 49) h).1 : Vec Ideal S1x1x64 .f32) (ix3 (0 : Fin 1) (0 : Fin 1) o) = halfSum (h2 V c) p o := by
  rw [acc7 V c o _ h]
  have e1 : (p.val * 50 + 49) % 50 + 1 = 50 := by omega
  have e2 : p.val * 50 + 49 - (p.val * 50 + 49) % 50 = p.val * 50 := by omega
  rw [e1, e2, Finset.sum_range]
  unfold halfSum
  refine Finset.sum_congr rfl fun i _ => ?_
  unfold blockSum
  have hp := p.isLt
  have hi := i.isLt
  rw [dif_pos (by omega)]
  rfl

/-- At a half's last point the second row holds the half's column sums of squares. -/
theorem half8 (c : Dev nD) (p : Fin 2) (o : Fin 64) (h : p.val * 50 + 49 < cfg1.N) :
    ((outsAt1 V c (p.val * 50 + 49) h).2 : Vec Ideal S1x1x64 .f32) (ix3 (0 : Fin 1) (0 : Fin 1) o) = halfSumSq (h2 V c) p o := by
  rw [acc8 V c o _ h]
  have e1 : (p.val * 50 + 49) % 50 + 1 = 50 := by omega
  have e2 : p.val * 50 + 49 - (p.val * 50 + 49) % 50 = p.val * 50 := by omega
  rw [e1, e2, Finset.sum_range]
  unfold halfSumSq
  refine Finset.sum_congr rfl fun i _ => ?_
  unfold blockSumSq
  have hp := p.isLt
  have hi := i.isLt
  rw [dif_pos (by omega)]
  rfl

/-! ## From the last point of each half to the two output arrays -/

/-- The accumulator windows' index maps, decided over the grid: the block is the half the point lies in. -/
theorem idx_out : ∀ t : Fin cfg1.N,
    win1_7.index t (0 : Fin 3) = t.val / 50 ∧ win1_7.index t (1 : Fin 3) = 0 ∧ win1_7.index t (2 : Fin 3) = 0
    ∧ win1_8.index t (0 : Fin 3) = t.val / 50 ∧ win1_8.index t (1 : Fin 3) = 0 ∧ win1_8.index t (2 : Fin 3) = 0 :=
  (by decide +kernel : ∀ t : Fin grid1.N, _)

/-- Two accumulator rows that agree at every column are equal. -/
theorem row_ext (a b : Vec Ideal S1x1x64 .f32) (hab : ∀ o : Fin 64, a (ix3 (0 : Fin 1) (0 : Fin 1) o) = b (ix3 (0 : Fin 1) (0 : Fin 1) o)) : a = b := by
  funext y
  obtain ⟨u, v, o, rfl⟩ : ∃ (u v : Fin 1) (o : Fin 64), y = ix3 u v o := ⟨y 0, y 1, y 2, eq_ix3 y⟩
  obtain rfl : u = 0 := Subsingleton.elim _ _
  obtain rfl : v = 0 := Subsingleton.elim _ _
  exact hab o

/-- What the first output array ends holding: row p is half p's column sums. -/
def G7 (c : Dev nD) : Vec Ideal S2x1x64 .f32 := fun j => halfSum (h2 V c) ⟨(j 0).val, (j 0).isLt⟩ ⟨(j 2).val, (j 2).isLt⟩

/-- The one write-back of a half, at its last point, writes the half's row of that array. -/
theorem flushed7_eq (c : Dev nD) (t : Fin cfg1.N) (hf : (cfg1.win 7).flush t = true) :
    (dat1 V c).flushed 7 t = ((cfg1.win 7).blk t).view.read (Elt Ideal) (G7 V c) := by
  have hN : cfg1.N = 100 := N_1
  have h49 : t.val % 50 = 49 := (flush1_7 t).mp hf
  show (cfg1.win 7).cut (grid1.coords t) ((dat1 V c).after 7 t) = _
  rw [after1_7]
  refine row_ext _ _ fun o => ?_
  rw [View.read_apply]
  obtain ⟨n, hn⟩ := t
  dsimp only at h49
  obtain ⟨p, rfl⟩ : ∃ p : Fin 2, n = p.val * 50 + 49 := ⟨⟨n / 50, by omega⟩, by dsimp only; omega⟩
  have hemb : ((cfg1.win 7).blk ⟨p.val * 50 + 49, hn⟩).view.emb (ix3 (0 : Fin 1) (0 : Fin 1) o) = (ix3 p (0 : Fin 1) o : S2x1x64.Idx) := by
    obtain ⟨i0, i1, i2, -⟩ := idx_out ⟨p.val * 50 + 49, hn⟩
    have hp := p.isLt
    funext a
    apply Fin.ext
    match a with
    | ⟨0, _⟩ => show win1_7.index ⟨p.val * 50 + 49, hn⟩ (0 : Fin 3) * 1 + 1 * 0 = p.val; rw [i0]; dsimp only; omega
    | ⟨1, _⟩ => show win1_7.index ⟨p.val * 50 + 49, hn⟩ (1 : Fin 3) * 1 + 1 * 0 = 0; rw [i1]
    | ⟨2, _⟩ => show win1_7.index ⟨p.val * 50 + 49, hn⟩ (2 : Fin 3) * 64 + 1 * o.val = o.val; rw [i2]; omega
  rw [hemb]
  exact half7 V c p o hn

/-- An entry of the array is in a point's block iff each coordinate is in the block's range on its axis. -/
theorem mem_blk7 (t : Fin cfg1.N) (i : S2x1x64.Idx) :
    i ∈ ((cfg1.win 7).blk t).view.set ↔ ∀ a : Fin 3, win1_7.index t a * S1x1x64.size a ≤ (i a).val ∧ (i a).val < win1_7.index t a * S1x1x64.size a + S1x1x64.size a := by
  show i ∈ ((View.whole main_v28_0).slice (win1_7.rect t)).set ↔ _
  rw [View.set_slice_whole, Rect.mem_set_unit]
  exact Iff.rfl

/-- Row p of the array lies in the block written back at half p's last point. -/
theorem cover7 (i : S2x1x64.Idx) : ∃ t : Fin cfg1.N, (cfg1.win 7).flush t = true ∧ i ∈ ((cfg1.win 7).blk t).view.set := by
  have hN : cfg1.N = 100 := N_1
  have h0 : (i 0).val < 2 := (i 0).isLt
  have h1 : (i 1).val < 1 := (i 1).isLt
  have h2 : (i 2).val < 64 := (i 2).isLt
  have ht : (i 0).val * 50 + 49 < cfg1.N := by omega
  refine ⟨⟨(i 0).val * 50 + 49, ht⟩, (flush1_7 _).mpr (by dsimp only; omega), ?_⟩
  rw [mem_blk7]
  obtain ⟨i0, i1, i2, -⟩ := idx_out ⟨(i 0).val * 50 + 49, ht⟩
  dsimp only at i0
  intro a
  match a with
  | ⟨0, _⟩ => show win1_7.index ⟨(i 0).val * 50 + 49, ht⟩ (0 : Fin 3) * 1 ≤ (i 0).val ∧ (i 0).val < win1_7.index ⟨(i 0).val * 50 + 49, ht⟩ (0 : Fin 3) * 1 + 1; rw [i0]; omega
  | ⟨1, _⟩ => show win1_7.index ⟨(i 0).val * 50 + 49, ht⟩ (1 : Fin 3) * 1 ≤ (i 1).val ∧ (i 1).val < win1_7.index ⟨(i 0).val * 50 + 49, ht⟩ (1 : Fin 3) * 1 + 1; rw [i1]; omega
  | ⟨2, _⟩ => show win1_7.index ⟨(i 0).val * 50 + 49, ht⟩ (2 : Fin 3) * 64 ≤ (i 2).val ∧ (i 2).val < win1_7.index ⟨(i 0).val * 50 + 49, ht⟩ (2 : Fin 3) * 64 + 64; rw [i2]; omega

/-- So the array ends holding each half's row. -/
theorem final7 (c : Dev nD) : ((dat1 V c).arrAt 7 cfg1.N : Vec Ideal S2x1x64 .f32) = G7 V c :=
  (dat1 V c).arrAt_eq_of_cover 7 (G7 V c) (flushed7_eq V c) cover7

/-- What the second output array ends holding: row p is half p's column sums of squares. -/
def G8 (c : Dev nD) : Vec Ideal S2x1x64 .f32 := fun j => halfSumSq (h2 V c) ⟨(j 0).val, (j 0).isLt⟩ ⟨(j 2).val, (j 2).isLt⟩

/-- The one write-back of a half, at its last point, writes the half's row of that array. -/
theorem flushed8_eq (c : Dev nD) (t : Fin cfg1.N) (hf : (cfg1.win 8).flush t = true) :
    (dat1 V c).flushed 8 t = ((cfg1.win 8).blk t).view.read (Elt Ideal) (G8 V c) := by
  have hN : cfg1.N = 100 := N_1
  have h49 : t.val % 50 = 49 := (flush1_8 t).mp hf
  show (cfg1.win 8).cut (grid1.coords t) ((dat1 V c).after 8 t) = _
  rw [after1_8]
  refine row_ext _ _ fun o => ?_
  rw [View.read_apply]
  obtain ⟨n, hn⟩ := t
  dsimp only at h49
  obtain ⟨p, rfl⟩ : ∃ p : Fin 2, n = p.val * 50 + 49 := ⟨⟨n / 50, by omega⟩, by dsimp only; omega⟩
  have hemb : ((cfg1.win 8).blk ⟨p.val * 50 + 49, hn⟩).view.emb (ix3 (0 : Fin 1) (0 : Fin 1) o) = (ix3 p (0 : Fin 1) o : S2x1x64.Idx) := by
    obtain ⟨-, -, -, i0, i1, i2⟩ := idx_out ⟨p.val * 50 + 49, hn⟩
    have hp := p.isLt
    funext a
    apply Fin.ext
    match a with
    | ⟨0, _⟩ => show win1_8.index ⟨p.val * 50 + 49, hn⟩ (0 : Fin 3) * 1 + 1 * 0 = p.val; rw [i0]; dsimp only; omega
    | ⟨1, _⟩ => show win1_8.index ⟨p.val * 50 + 49, hn⟩ (1 : Fin 3) * 1 + 1 * 0 = 0; rw [i1]
    | ⟨2, _⟩ => show win1_8.index ⟨p.val * 50 + 49, hn⟩ (2 : Fin 3) * 64 + 1 * o.val = o.val; rw [i2]; omega
  rw [hemb]
  exact half8 V c p o hn

/-- An entry of the array is in a point's block iff each coordinate is in the block's range on its axis. -/
theorem mem_blk8 (t : Fin cfg1.N) (i : S2x1x64.Idx) :
    i ∈ ((cfg1.win 8).blk t).view.set ↔ ∀ a : Fin 3, win1_8.index t a * S1x1x64.size a ≤ (i a).val ∧ (i a).val < win1_8.index t a * S1x1x64.size a + S1x1x64.size a := by
  show i ∈ ((View.whole main_v28_1).slice (win1_8.rect t)).set ↔ _
  rw [View.set_slice_whole, Rect.mem_set_unit]
  exact Iff.rfl

/-- Row p of the array lies in the block written back at half p's last point. -/
theorem cover8 (i : S2x1x64.Idx) : ∃ t : Fin cfg1.N, (cfg1.win 8).flush t = true ∧ i ∈ ((cfg1.win 8).blk t).view.set := by
  have hN : cfg1.N = 100 := N_1
  have h0 : (i 0).val < 2 := (i 0).isLt
  have h1 : (i 1).val < 1 := (i 1).isLt
  have h2 : (i 2).val < 64 := (i 2).isLt
  have ht : (i 0).val * 50 + 49 < cfg1.N := by omega
  refine ⟨⟨(i 0).val * 50 + 49, ht⟩, (flush1_8 _).mpr (by dsimp only; omega), ?_⟩
  rw [mem_blk8]
  obtain ⟨-, -, -, i0, i1, i2⟩ := idx_out ⟨(i 0).val * 50 + 49, ht⟩
  dsimp only at i0
  intro a
  match a with
  | ⟨0, _⟩ => show win1_8.index ⟨(i 0).val * 50 + 49, ht⟩ (0 : Fin 3) * 1 ≤ (i 0).val ∧ (i 0).val < win1_8.index ⟨(i 0).val * 50 + 49, ht⟩ (0 : Fin 3) * 1 + 1; rw [i0]; omega
  | ⟨1, _⟩ => show win1_8.index ⟨(i 0).val * 50 + 49, ht⟩ (1 : Fin 3) * 1 ≤ (i 1).val ∧ (i 1).val < win1_8.index ⟨(i 0).val * 50 + 49, ht⟩ (1 : Fin 3) * 1 + 1; rw [i1]; omega
  | ⟨2, _⟩ => show win1_8.index ⟨(i 0).val * 50 + 49, ht⟩ (2 : Fin 3) * 64 ≤ (i 2).val ∧ (i 2).val < win1_8.index ⟨(i 0).val * 50 + 49, ht⟩ (2 : Fin 3) * 64 + 64; rw [i2]; omega

/-- So the array ends holding each half's row. -/
theorem final8 (c : Dev nD) : ((dat1 V c).arrAt 8 cfg1.N : Vec Ideal S2x1x64 .f32) = G8 V c :=
  (dat1 V c).arrAt_eq_of_cover 8 (G8 V c) (flushed8_eq V c) cover8

/-- The first output after the last point: each half's column sums of the second layer's values. -/
theorem out7 (c : Dev nD) (p : Fin 2) (o : Fin 64) :
    ((dat1 (F := Ideal) V c).arrAt 7 cfg1.N : Vec Ideal S2x1x64 .f32) (ix3 p (0 : Fin 1) o) = halfSum (h2 V c) p o :=
  (congrFun (final7 V c) (ix3 p (0 : Fin 1) o)).trans rfl

/-- The second output after the last point: each half's column sums of squares of the second layer's values. -/
theorem out8 (c : Dev nD) (p : Fin 2) (o : Fin 64) :
    ((dat1 (F := Ideal) V c).arrAt 8 cfg1.N : Vec Ideal S2x1x64 .f32) (ix3 p (0 : Fin 1) o) = halfSumSq (h2 V c) p o :=
  (congrFun (final8 V c) (ix3 p (0 : Fin 1) o)).trans rfl

end Cert.KernelIdeal.R1

end
-- ==== Proof.Region2.lean ====
/-
  What the third region leaves in its output array, as a function of the arrays it is entered with.

  The grid has 100 points, point t working on rows 16000·t … 16000·t + 15999 with no state carried between points.
  Each block of first-layer values is normalised with the first layer's column means and variances, scaled,
  shifted, clipped below at zero, sent through the second affine layer, and normalised, scaled, shifted and
  clipped again with the second layer's column means and variances.  The blocks tile the edge range, so the
  output array is that function of the whole edge array, row by row.
-/
import proofs.«401892_j53961969107163_2_alg».proof.Proof.Gen.KernelIdeal.Frame
import proofs.«401892_j53961969107163_2_alg».proof.Proof.Spec
import proofs.«401892_j53961969107163_2_alg».proof.Proof.Consts
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.R2

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

-- the buffer contents the region is entered from
variable (V : (c : Dev nD) → (b : Ref sig .tc) → Buf (Elt Ideal) ((c : Thread nD τ).loc b))

/-- The first layer's values, one row per edge. -/
abbrev C0 (c : Dev nD) : Vec Ideal S1600000x64 .bf16 := V c (Pipeline.arrRef spec2 0)
/-- The first normalisation's scale. -/
abbrev C1 (c : Dev nD) : Vec Ideal S1x64 .f32 := V c (Pipeline.arrRef spec2 1)
/-- The first normalisation's shift. -/
abbrev C2 (c : Dev nD) : Vec Ideal S1x64 .f32 := V c (Pipeline.arrRef spec2 2)
/-- The first layer's column means. -/
abbrev C3 (c : Dev nD) : Vec Ideal S1x64 .f32 := V c (Pipeline.arrRef spec2 3)
/-- The first layer's column variances. -/
abbrev C4 (c : Dev nD) : Vec Ideal S1x64 .f32 := V c (Pipeline.arrRef spec2 4)
/-- The second layer's weights. -/
abbrev C5 (c : Dev nD) : Vec Ideal S64x64 .bf16 := V c (Pipeline.arrRef spec2 5)
/-- The second layer's bias. -/
abbrev C6 (c : Dev nD) : Vec Ideal S1x64 .f32 := V c (Pipeline.arrRef spec2 6)
/-- The second normalisation's scale. -/
abbrev C7 (c : Dev nD) : Vec Ideal S1x64 .f32 := V c (Pipeline.arrRef spec2 7)
/-- The second normalisation's shift. -/
abbrev C8 (c : Dev nD) : Vec Ideal S1x64 .f32 := V c (Pipeline.arrRef spec2 8)
/-- The second layer's column means. -/
abbrev C9 (c : Dev nD) : Vec Ideal S1x64 .f32 := V c (Pipeline.arrRef spec2 9)
/-- The second layer's column variances. -/
abbrev C10 (c : Dev nD) : Vec Ideal S1x64 .f32 := V c (Pipeline.arrRef spec2 10)

/-- The second layer's values of the region's operands. -/
def h2 (c : Dev nD) : Fin NE → Fin 64 → EReal :=
  lin (bnrelu (fun e o => C0 V c (ix2 e o)) (fun o => C3 V c (ix2 (0 : Fin 1) o)) (fun o => C4 V c (ix2 (0 : Fin 1) o))
        (fun o => C1 V c (ix2 (0 : Fin 1) o)) (fun o => C2 V c (ix2 (0 : Fin 1) o)))
    (fun k o => C5 V c (ix2 k o)) (fun o => C6 V c (ix2 (0 : Fin 1) o))

/-! ## One row of the body's arithmetic -/

/-- One output row from one input row: normalise, scale, shift and clip the row with the first layer's
    statistics, send it through the second affine layer, and normalise, scale, shift and clip again. -/
def rowOut (a mu1 var1 g1 be1 : Fin 64 → EReal) (w : Fin 64 → Fin 64 → EReal) (b mu2 var2 g2 be2 : Fin 64 → EReal)
    (o : Fin 64) : EReal :=
  max ((((∑ k : Fin 64, max ((a k - mu1 k) * Ideal.rsqrt (var1 k + eps) * g1 k + be1 k) 0 * w k o) + b o) - mu2 o)
        * Ideal.rsqrt (var2 o + eps) * g2 o + be2 o) 0

/-- The inverse square root of the floored second variance, column by column. -/
theorem pay3_apply (x10 : Vec Ideal S1x64 .f32) (q : Fin 64) :
    k2_pay3 (F := Ideal) x10 (ix2 (0 : Fin 1) q) = Ideal.rsqrt (x10 (ix2 (0 : Fin 1) q) + eps) := by
  unfold k2_pay3
  rw [shapeCast_self]
  rfl

/-- The last stage at (p, q): subtract the column's mean, multiply by the given inverse deviation and the
    scale, add the shift, clip below at zero. -/
theorem pay1_apply (v31 : FVec Ideal S16000x64 .f32) (v36 : FVec Ideal S1x64 .f32) (x9 x7 x8 : Vec Ideal S1x64 .f32)
    (p : Fin 16000) (q : Fin 64) :
    k2_pay1 (F := Ideal) v31 v36 x9 x7 x8 (ix2 p q)
      = max ((v31 (ix2 p q) - x9 (ix2 (0 : Fin 1) q)) * v36 (ix2 (0 : Fin 1) q) * x7 (ix2 (0 : Fin 1) q)
              + x8 (ix2 (0 : Fin 1) q)) 0 := by
  unfold k2_pay1
  simp only [shapeCast_self]
  rw [maximumf_apply, addf_apply, mulf_apply, mulf_apply, subf_apply, broadcast_apply]
  rw [broadcastTo_1b_ab_apply, broadcastTo_1b_ab_apply, broadcastTo_1b_ab_apply, broadcastTo_1b_ab_apply]
  rw [show (Scalar.ofBits (F := Ideal) .f32 0x00000000#32 : EReal) = 0 from Cert.Consts.ofBits_zero]

/-! The product of a [16000,64] block with the [64,64] weights contracts the block's column with the weights'
    row: at output (p, q) and contraction index k the left operand is read at (p, k), the right at (k, q). -/

theorem dot_lhs_row (i : S16000x64.Idx) (q : dot_S16000x64_S64x64_S16000x64_1_0_0_1_n_n.contr.Idx) :
    (dot_S16000x64_S64x64_S16000x64_1_0_0_1_n_n.lhsIdx i q 0).val = (i 0).val := by
  unfold DotDims.lhsIdx
  rw [dif_neg (show ¬(0 : Fin S16000x64.rank) ∈ dot_S16000x64_S64x64_S16000x64_1_0_0_1_n_n.lhsBatch by decide), dif_pos (show (0 : Fin S16000x64.rank) ∈ dot_S16000x64_S64x64_S16000x64_1_0_0_1_n_n.lhsNonContracting by decide)]
  rfl
theorem dot_lhs_col (i : S16000x64.Idx) (q : dot_S16000x64_S64x64_S16000x64_1_0_0_1_n_n.contr.Idx) :
    (dot_S16000x64_S64x64_S16000x64_1_0_0_1_n_n.lhsIdx i q 1).val = (q ⟨0, by decide⟩).val :=
  dot_S16000x64_S64x64_S16000x64_1_0_0_1_n_n.lhsIdx_val_of_single rfl i q
theorem dot_rhs_row (i : S16000x64.Idx) (q : dot_S16000x64_S64x64_S16000x64_1_0_0_1_n_n.contr.Idx) :
    (dot_S16000x64_S64x64_S16000x64_1_0_0_1_n_n.rhsIdx i q 0).val = (q ⟨0, by decide⟩).val :=
  dot_S16000x64_S64x64_S16000x64_1_0_0_1_n_n.rhsIdx_val_of_single rfl i q
theorem dot_rhs_col (i : S16000x64.Idx) (q : dot_S16000x64_S64x64_S16000x64_1_0_0_1_n_n.contr.Idx) :
    (dot_S16000x64_S64x64_S16000x64_1_0_0_1_n_n.rhsIdx i q 1).val = (i 1).val := by
  unfold DotDims.rhsIdx
  rw [dif_neg (show ¬(1 : Fin S64x64.rank) ∈ dot_S16000x64_S64x64_S16000x64_1_0_0_1_n_n.rhsBatch by decide), dif_pos (show (1 : Fin S64x64.rank) ∈ dot_S16000x64_S64x64_S16000x64_1_0_0_1_n_n.rhsNonContracting by decide)]
  rfl

/-- The block's product with the weights into a zero accumulator, at (p, q): the sum over k of (p, k) times (k, q). -/
theorem matmul_zero_apply (l : FVec Ideal S16000x64 .bf16) (r : FVec Ideal S64x64 .bf16) (p : Fin 16000) (q : Fin 64) :
    matmul dot_S16000x64_S64x64_S16000x64_1_0_0_1_n_n none l r (constant S16000x64 .f32 0x00000000#32) (ix2 p q)
      = ∑ k : Fin 64, l (ix2 p k) * r (ix2 k q) := by
  simp only [matmul]
  rw [Ideal.matmul_constant_zero_apply, ← Equiv.sum_comp (contrEquiv1 dot_S16000x64_S64x64_S16000x64_1_0_0_1_n_n 64 rfl rfl).symm]
  refine Finset.sum_congr rfl fun k _ => ?_
  have hk := contrEquiv1_symm_val dot_S16000x64_S64x64_S16000x64_1_0_0_1_n_n 64 rfl rfl k
  have el : dot_S16000x64_S64x64_S16000x64_1_0_0_1_n_n.lhsIdx (ix2 p q) ((contrEquiv1 dot_S16000x64_S64x64_S16000x64_1_0_0_1_n_n 64 rfl rfl).symm k) = ix2 p k := funext fun a => Fin.ext (by
    match a with
    | ⟨0, _⟩ => exact dot_lhs_row _ _
    | ⟨1, _⟩ => exact (dot_lhs_col _ _).trans hk)
  have er : dot_S16000x64_S64x64_S16000x64_1_0_0_1_n_n.rhsIdx (ix2 p q) ((contrEquiv1 dot_S16000x64_S64x64_S16000x64_1_0_0_1_n_n 64 rfl rfl).symm k) = ix2 k q := funext fun a => Fin.ext (by
    match a with
    | ⟨0, _⟩ => exact (dot_rhs_row _ _).trans hk
    | ⟨1, _⟩ => exact dot_rhs_col _ _)
  rw [el, er]

/-- The second layer's block at (p, q): each entry of row p normalised with the first layer's column statistics,
    scaled, shifted and clipped below at zero (the format changes are the identity on the extended reals), the
    row sent through the weights, the bias added. -/
theorem pay2_apply (x0 : Vec Ideal S16000x64 .bf16) (x4 x3 x1 x2 : Vec Ideal S1x64 .f32) (x5 : Vec Ideal S64x64 .bf16)
    (x6 : Vec Ideal S1x64 .f32) (p : Fin 16000) (q : Fin 64) :
    k2_pay2 (F := Ideal) x0 x4 x3 x1 x2 x5 x6 (ix2 p q)
      = (∑ k : Fin 64, max ((x0 (ix2 p k) - x3 (ix2 (0 : Fin 1) k)) * Ideal.rsqrt (x4 (ix2 (0 : Fin 1) k) + eps)
            * x1 (ix2 (0 : Fin 1) k) + x2 (ix2 (0 : Fin 1) k)) 0 * x5 (ix2 k q)) + x6 (ix2 (0 : Fin 1) q) := by
  unfold k2_pay2
  simp only [shapeCast_self]
  rw [addf_apply, broadcastTo_1b_ab_apply, matmul_zero_apply]
  refine congrArg (· + x6 (ix2 (0 : Fin 1) q)) (Finset.sum_congr rfl fun k _ => ?_)
  rw [truncf_apply, maximumf_apply, addf_apply, mulf_apply, mulf_apply, subf_apply, extf_apply, broadcast_apply]
  rw [broadcastTo_1b_ab_apply, broadcastTo_1b_ab_apply, broadcastTo_1b_ab_apply, broadcastTo_1b_ab_apply]
  rw [show (Scalar.ofBits (F := Ideal) .f32 0x00000000#32 : EReal) = 0 from Cert.Consts.ofBits_zero]
  rfl

theorem hz : (![0, 0] : Fin 2 → Nat) = fun _ => 0 := funext fun a => by fin_cases a <;> rfl

/-- What the body leaves in the output block at (p, q), from the eleven input blocks: `rowOut` of row p of the
    first block and the one row of each small block. -/
theorem out_apply (x0 : Vec Ideal S16000x64 .bf16) (x1 x2 x3 x4 : Vec Ideal S1x64 .f32) (x5 : Vec Ideal S64x64 .bf16)
    (x6 x7 x8 x9 x10 : Vec Ideal S1x64 .f32) (p : Fin 16000) (q : Fin 64) :
    out2_11 (F := Ideal) x0 x1 x2 x3 x4 x5 x6 x7 x8 x9 x10 (ix2 p q)
      = rowOut (fun k => x0 (ix2 p k)) (fun k => x3 (ix2 (0 : Fin 1) k)) (fun k => x4 (ix2 (0 : Fin 1) k))
          (fun k => x1 (ix2 (0 : Fin 1) k)) (fun k => x2 (ix2 (0 : Fin 1) k)) (fun k o => x5 (ix2 k o))
          (fun o => x6 (ix2 (0 : Fin 1) o)) (fun o => x9 (ix2 (0 : Fin 1) o)) (fun o => x10 (ix2 (0 : Fin 1) o))
          (fun o => x7 (ix2 (0 : Fin 1) o)) (fun o => x8 (ix2 (0 : Fin 1) o)) q := by
  unfold out2_11
  rw [View.canon_unit_zero hz]
  simp only [View.ld_unit_zero (S := S16000x64) hz, View.ld_unit_zero (S := S1x64) hz, View.ld_unit_zero (S := S64x64) hz]
  rw [pay1_apply, pay2_apply, pay3_apply]
  rfl

/-! ## The blocks -/

/-- The printed index maps of the two edge windows (the first layer's values and the output) over the grid's
    100 points: block row t, column block 0. -/
theorem idx_edge : ∀ t : Fin cfg2.N,
    win2_0.index t (0 : Fin 2) = t.val ∧ win2_0.index t (1 : Fin 2) = 0
    ∧ win2_11.index t (0 : Fin 2) = t.val ∧ win2_11.index t (1 : Fin 2) = 0 :=
  (by decide +kernel : ∀ t : Fin grid2.N, _)

theorem lt_N (t : Fin cfg2.N) : t.val < 100 := lt_of_lt_of_eq t.isLt N_2

/-- The edge whose row is row p of block t. -/
def erow (t : Fin cfg2.N) (p : Fin 16000) : Fin NE :=
  ⟨16000 * t.val + p.val, by have := lt_N t; have := p.isLt; show 16000 * t.val + p.val < 1600000; omega⟩

/-- Row p of the first window's block at point t is row 16000·t + p of the first layer's values. -/
theorem blk0_apply (c : Dev nD) (t : Fin cfg2.N) (p : Fin 16000) (k : Fin 64) :
    (iblk2 V c 0 t : Vec Ideal S16000x64 .bf16) (ix2 p k) = C0 V c (ix2 (erow t p) k) := by
  obtain ⟨e0, e1, -⟩ := idx_edge t
  show V c (Pipeline.arrRef spec2 0) (((cfg2.win 0).blk t).view.emb (ix2 p k)) = V c (Pipeline.arrRef spec2 0) (ix2 (erow t p) k)
  refine congrArg _ (funext fun a => Fin.ext ?_)
  match a with
  | ⟨0, _⟩ => show win2_0.index t (0 : Fin 2) * 16000 + 1 * p.val = 16000 * t.val + p.val; rw [e0]; omega
  | ⟨1, _⟩ => show win2_0.index t (1 : Fin 2) * 64 + 1 * k.val = k.val; rw [e1]; omega

/-- The output window's block at point t sits at rows 16000·t … of the output array. -/
theorem emb11 (t : Fin cfg2.N) (p : Fin 16000) (q : Fin 64) :
    (((cfg2.win 11).blk t).view.emb (ix2 p q) : S1600000x64.Idx) = ix2 (erow t p) q := by
  obtain ⟨-, -, e0, e1⟩ := idx_edge t
  refine funext fun a => Fin.ext ?_
  match a with
  | ⟨0, _⟩ => show win2_11.index t (0 : Fin 2) * 16000 + 1 * p.val = 16000 * t.val + p.val; rw [e0]; omega
  | ⟨1, _⟩ => show win2_11.index t (1 : Fin 2) * 64 + 1 * q.val = q.val; rw [e1]; omega

/-- A window whose one block, at block index (0, 0), is its whole array reads that array. -/
theorem whole_read (b : Ref sig .tc) (f : b.ty.Contents (Elt Ideal)) (idx : Fin b.ty.shape.rank → Nat) (h : ∀ a, idx a = 0)
    (inb : ∀ a, idx a * b.ty.shape.size a + b.ty.shape.size a ≤ b.ty.shape.size a) :
    ((Memref.whole b).access (Rect.unit (fun a => idx a * b.ty.shape.size a) b.ty.shape.size inb) : View sig .tc _ _ _).read (Elt Ideal) f = f :=
  Memref.read_access_unit_zero (Elt Ideal) b (funext fun a => by rw [h a, Nat.zero_mul]) inb f

/-! Each of the ten small windows (the two normalisations' scale, shift, means and variances, the weights and the
    bias) has its whole array as its one block: its printed index map is (0, 0) at every point. -/

theorem blk1_eq (c : Dev nD) (t : Fin cfg2.N) : (iblk2 V c 1 t : Vec Ideal S1x64 .f32) = C1 V c :=
  whole_read main_v12 _ (win2_1.index t) ((by decide +kernel : ∀ (t : Fin grid2.N) (a : Fin 2), win2_1.index t a = 0) t) _
theorem blk2_eq (c : Dev nD) (t : Fin cfg2.N) : (iblk2 V c 2 t : Vec Ideal S1x64 .f32) = C2 V c :=
  whole_read main_v13 _ (win2_2.index t) ((by decide +kernel : ∀ (t : Fin grid2.N) (a : Fin 2), win2_2.index t a = 0) t) _
theorem blk3_eq (c : Dev nD) (t : Fin cfg2.N) : (iblk2 V c 3 t : Vec Ideal S1x64 .f32) = C3 V c :=
  whole_read main_v20 _ (win2_3.index t) ((by decide +kernel : ∀ (t : Fin grid2.N) (a : Fin 2), win2_3.index t a = 0) t) _
theorem blk4_eq (c : Dev nD) (t : Fin cfg2.N) : (iblk2 V c 4 t : Vec Ideal S1x64 .f32) = C4 V c :=
  whole_read main_v27 _ (win2_4.index t) ((by decide +kernel : ∀ (t : Fin grid2.N) (a : Fin 2), win2_4.index t a = 0) t) _
theorem blk5_eq (c : Dev nD) (t : Fin cfg2.N) : (iblk2 V c 5 t : Vec Ideal S64x64 .bf16) = C5 V c :=
  whole_read main_v10 _ (win2_5.index t) ((by decide +kernel : ∀ (t : Fin grid2.N) (a : Fin 2), win2_5.index t a = 0) t) _
theorem blk6_eq (c : Dev nD) (t : Fin cfg2.N) : (iblk2 V c 6 t : Vec Ideal S1x64 .f32) = C6 V c :=
  whole_read main_v14 _ (win2_6.index t) ((by decide +kernel : ∀ (t : Fin grid2.N) (a : Fin 2), win2_6.index t a = 0) t) _
theorem blk7_eq (c : Dev nD) (t : Fin cfg2.N) : (iblk2 V c 7 t : Vec Ideal S1x64 .f32) = C7 V c :=
  whole_read main_v15 _ (win2_7.index t) ((by decide +kernel : ∀ (t : Fin grid2.N) (a : Fin 2), win2_7.index t a = 0) t) _
theorem blk8_eq (c : Dev nD) (t : Fin cfg2.N) : (iblk2 V c 8 t : Vec Ideal S1x64 .f32) = C8 V c :=
  whole_read main_v16 _ (win2_8.index t) ((by decide +kernel : ∀ (t : Fin grid2.N) (a : Fin 2), win2_8.index t a = 0) t) _
theorem blk9_eq (c : Dev nD) (t : Fin cfg2.N) : (iblk2 V c 9 t : Vec Ideal S1x64 .f32) = C9 V c :=
  whole_read main_v31 _ (win2_9.index t) ((by decide +kernel : ∀ (t : Fin grid2.N) (a : Fin 2), win2_9.index t a = 0) t) _
theorem blk10_eq (c : Dev nD) (t : Fin cfg2.N) : (iblk2 V c 10 t : Vec Ideal S1x64 .f32) = C10 V c :=
  whole_read main_v38 _ (win2_10.index t) ((by decide +kernel : ∀ (t : Fin grid2.N) (a : Fin 2), win2_10.index t a = 0) t) _

/-! ## From the blocks to the array -/

/-- The array the region leaves, as one function of the arrays it is entered with: row by row, the second layer's
    values normalised with the second layer's column statistics, scaled, shifted and clipped. -/
def G (c : Dev nD) : Vec Ideal S1600000x64 .f32 := fun i =>
  bnrelu (h2 V c) (fun o => C9 V c (ix2 (0 : Fin 1) o)) (fun o => C10 V c (ix2 (0 : Fin 1) o))
    (fun o => C7 V c (ix2 (0 : Fin 1) o)) (fun o => C8 V c (ix2 (0 : Fin 1) o)) ⟨(i 0).val, idx2_lt0 i⟩ ⟨(i 1).val, idx2_lt1 i⟩

/-- Row e of that array is `rowOut` of row e of the first layer's values: the two normalisations and the affine
    layer between them, spelt out. -/
theorem G_row (c : Dev nD) (e : Fin NE) (q : Fin 64) :
    G V c (ix2 e q) = rowOut (fun k => C0 V c (ix2 e k)) (fun k => C3 V c (ix2 (0 : Fin 1) k)) (fun k => C4 V c (ix2 (0 : Fin 1) k))
      (fun k => C1 V c (ix2 (0 : Fin 1) k)) (fun k => C2 V c (ix2 (0 : Fin 1) k)) (fun k o => C5 V c (ix2 k o))
      (fun o => C6 V c (ix2 (0 : Fin 1) o)) (fun o => C9 V c (ix2 (0 : Fin 1) o)) (fun o => C10 V c (ix2 (0 : Fin 1) o))
      (fun o => C7 V c (ix2 (0 : Fin 1) o)) (fun o => C8 V c (ix2 (0 : Fin 1) o)) q := rfl

/-- What point t writes back is block t of that array. -/
theorem flushed_eq (c : Dev nD) (t : Fin cfg2.N) :
    (dat2 (F := Ideal) V c).flushed 11 t = ((cfg2.win 11).blk t).view.read (Elt Ideal) (G V c) := by
  show (cfg2.win 11).cut (grid2.coords t) ((dat2 (F := Ideal) V c).after 11 t) = _
  rw [after2_11, blk1_eq V c t, blk2_eq V c t, blk3_eq V c t, blk4_eq V c t, blk5_eq V c t, blk6_eq V c t, blk7_eq V c t,
    blk8_eq V c t, blk9_eq V c t, blk10_eq V c t]
  funext j
  obtain ⟨p, q, rfl⟩ : ∃ (p : Fin 16000) (q : Fin 64), j = ix2 p q := ⟨j 0, j 1, eq_ix2 j⟩
  show out2_11 (iblk2 V c 0 t) (C1 V c) (C2 V c) (C3 V c) (C4 V c) (C5 V c) (C6 V c) (C7 V c) (C8 V c) (C9 V c) (C10 V c) (ix2 p q)
    = G V c (((cfg2.win 11).blk t).view.emb (ix2 p q))
  rw [emb11, G_row]
  refine (out_apply (iblk2 V c 0 t) (C1 V c) (C2 V c) (C3 V c) (C4 V c) (C5 V c) (C6 V c) (C7 V c) (C8 V c) (C9 V c) (C10 V c) p q).trans ?_
  have hrow : (fun k => (iblk2 V c 0 t : Vec Ideal S16000x64 .bf16) (ix2 p k)) = fun k => C0 V c (ix2 (erow t p) k) :=
    funext fun k => blk0_apply V c t p k
  rw [hrow]

/-- An index of the output array is in point t's block iff each coordinate is in the block's range on its axis. -/
theorem mem_blk (t : Fin cfg2.N) (i : S1600000x64.Idx) :
    i ∈ ((cfg2.win 11).blk t).view.set ↔ ∀ a : Fin 2, win2_11.index t a * S16000x64.size a ≤ (i a).val ∧ (i a).val < win2_11.index t a * S16000x64.size a + S16000x64.size a := by
  show i ∈ ((View.whole main_v39).slice (win2_11.rect t)).set ↔ _
  rw [View.set_slice_whole, Rect.mem_set_unit]
  exact Iff.rfl

/-- Row e of the output array is in the block of point e / 16000, and every point writes its block back. -/
theorem cover (i : S1600000x64.Idx) :
    ∃ t : Fin cfg2.N, (cfg2.win 11).flush t = true ∧ i ∈ ((cfg2.win 11).blk t).view.set := by
  have hi0 : (i 0).val < 1600000 := idx2_lt0 i
  have hi1 : (i 1).val < 64 := idx2_lt1 i
  obtain ⟨t, ht⟩ : ∃ t : Fin cfg2.N, t.val = (i 0).val / 16000 :=
    ⟨⟨(i 0).val / 16000, by rw [show cfg2.N = 100 from N_2]; omega⟩, rfl⟩
  obtain ⟨-, -, e0, e1⟩ := idx_edge t
  refine ⟨t, flush2_11 t, ?_⟩
  rw [mem_blk]
  intro a
  match a with
  | ⟨0, _⟩ => show win2_11.index t (0 : Fin 2) * 16000 ≤ (i 0).val ∧ (i 0).val < win2_11.index t (0 : Fin 2) * 16000 + 16000; rw [e0, ht]; omega
  | ⟨1, _⟩ => show win2_11.index t (1 : Fin 2) * 64 ≤ (i 1).val ∧ (i 1).val < win2_11.index t (1 : Fin 2) * 64 + 64; rw [e1]; omega

/-- So the output array ends as that function. -/
theorem final (c : Dev nD) : ((dat2 (F := Ideal) V c).arrAt 11 cfg2.N : Vec Ideal S1600000x64 .f32) = G V c :=
  (dat2 (F := Ideal) V c).arrAt_eq_of_cover 11 (G V c) (fun t _ => flushed_eq V c t) cover

/-- The output after the last point: the second layer's values normalised, scaled, shifted and clipped. -/
theorem out11 (c : Dev nD) (e : Fin NE) (o : Fin 64) :
    ((dat2 (F := Ideal) V c).arrAt 11 cfg2.N : Vec Ideal S1600000x64 .f32) (ix2 e o)
      = bnrelu (h2 V c) (fun o => C9 V c (ix2 (0 : Fin 1) o)) (fun o => C10 V c (ix2 (0 : Fin 1) o))
          (fun o => C7 V c (ix2 (0 : Fin 1) o)) (fun o => C8 V c (ix2 (0 : Fin 1) o)) e o := by
  rw [final]
  rfl

end Cert.KernelIdeal.R2

end
-- ==== Proof.KernelValue.lean ====
/-
  The kernel program's result as a function of its arguments.

  The buffer contents at the boundaries between host stretches and regions form a chain; the result buffer is read
  back through it.  Region 0 is entered with the edge rows, the first weights and bias, and leaves the first
  layer's values with their per-half column sums and sums of squares.  The next stretch turns those into the first
  layer's column means and variances.  Region 1 is entered with these and the second layer's parameters and leaves
  the per-half column sums and sums of squares of the second layer's values; the next stretch turns them into the
  second layer's means and variances.  Region 2 is entered with all of it and leaves the second layer's normalised,
  scaled, shifted and clipped values; the last stretch takes their scatter-mean by target node.  Every other
  buffer a region or stretch meets on the way is one it does not write.
-/
import proofs.«401892_j53961969107163_2_alg».proof.Proof.Gen.KernelIdeal.Frame
import proofs.«401892_j53961969107163_2_alg».proof.Proof.Spec
import proofs.«401892_j53961969107163_2_alg».proof.Proof.Inputs
import proofs.«401892_j53961969107163_2_alg».proof.Proof.KTail
import proofs.«401892_j53961969107163_2_alg».proof.Proof.Keep
import proofs.«401892_j53961969107163_2_alg».proof.Proof.HostK
import proofs.«401892_j53961969107163_2_alg».proof.Proof.PrefixK
import proofs.«401892_j53961969107163_2_alg».proof.Proof.Region0
import proofs.«401892_j53961969107163_2_alg».proof.Proof.Region1
import proofs.«401892_j53961969107163_2_alg».proof.Proof.Region2
import Idealize.ShloMosaic.Lib.ValueIdx

set_option maxRecDepth 16384

noncomputable section

namespace Cert.KernelIdeal.KValue

open Cert.KernelIdeal Cert.KernelIdeal.Gen Cert.Spec Cert.Inputs
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)
variable (hidx : ∀ i, ((m ((c : Thread nD τ).loc main_arg1) : IVec S2x1600000 32) i).toNat < 50000)

/-! ## The arguments as plain functions -/

abbrev aRows : Fin NE → Fin 128 → EReal := rows (m ((c : Thread nD τ).loc main_arg0)) (m ((c : Thread nD τ).loc main_arg1)) hidx
abbrev aW1 : Fin 128 → Fin 64 → EReal := M2 (m ((c : Thread nD τ).loc main_arg2))
abbrev aB1 : Fin 64 → EReal := M1 (m ((c : Thread nD τ).loc main_arg3))
abbrev aG1 : Fin 64 → EReal := M1 (m ((c : Thread nD τ).loc main_arg4))
abbrev aBe1 : Fin 64 → EReal := M1 (m ((c : Thread nD τ).loc main_arg5))
abbrev aW2 : Fin 64 → Fin 64 → EReal := M2 (m ((c : Thread nD τ).loc main_arg6))
abbrev aB2 : Fin 64 → EReal := M1 (m ((c : Thread nD τ).loc main_arg7))
abbrev aG2 : Fin 64 → EReal := M1 (m ((c : Thread nD τ).loc main_arg8))
abbrev aBe2 : Fin 64 → EReal := M1 (m ((c : Thread nD τ).loc main_arg9))

/-- The first layer's values. -/
abbrev H1 : Fin NE → Fin 64 → EReal := lin (aRows m c hidx) (aW1 m c) (aB1 m c)
/-- The first layer's activations under the half-sum statistics. -/
abbrev N1 : Fin NE → Fin 64 → EReal := hn1K (aRows m c hidx) (aW1 m c) (aB1 m c) (aG1 m c) (aBe1 m c)
/-- The second layer's values. -/
abbrev H2 : Fin NE → Fin 64 → EReal := lin (N1 m c hidx) (aW2 m c) (aB2 m c)

/-! ## Region 0 -/

/-- Region 0's affine image is the first layer's values. -/
theorem h1_eq : R0.h1 (V4 (F := Ideal) m ρ) c = H1 m c hidx := by
  have e0 : (fun e k => R0.A0 (V4 (F := Ideal) m ρ) c (ix2 e k)) = aRows m c hidx :=
    funext fun e => funext fun k => PrefixK.h0_at m ρ c hidx e k
  have e1 : (fun k o => R0.A1 (V4 (F := Ideal) m ρ) c (ix2 k o)) = aW1 m c :=
    funext fun k => funext fun o => PrefixK.w1_at m ρ c k o
  have e2 : (fun o => R0.A2 (V4 (F := Ideal) m ρ) c (ix2 (0 : Fin 1) o)) = aB1 m c :=
    funext fun o => PrefixK.b1_at m ρ c o
  unfold R0.h1
  rw [e0, e1, e2]

theorem W5_h1 (e : Fin NE) (o : Fin 64) :
    (W5 (F := Ideal) m ρ c (Proc.devRef .tc main_v17_0) : Vec Ideal S1600000x64 .bf16) (ix2 e o) = H1 m c hidx e o := by
  have h := R0.out3 (V4 (F := Ideal) m ρ) c e o
  rw [h1_eq m ρ c hidx] at h
  exact (congrFun (W5_arr (F := Ideal) m ρ c 3) (ix2 e o)).trans h

theorem W5_sum (p : Fin 2) (o : Fin 64) :
    (W5 (F := Ideal) m ρ c (Proc.devRef .tc main_v17_1) : Vec Ideal S2x1x64 .f32) (ix3 p (0 : Fin 1) o) = halfSum (H1 m c hidx) p o := by
  have h := R0.out4 (V4 (F := Ideal) m ρ) c p o
  rw [h1_eq m ρ c hidx] at h
  exact (congrFun (W5_arr (F := Ideal) m ρ c 4) (ix3 p (0 : Fin 1) o)).trans h

theorem W5_sq (p : Fin 2) (o : Fin 64) :
    (W5 (F := Ideal) m ρ c (Proc.devRef .tc main_v17_2) : Vec Ideal S2x1x64 .f32) (ix3 p (0 : Fin 1) o) = halfSumSq (H1 m c hidx) p o := by
  have h := R0.out5 (V4 (F := Ideal) m ρ) c p o
  rw [h1_eq m ρ c hidx] at h
  exact (congrFun (W5_arr (F := Ideal) m ρ c 5) (ix3 p (0 : Fin 1) o)).trans h

/-! ## Region 1's entry -/

theorem W6_h1 (e : Fin NE) (o : Fin 64) :
    (W6 (F := Ideal) m ρ c (Proc.devRef .tc main_v17_0) : Vec Ideal S1600000x64 .bf16) (ix2 e o) = H1 m c hidx e o := by
  rw [Keep.W6_main_v17_0]; exact W5_h1 m ρ c hidx e o

theorem W6_g1 (o : Fin 64) : (W6 (F := Ideal) m ρ c (Proc.devRef .tc main_v12) : Vec Ideal S1x64 .f32) (ix2 (0 : Fin 1) o) = aG1 m c o := by
  rw [Keep.W6_main_v12, Keep.W5_main_v12]; exact PrefixK.g1_at m ρ c o
theorem W6_be1 (o : Fin 64) : (W6 (F := Ideal) m ρ c (Proc.devRef .tc main_v13) : Vec Ideal S1x64 .f32) (ix2 (0 : Fin 1) o) = aBe1 m c o := by
  rw [Keep.W6_main_v13, Keep.W5_main_v13]; exact PrefixK.be1_at m ρ c o
theorem W6_w2 (k o : Fin 64) : (W6 (F := Ideal) m ρ c (Proc.devRef .tc main_v10) : Vec Ideal S64x64 .bf16) (ix2 k o) = aW2 m c k o := by
  rw [Keep.W6_main_v10, Keep.W5_main_v10]; exact PrefixK.w2_at m ρ c k o
theorem W6_b2 (o : Fin 64) : (W6 (F := Ideal) m ρ c (Proc.devRef .tc main_v14) : Vec Ideal S1x64 .f32) (ix2 (0 : Fin 1) o) = aB2 m c o := by
  rw [Keep.W6_main_v14, Keep.W5_main_v14]; exact PrefixK.b2_at m ρ c o
theorem W6_g2 (o : Fin 64) : (W6 (F := Ideal) m ρ c (Proc.devRef .tc main_v15) : Vec Ideal S1x64 .f32) (ix2 (0 : Fin 1) o) = aG2 m c o := by
  rw [Keep.W6_main_v15, Keep.W5_main_v15]; exact PrefixK.g2_at m ρ c o
theorem W6_be2 (o : Fin 64) : (W6 (F := Ideal) m ρ c (Proc.devRef .tc main_v16) : Vec Ideal S1x64 .f32) (ix2 (0 : Fin 1) o) = aBe2 m c o := by
  rw [Keep.W6_main_v16, Keep.W5_main_v16]; exact PrefixK.be2_at m ρ c o

theorem W6_mu1 (o : Fin 64) :
    (W6 (F := Ideal) m ρ c (Proc.devRef .tc main_v20) : Vec Ideal S1x64 .f32) (ix2 (0 : Fin 1) o) = meanK (halfSum (H1 m c hidx)) o := by
  rw [HostK.mu1]
  have e : (fun p o => (W5 (F := Ideal) m ρ c (Proc.devRef .tc main_v17_1) : Vec Ideal S2x1x64 .f32) (ix3 p (0 : Fin 1) o)) = halfSum (H1 m c hidx) :=
    funext fun p => funext fun o => W5_sum m ρ c hidx p o
  rw [e]

theorem W6_var1 (o : Fin 64) :
    (W6 (F := Ideal) m ρ c (Proc.devRef .tc main_v27) : Vec Ideal S1x64 .f32) (ix2 (0 : Fin 1) o)
      = varK (halfSum (H1 m c hidx)) (halfSumSq (H1 m c hidx)) o := by
  rw [HostK.var1]
  have e : (fun p o => (W5 (F := Ideal) m ρ c (Proc.devRef .tc main_v17_1) : Vec Ideal S2x1x64 .f32) (ix3 p (0 : Fin 1) o)) = halfSum (H1 m c hidx) :=
    funext fun p => funext fun o => W5_sum m ρ c hidx p o
  have e' : (fun p o => (W5 (F := Ideal) m ρ c (Proc.devRef .tc main_v17_2) : Vec Ideal S2x1x64 .f32) (ix3 p (0 : Fin 1) o)) = halfSumSq (H1 m c hidx) :=
    funext fun p => funext fun o => W5_sq m ρ c hidx p o
  rw [e, e']

/-- Region 1's second-layer values are the second layer's values. -/
theorem h2_eq6 : R1.h2 (V6 (F := Ideal) m ρ) c = H2 m c hidx := by
  have e0 : (fun e o => R1.B0 (V6 (F := Ideal) m ρ) c (ix2 e o)) = H1 m c hidx :=
    funext fun e => funext fun o => W6_h1 m ρ c hidx e o
  have e1 : (fun o => R1.B1 (V6 (F := Ideal) m ρ) c (ix2 (0 : Fin 1) o)) = aG1 m c := funext fun o => W6_g1 m ρ c o
  have e2 : (fun o => R1.B2 (V6 (F := Ideal) m ρ) c (ix2 (0 : Fin 1) o)) = aBe1 m c := funext fun o => W6_be1 m ρ c o
  have e3 : (fun o => R1.B3 (V6 (F := Ideal) m ρ) c (ix2 (0 : Fin 1) o)) = meanK (halfSum (H1 m c hidx)) :=
    funext fun o => W6_mu1 m ρ c hidx o
  have e4 : (fun o => R1.B4 (V6 (F := Ideal) m ρ) c (ix2 (0 : Fin 1) o)) = varK (halfSum (H1 m c hidx)) (halfSumSq (H1 m c hidx)) :=
    funext fun o => W6_var1 m ρ c hidx o
  have e5 : (fun k o => R1.B5 (V6 (F := Ideal) m ρ) c (ix2 k o)) = aW2 m c := funext fun k => funext fun o => W6_w2 m ρ c k o
  have e6 : (fun o => R1.B6 (V6 (F := Ideal) m ρ) c (ix2 (0 : Fin 1) o)) = aB2 m c := funext fun o => W6_b2 m ρ c o
  unfold R1.h2
  rw [e0, e1, e2, e3, e4, e5, e6]
  rfl

theorem W7_sum (p : Fin 2) (o : Fin 64) :
    (W7 (F := Ideal) m ρ c (Proc.devRef .tc main_v28_0) : Vec Ideal S2x1x64 .f32) (ix3 p (0 : Fin 1) o) = halfSum (H2 m c hidx) p o := by
  have h := R1.out7 (V6 (F := Ideal) m ρ) c p o
  rw [h2_eq6 m ρ c hidx] at h
  exact (congrFun (W7_arr (F := Ideal) m ρ c 7) (ix3 p (0 : Fin 1) o)).trans h

theorem W7_sq (p : Fin 2) (o : Fin 64) :
    (W7 (F := Ideal) m ρ c (Proc.devRef .tc main_v28_1) : Vec Ideal S2x1x64 .f32) (ix3 p (0 : Fin 1) o) = halfSumSq (H2 m c hidx) p o := by
  have h := R1.out8 (V6 (F := Ideal) m ρ) c p o
  rw [h2_eq6 m ρ c hidx] at h
  exact (congrFun (W7_arr (F := Ideal) m ρ c 8) (ix3 p (0 : Fin 1) o)).trans h

/-! ## Region 2's entry -/

theorem W8_h1 (e : Fin NE) (o : Fin 64) :
    (W8 (F := Ideal) m ρ c (Proc.devRef .tc main_v17_0) : Vec Ideal S1600000x64 .bf16) (ix2 e o) = H1 m c hidx e o := by
  rw [Keep.W8_main_v17_0, Keep.W7_main_v17_0]; exact W6_h1 m ρ c hidx e o
theorem W8_g1 (o : Fin 64) : (W8 (F := Ideal) m ρ c (Proc.devRef .tc main_v12) : Vec Ideal S1x64 .f32) (ix2 (0 : Fin 1) o) = aG1 m c o := by
  rw [Keep.W8_main_v12, Keep.W7_main_v12]; exact W6_g1 m ρ c o
theorem W8_be1 (o : Fin 64) : (W8 (F := Ideal) m ρ c (Proc.devRef .tc main_v13) : Vec Ideal S1x64 .f32) (ix2 (0 : Fin 1) o) = aBe1 m c o := by
  rw [Keep.W8_main_v13, Keep.W7_main_v13]; exact W6_be1 m ρ c o
theorem W8_mu1 (o : Fin 64) :
    (W8 (F := Ideal) m ρ c (Proc.devRef .tc main_v20) : Vec Ideal S1x64 .f32) (ix2 (0 : Fin 1) o) = meanK (halfSum (H1 m c hidx)) o := by
  rw [Keep.W8_main_v20, Keep.W7_main_v20]; exact W6_mu1 m ρ c hidx o
theorem W8_var1 (o : Fin 64) :
    (W8 (F := Ideal) m ρ c (Proc.devRef .tc main_v27) : Vec Ideal S1x64 .f32) (ix2 (0 : Fin 1) o)
      = varK (halfSum (H1 m c hidx)) (halfSumSq (H1 m c hidx)) o := by
  rw [Keep.W8_main_v27, Keep.W7_main_v27]; exact W6_var1 m ρ c hidx o
theorem W8_w2 (k o : Fin 64) : (W8 (F := Ideal) m ρ c (Proc.devRef .tc main_v10) : Vec Ideal S64x64 .bf16) (ix2 k o) = aW2 m c k o := by
  rw [Keep.W8_main_v10, Keep.W7_main_v10]; exact W6_w2 m ρ c k o
theorem W8_b2 (o : Fin 64) : (W8 (F := Ideal) m ρ c (Proc.devRef .tc main_v14) : Vec Ideal S1x64 .f32) (ix2 (0 : Fin 1) o) = aB2 m c o := by
  rw [Keep.W8_main_v14, Keep.W7_main_v14]; exact W6_b2 m ρ c o
theorem W8_g2 (o : Fin 64) : (W8 (F := Ideal) m ρ c (Proc.devRef .tc main_v15) : Vec Ideal S1x64 .f32) (ix2 (0 : Fin 1) o) = aG2 m c o := by
  rw [Keep.W8_main_v15, Keep.W7_main_v15]; exact W6_g2 m ρ c o
theorem W8_be2 (o : Fin 64) : (W8 (F := Ideal) m ρ c (Proc.devRef .tc main_v16) : Vec Ideal S1x64 .f32) (ix2 (0 : Fin 1) o) = aBe2 m c o := by
  rw [Keep.W8_main_v16, Keep.W7_main_v16]; exact W6_be2 m ρ c o

theorem W8_mu2 (o : Fin 64) :
    (W8 (F := Ideal) m ρ c (Proc.devRef .tc main_v31) : Vec Ideal S1x64 .f32) (ix2 (0 : Fin 1) o) = meanK (halfSum (H2 m c hidx)) o := by
  rw [HostK.mu2]
  have e : (fun p o => (W7 (F := Ideal) m ρ c (Proc.devRef .tc main_v28_0) : Vec Ideal S2x1x64 .f32) (ix3 p (0 : Fin 1) o)) = halfSum (H2 m c hidx) :=
    funext fun p => funext fun o => W7_sum m ρ c hidx p o
  rw [e]

theorem W8_var2 (o : Fin 64) :
    (W8 (F := Ideal) m ρ c (Proc.devRef .tc main_v38) : Vec Ideal S1x64 .f32) (ix2 (0 : Fin 1) o)
      = varK (halfSum (H2 m c hidx)) (halfSumSq (H2 m c hidx)) o := by
  rw [HostK.var2]
  have e : (fun p o => (W7 (F := Ideal) m ρ c (Proc.devRef .tc main_v28_0) : Vec Ideal S2x1x64 .f32) (ix3 p (0 : Fin 1) o)) = halfSum (H2 m c hidx) :=
    funext fun p => funext fun o => W7_sum m ρ c hidx p o
  have e' : (fun p o => (W7 (F := Ideal) m ρ c (Proc.devRef .tc main_v28_1) : Vec Ideal S2x1x64 .f32) (ix3 p (0 : Fin 1) o)) = halfSumSq (H2 m c hidx) :=
    funext fun p => funext fun o => W7_sq m ρ c hidx p o
  rw [e, e']

/-- Region 2's second-layer values are the second layer's values. -/
theorem h2_eq8 : R2.h2 (V8 (F := Ideal) m ρ) c = H2 m c hidx := by
  have e0 : (fun e o => R2.C0 (V8 (F := Ideal) m ρ) c (ix2 e o)) = H1 m c hidx :=
    funext fun e => funext fun o => W8_h1 m ρ c hidx e o
  have e1 : (fun o => R2.C1 (V8 (F := Ideal) m ρ) c (ix2 (0 : Fin 1) o)) = aG1 m c := funext fun o => W8_g1 m ρ c o
  have e2 : (fun o => R2.C2 (V8 (F := Ideal) m ρ) c (ix2 (0 : Fin 1) o)) = aBe1 m c := funext fun o => W8_be1 m ρ c o
  have e3 : (fun o => R2.C3 (V8 (F := Ideal) m ρ) c (ix2 (0 : Fin 1) o)) = meanK (halfSum (H1 m c hidx)) :=
    funext fun o => W8_mu1 m ρ c hidx o
  have e4 : (fun o => R2.C4 (V8 (F := Ideal) m ρ) c (ix2 (0 : Fin 1) o)) = varK (halfSum (H1 m c hidx)) (halfSumSq (H1 m c hidx)) :=
    funext fun o => W8_var1 m ρ c hidx o
  have e5 : (fun k o => R2.C5 (V8 (F := Ideal) m ρ) c (ix2 k o)) = aW2 m c := funext fun k => funext fun o => W8_w2 m ρ c k o
  have e6 : (fun o => R2.C6 (V8 (F := Ideal) m ρ) c (ix2 (0 : Fin 1) o)) = aB2 m c := funext fun o => W8_b2 m ρ c o
  unfold R2.h2
  rw [e0, e1, e2, e3, e4, e5, e6]
  rfl

/-- Region 2's output, row by row: the second layer's activations under the half-sum statistics. -/
theorem W9_out (e : Fin NE) (o : Fin 64) :
    (W9 (F := Ideal) m ρ c (Proc.devRef .tc main_v39) : Vec Ideal S1600000x64 .f32) (ix2 e o)
      = hn2K (aRows m c hidx) (aW1 m c) (aB1 m c) (aG1 m c) (aBe1 m c) (aW2 m c) (aB2 m c) (aG2 m c) (aBe2 m c) e o := by
  have h := R2.out11 (V8 (F := Ideal) m ρ) c e o
  have e9 : (fun o => R2.C9 (V8 (F := Ideal) m ρ) c (ix2 (0 : Fin 1) o)) = meanK (halfSum (H2 m c hidx)) :=
    funext fun o => W8_mu2 m ρ c hidx o
  have e10 : (fun o => R2.C10 (V8 (F := Ideal) m ρ) c (ix2 (0 : Fin 1) o)) = varK (halfSum (H2 m c hidx)) (halfSumSq (H2 m c hidx)) :=
    funext fun o => W8_var2 m ρ c hidx o
  have e7 : (fun o => R2.C7 (V8 (F := Ideal) m ρ) c (ix2 (0 : Fin 1) o)) = aG2 m c := funext fun o => W8_g2 m ρ c o
  have e8 : (fun o => R2.C8 (V8 (F := Ideal) m ρ) c (ix2 (0 : Fin 1) o)) = aBe2 m c := funext fun o => W8_be2 m ρ c o
  rw [h2_eq8 m ρ c hidx, e9, e10, e7, e8] at h
  exact (congrFun (W9_arr (F := Ideal) m ρ c 11) (ix2 e o)).trans h

/-! ## The result -/

/-- The last region's output as one array. -/
def outArr : FVec Ideal S1600000x64 .f32 := fun i =>
  hn2K (aRows m c hidx) (aW1 m c) (aB1 m c) (aG1 m c) (aBe1 m c) (aW2 m c) (aB2 m c) (aG2 m c) (aBe2 m c)
    ⟨(i 0).val, idx2_lt0 i⟩ ⟨(i 1).val, idx2_lt1 i⟩

theorem W9_outArr : (W9 (F := Ideal) m ρ c (Proc.devRef .tc main_v39) : FVec Ideal S1600000x64 .f32) = outArr m c hidx := by
  funext i
  obtain ⟨e, o, rfl⟩ : ∃ (e : Fin NE) (o : Fin 64), i = ix2 e o := ⟨i 0, i 1, eq_ix2 i⟩
  exact W9_out m ρ c hidx e o

theorem W9_dst : W9 (F := Ideal) m ρ c (Proc.devRef .tc main_v3) = KTail.dstOf (m ((c : Thread nD τ).loc main_arg1)) := by
  rw [Keep.W9_main_v3, Keep.W8_main_v3, Keep.W7_main_v3, Keep.W6_main_v3, Keep.W5_main_v3, Keep.W4_main_v3,
    Keep.W3_main_v3, Keep.W2_main_v3]
  exact HostK.dst_eq m ρ c

/-- The result buffer: the scatter-mean, by target node, of the second layer's activations. -/
theorem result_eq :
    W10 (F := Ideal) m ρ c (Proc.devRef .tc main_v51) = KTail.tail (outArr m c hidx) (KTail.dstOf (m ((c : Thread nD τ).loc main_arg1))) := by
  rw [HostK.result, W9_outArr m ρ c hidx, W9_dst m ρ c]

end Cert.KernelIdeal.KValue

end
-- ==== Proof.RefValue.lean ====
/-
  The reference program's result, read one operation at a time.

  Its edge rows are the same function of the node features and the edge array as the kernel program's: under the
  range fact a gathered row is a row of the node features.  Each of its two layers is an affine map followed by a
  normalisation whose column mean is the column's sum over all edges divided by the edge count and whose variance
  is the mean squared deviation from that mean, a scale, a shift and a clip below at zero.  Its last stretch is the
  scatter-mean by target node, operation for operation the kernel program's.
-/
import proofs.«401892_j53961969107163_2_alg».proof.Proof.RefRun
import proofs.«401892_j53961969107163_2_alg».proof.Proof.RefRead
import proofs.«401892_j53961969107163_2_alg».proof.Proof.Spec
import proofs.«401892_j53961969107163_2_alg».proof.Proof.Inputs
import proofs.«401892_j53961969107163_2_alg».proof.Proof.Consts
import proofs.«401892_j53961969107163_2_alg».proof.Proof.RowGather
import proofs.«401892_j53961969107163_2_alg».proof.Proof.KTail
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.ReadP Cert.Spec Cert.Inputs
open Idealize.ShloMosaic Idealize.ShloMosaic.TcCoe Idealize.ShloMosaic.ValueIdx Idealize.SL.Sem

variable (x0 : (⟨S50000x64, .f32⟩ : BufTy).Contents (Elt Ideal)) (x1 : (⟨S2x1600000, .i32⟩ : BufTy).Contents (Elt Ideal))
  (x2 : (⟨S128x64, .f32⟩ : BufTy).Contents (Elt Ideal)) (x3 x4 x5 : (⟨S64, .f32⟩ : BufTy).Contents (Elt Ideal))
  (x6 : (⟨S64x64, .f32⟩ : BufTy).Contents (Elt Ideal)) (x7 x8 x9 : (⟨S64, .f32⟩ : BufTy).Contents (Elt Ideal))

/-! ## Coordinates

An index equation between two index functions is closed coordinate by coordinate. -/

local macro "idx_1" : tactic =>
  `(tactic| exact funext fun a => Fin.ext (by match a with | ⟨0, _⟩ => rfl))
local macro "idx_2" : tactic =>
  `(tactic| exact funext fun a => Fin.ext (by match a with | ⟨0, _⟩ => rfl | ⟨1, _⟩ => rfl))

/-! ## A vector spread over all edge rows reads its own column -/

theorem v22_at (e : Fin NE) (o : Fin 64) : val_main_v22 (F := Ideal) x3 (ix2 e o) = x3 (ix1 o) := by
  rw [val_main_v22_apply, val_main_v21_apply]; exact congrArg x3 (by idx_1)

theorem v44_at (e : Fin NE) (o : Fin 64) : val_main_v44 (F := Ideal) x4 (ix2 e o) = x4 (ix1 o) := by
  rw [val_main_v44_apply, val_main_v43_apply]; exact congrArg x4 (by idx_1)

theorem v47_at (e : Fin NE) (o : Fin 64) : val_main_v47 (F := Ideal) x5 (ix2 e o) = x5 (ix1 o) := by
  rw [val_main_v47_apply, val_main_v46_apply]; exact congrArg x5 (by idx_1)

theorem v52_at (e : Fin NE) (o : Fin 64) : val_main_v52 (F := Ideal) x7 (ix2 e o) = x7 (ix1 o) := by
  rw [val_main_v52_apply, val_main_v51_apply]; exact congrArg x7 (by idx_1)

theorem v74_at (e : Fin NE) (o : Fin 64) : val_main_v74 (F := Ideal) x8 (ix2 e o) = x8 (ix1 o) := by
  rw [val_main_v74_apply, val_main_v73_apply]; exact congrArg x8 (by idx_1)

theorem v77_at (e : Fin NE) (o : Fin 64) : val_main_v77 (F := Ideal) x9 (ix2 e o) = x9 (ix1 o) := by
  rw [val_main_v77_apply, val_main_v76_apply]; exact congrArg x9 (by idx_1)

theorem v28_at (e : Fin NE) (o : Fin 64) :
    val_main_v28 (F := Ideal) x0 x1 x2 x3 (ix2 e o) = val_main_v26 (F := Ideal) x0 x1 x2 x3 (ix1 o) := by
  rw [val_main_v28_apply, val_main_v27_apply]; exact congrArg (val_main_v26 (F := Ideal) x0 x1 x2 x3) (by idx_1)

theorem v35_at (e : Fin NE) (o : Fin 64) :
    val_main_v35 (F := Ideal) x0 x1 x2 x3 (ix2 e o) = val_main_v26 (F := Ideal) x0 x1 x2 x3 (ix1 o) := by
  rw [val_main_v35_apply, val_main_v34_apply]; exact congrArg (val_main_v26 (F := Ideal) x0 x1 x2 x3) (by idx_1)

theorem v41_at (e : Fin NE) (o : Fin 64) :
    val_main_v41 (F := Ideal) x0 x1 x2 x3 (ix2 e o) = val_main_v39 (F := Ideal) x0 x1 x2 x3 (ix1 o) := by
  rw [val_main_v41_apply, val_main_v40_apply]; exact congrArg (val_main_v39 (F := Ideal) x0 x1 x2 x3) (by idx_1)

theorem v58_at (e : Fin NE) (o : Fin 64) :
    val_main_v58 (F := Ideal) x0 x1 x2 x3 x4 x5 x6 x7 (ix2 e o) = val_main_v56 (F := Ideal) x0 x1 x2 x3 x4 x5 x6 x7 (ix1 o) := by
  rw [val_main_v58_apply, val_main_v57_apply]
  exact congrArg (val_main_v56 (F := Ideal) x0 x1 x2 x3 x4 x5 x6 x7) (by idx_1)

theorem v65_at (e : Fin NE) (o : Fin 64) :
    val_main_v65 (F := Ideal) x0 x1 x2 x3 x4 x5 x6 x7 (ix2 e o) = val_main_v56 (F := Ideal) x0 x1 x2 x3 x4 x5 x6 x7 (ix1 o) := by
  rw [val_main_v65_apply, val_main_v64_apply]
  exact congrArg (val_main_v56 (F := Ideal) x0 x1 x2 x3 x4 x5 x6 x7) (by idx_1)

theorem v71_at (e : Fin NE) (o : Fin 64) :
    val_main_v71 (F := Ideal) x0 x1 x2 x3 x4 x5 x6 x7 (ix2 e o) = val_main_v69 (F := Ideal) x0 x1 x2 x3 x4 x5 x6 x7 (ix1 o) := by
  rw [val_main_v71_apply, val_main_v70_apply]
  exact congrArg (val_main_v69 (F := Ideal) x0 x1 x2 x3 x4 x5 x6 x7) (by idx_1)

/-! ## The first layer -/

/-- The reference's edge rows by coordinates. -/
def edgeRows (e : Fin NE) (k : Fin 128) : EReal := val_main_v19 (F := Ideal) x0 x1 (ix2 e k)

/-- The first layer's affine map by coordinates. -/
def pre1 (e : Fin NE) (o : Fin 64) : EReal := val_main_v23 (F := Ideal) x0 x1 x2 x3 (ix2 e o)

/-- The first layer's activations by coordinates. -/
def act1 (e : Fin NE) (o : Fin 64) : EReal := val_main_v49 (F := Ideal) x0 x1 x2 x3 x4 x5 (ix2 e o)

/-- The contraction over the 128 row entries plus the bias. -/
theorem pre1_eq : pre1 x0 x1 x2 x3 = lin (edgeRows x0 x1) (M2 x2) (M1 x3) := by
  funext e o
  unfold pre1 lin edgeRows M2 M1
  rw [val_main_v23_apply, val_main_v20_apply, v22_at, Ideal.addf_def]
  refine congrArg (· + x3 (ix1 o)) (Finset.sum_congr rfl fun k _ => ?_)
  exact congrArg₂ (· * ·) (congrArg (val_main_v19 (F := Ideal) x0 x1) (by idx_2)) (congrArg x2 (by idx_2))

/-- A column's mean: its sum over all edges, from zero, over the edge count. -/
theorem mean1_at (o : Fin 64) :
    val_main_v26 (F := Ideal) x0 x1 x2 x3 (ix1 o) = meanR (pre1 x0 x1 x2 x3) o := by
  unfold meanR pre1
  rw [val_main_v26_apply, val_main_v24_apply, val_main_v25_apply, val_main_cst_3_apply, val_main_cst_apply,
    Ideal.hostDivf_def]
  simp only [Ideal.ofBits_def]
  rw [Cert.Consts.ofBits_zero, Cert.Consts.ofBits_cnt, zero_add]
  refine congrArg₂ Ideal.div (Finset.sum_congr rfl fun k _ => ?_) rfl
  exact congrArg (val_main_v23 (F := Ideal) x0 x1 x2 x3) (by idx_2)

/-- An entry's deviation from its column's mean. -/
theorem dev1_at (e : Fin NE) (o : Fin 64) :
    val_main_v29 (F := Ideal) x0 x1 x2 x3 (ix2 e o) = pre1 x0 x1 x2 x3 e o - meanR (pre1 x0 x1 x2 x3) o := by
  rw [val_main_v29_apply, v28_at, mean1_at, Ideal.subf_def]
  rfl

/-- A column's variance: the squared deviations summed over all edges, from zero, over the edge count. -/
theorem var1_at (o : Fin 64) :
    val_main_v33 (F := Ideal) x0 x1 x2 x3 (ix1 o) = varR (pre1 x0 x1 x2 x3) o := by
  unfold varR
  rw [val_main_v33_apply, val_main_v31_apply, val_main_v32_apply, val_main_cst_5_apply, val_main_cst_4_apply,
    Ideal.hostDivf_def]
  simp only [Ideal.ofBits_def]
  rw [Cert.Consts.ofBits_zero, Cert.Consts.ofBits_cnt, zero_add]
  refine congrArg₂ Ideal.div (Finset.sum_congr rfl fun k _ => ?_) rfl
  rw [val_main_v30_apply, show idx_main_v31 (ix1 o) k = ix2 k o from by idx_2, dev1_at, Ideal.mulf_def]

/-- A column's inverse standard deviation, the variance floored by the same word as in the specification. -/
theorem rstd1_at (o : Fin 64) :
    val_main_v39 (F := Ideal) x0 x1 x2 x3 (ix1 o) = Ideal.rsqrt (varR (pre1 x0 x1 x2 x3) o + eps) := by
  unfold eps
  rw [val_main_v39_apply, val_main_v38_apply, var1_at, val_main_v37_apply, val_main_cst_6_apply,
    Ideal.hostUnary_rsqrt_def, Ideal.addf_def, Ideal.ofBits_def]

/-- Normalise, scale, shift, clip below at zero. -/
theorem act1_eq : act1 x0 x1 x2 x3 x4 x5 = hn1R (edgeRows x0 x1) (M2 x2) (M1 x3) (M1 x4) (M1 x5) := by
  funext e o
  unfold act1 hn1R
  rw [← pre1_eq]
  unfold bnrelu M1
  rw [val_main_v49_apply, val_main_v48_apply, val_main_v45_apply, val_main_v42_apply, val_main_v36_apply,
    v35_at, mean1_at, v41_at, rstd1_at, v44_at, v47_at, val_main_call0_v0_apply, val_main_call0_cst_apply]
  simp only [Ideal.maximumf_def, Ideal.addf_def, Ideal.mulf_def, Ideal.subf_def, Ideal.ofBits_def]
  rw [Cert.Consts.ofBits_zero]
  rfl

/-! ## The second layer -/

/-- The second layer's affine map by coordinates. -/
def pre2 (e : Fin NE) (o : Fin 64) : EReal := val_main_v53 (F := Ideal) x0 x1 x2 x3 x4 x5 x6 x7 (ix2 e o)

/-- The contraction over the 64 first-layer activations plus the bias. -/
theorem pre2_eq : pre2 x0 x1 x2 x3 x4 x5 x6 x7 = lin (act1 x0 x1 x2 x3 x4 x5) (M2 x6) (M1 x7) := by
  funext e o
  unfold pre2 lin act1 M2 M1
  rw [val_main_v53_apply, val_main_v50_apply, v52_at, Ideal.addf_def]
  refine congrArg (· + x7 (ix1 o)) (Finset.sum_congr rfl fun k _ => ?_)
  exact congrArg₂ (· * ·) (congrArg (val_main_v49 (F := Ideal) x0 x1 x2 x3 x4 x5) (by idx_2)) (congrArg x6 (by idx_2))

/-- A column's mean: its sum over all edges, from zero, over the edge count. -/
theorem mean2_at (o : Fin 64) :
    val_main_v56 (F := Ideal) x0 x1 x2 x3 x4 x5 x6 x7 (ix1 o) = meanR (pre2 x0 x1 x2 x3 x4 x5 x6 x7) o := by
  unfold meanR pre2
  rw [val_main_v56_apply, val_main_v54_apply, val_main_v55_apply, val_main_cst_8_apply, val_main_cst_7_apply,
    Ideal.hostDivf_def]
  simp only [Ideal.ofBits_def]
  rw [Cert.Consts.ofBits_zero, Cert.Consts.ofBits_cnt, zero_add]
  refine congrArg₂ Ideal.div (Finset.sum_congr rfl fun k _ => ?_) rfl
  exact congrArg (val_main_v53 (F := Ideal) x0 x1 x2 x3 x4 x5 x6 x7) (by idx_2)

/-- An entry's deviation from its column's mean. -/
theorem dev2_at (e : Fin NE) (o : Fin 64) :
    val_main_v59 (F := Ideal) x0 x1 x2 x3 x4 x5 x6 x7 (ix2 e o)
      = pre2 x0 x1 x2 x3 x4 x5 x6 x7 e o - meanR (pre2 x0 x1 x2 x3 x4 x5 x6 x7) o := by
  rw [val_main_v59_apply, v58_at, mean2_at, Ideal.subf_def]
  rfl

/-- A column's variance: the squared deviations summed over all edges, from zero, over the edge count. -/
theorem var2_at (o : Fin 64) :
    val_main_v63 (F := Ideal) x0 x1 x2 x3 x4 x5 x6 x7 (ix1 o) = varR (pre2 x0 x1 x2 x3 x4 x5 x6 x7) o := by
  unfold varR
  rw [val_main_v63_apply, val_main_v61_apply, val_main_v62_apply, val_main_cst_10_apply, val_main_cst_9_apply,
    Ideal.hostDivf_def]
  simp only [Ideal.ofBits_def]
  rw [Cert.Consts.ofBits_zero, Cert.Consts.ofBits_cnt, zero_add]
  refine congrArg₂ Ideal.div (Finset.sum_congr rfl fun k _ => ?_) rfl
  rw [val_main_v60_apply, show idx_main_v61 (ix1 o) k = ix2 k o from by idx_2, dev2_at, Ideal.mulf_def]

/-- A column's inverse standard deviation, the variance floored by the same word as in the specification. -/
theorem rstd2_at (o : Fin 64) :
    val_main_v69 (F := Ideal) x0 x1 x2 x3 x4 x5 x6 x7 (ix1 o)
      = Ideal.rsqrt (varR (pre2 x0 x1 x2 x3 x4 x5 x6 x7) o + eps) := by
  unfold eps
  rw [val_main_v69_apply, val_main_v68_apply, var2_at, val_main_v67_apply, val_main_cst_11_apply,
    Ideal.hostUnary_rsqrt_def, Ideal.addf_def, Ideal.ofBits_def]

/-- Normalise, scale, shift, clip below at zero. -/
theorem act2_at (e : Fin NE) (o : Fin 64) :
    val_main_v79 (F := Ideal) x0 x1 x2 x3 x4 x5 x6 x7 x8 x9 (ix2 e o)
      = bnrelu (pre2 x0 x1 x2 x3 x4 x5 x6 x7) (meanR (pre2 x0 x1 x2 x3 x4 x5 x6 x7))
          (varR (pre2 x0 x1 x2 x3 x4 x5 x6 x7)) (M1 x8) (M1 x9) e o := by
  unfold bnrelu M1
  rw [val_main_v79_apply, val_main_v78_apply, val_main_v75_apply, val_main_v72_apply, val_main_v66_apply,
    v65_at, mean2_at, v71_at, rstd2_at, v74_at, v77_at, val_main_call1_v0_apply, val_main_call1_cst_apply]
  simp only [Ideal.maximumf_def, Ideal.addf_def, Ideal.mulf_def, Ideal.subf_def, Ideal.ofBits_def]
  rw [Cert.Consts.ofBits_zero]
  rfl

/-! ## The edge rows

Under the range fact a node number is non-negative as a signed word, so the wrap-around select keeps it, and it is
below the node count, so the gather's clamp keeps it: a gathered row is that node's row of the features. -/

/-- The target-node vector is row 1 of the edge array. -/
theorem dst_at (e : Fin NE) : val_main_v3 (F := Ideal) x1 (ix1 e) = x1 (ix2 (1 : Fin 2) e) := by
  rw [val_main_v3_apply, val_main_v2_apply]
  exact congrArg x1 (funext fun a => Fin.ext (by
    match a with
    | ⟨0, _⟩ => rfl
    | ⟨1, _⟩ => exact Nat.mod_eq_of_lt e.isLt))

/-- The source-node vector is row 0 of the edge array. -/
theorem src_at (e : Fin NE) : val_main_v1 (F := Ideal) x1 (ix1 e) = x1 (ix2 (0 : Fin 2) e) := by
  rw [val_main_v1_apply, val_main_v0_apply]
  exact congrArg x1 (funext fun a => Fin.ext (by
    match a with
    | ⟨0, _⟩ => rfl
    | ⟨1, _⟩ => exact Nat.mod_eq_of_lt e.isLt))

/-- A word below the node count is not negative, so "if negative add the node count" leaves it alone. -/
theorem keep_of_small (w a : BitVec 32) (hw : w.toNat < 50000) :
    Scalar.select (IntOp.cmpi .slt w 0#32) a w = w := by
  have hz : IntOp.cmpi .slt w 0#32 = 0#1 :=
    eq_zero_of_ne_one fun h =>
      Nat.not_lt_zero _ ((StableHlo.Predicate.slt_iff_toNat (by omega) (by decide)).mp h)
  rw [hz, select_zero]

/-- The target gather's start index at edge e is the edge's target node. -/
theorem dstIdx_at (hidx : ∀ i, (x1 i).toNat < 50000) (e : Fin NE) :
    val_main_v9 (F := Ideal) x1 (ix2 e (0 : Fin 1)) = x1 (ix2 (1 : Fin 2) e) := by
  rw [val_main_v9_apply, show idx_main_v9 (ix2 e (0 : Fin 1)) = ix1 e from by idx_1,
    val_main_v8_apply, val_main_v5_apply, val_main_v4_apply, val_main_c_apply, dst_at]
  exact keep_of_small _ _ (hidx _)

/-- The source gather's start index at edge e is the edge's source node. -/
theorem srcIdx_at (hidx : ∀ i, (x1 i).toNat < 50000) (e : Fin NE) :
    val_main_v16 (F := Ideal) x1 (ix2 e (0 : Fin 1)) = x1 (ix2 (0 : Fin 2) e) := by
  rw [val_main_v16_apply, show idx_main_v16 (ix2 e (0 : Fin 1)) = ix1 e from by idx_1,
    val_main_v15_apply, val_main_v12_apply, val_main_v11_apply, val_main_c_1_apply, src_at]
  exact keep_of_small _ _ (hidx _)

/-- The target gather reads the target node's row. -/
theorem gatherDst_at (hidx : ∀ i, (x1 i).toNat < 50000) (e : Fin NE) (c : Fin 64) :
    val_main_v10 (F := Ideal) x0 x1 (ix2 e c) = x0 (ix2 (nodeOf x1 hidx 1 e) c) := by
  have h9 := dstIdx_at x1 hidx e
  have hlt : (val_main_v9 (F := Ideal) x1 (ix2 e (0 : Fin 1))).toNat < 50000 := by rw [h9]; exact hidx _
  unfold val_main_v10
  refine (Cert.RowGather.gather_rows_apply (N := 50000) (C := 64) (R := 1600000) (by norm_num)
    gather_S50000x64_S1600000x1_S1600000x64_1_0_n_n_0_1_164_wf x0 (val_main_v9 (F := Ideal) x1) e c hlt).trans ?_
  have hn : (⟨(val_main_v9 (F := Ideal) x1 (ix2 e (0 : Fin 1))).toNat, hlt⟩ : Fin 50000) = nodeOf x1 hidx 1 e := by
    refine Fin.ext ?_
    show (val_main_v9 (F := Ideal) x1 (ix2 e (0 : Fin 1))).toNat = (x1 (ix2 (1 : Fin 2) e)).toNat
    rw [h9]
  rw [hn]

/-- The source gather reads the source node's row. -/
theorem gatherSrc_at (hidx : ∀ i, (x1 i).toNat < 50000) (e : Fin NE) (c : Fin 64) :
    val_main_v17 (F := Ideal) x0 x1 (ix2 e c) = x0 (ix2 (nodeOf x1 hidx 0 e) c) := by
  have h16 := srcIdx_at x1 hidx e
  have hlt : (val_main_v16 (F := Ideal) x1 (ix2 e (0 : Fin 1))).toNat < 50000 := by rw [h16]; exact hidx _
  unfold val_main_v17
  refine (Cert.RowGather.gather_rows_apply (N := 50000) (C := 64) (R := 1600000) (by norm_num)
    gather_S50000x64_S1600000x1_S1600000x64_1_0_n_n_0_1_164_wf x0 (val_main_v16 (F := Ideal) x1) e c hlt).trans ?_
  have hn : (⟨(val_main_v16 (F := Ideal) x1 (ix2 e (0 : Fin 1))).toNat, hlt⟩ : Fin 50000) = nodeOf x1 hidx 0 e := by
    refine Fin.ext ?_
    show (val_main_v16 (F := Ideal) x1 (ix2 e (0 : Fin 1))).toNat = (x1 (ix2 (0 : Fin 2) e)).toNat
    rw [h16]
  rw [hn]

/-- The joined row: the target's features in the first 64 columns, source minus target in the last 64. -/
theorem cat_at (e : Fin NE) (k : Fin 128) :
    val_main_v19 (F := Ideal) x0 x1 (ix2 e k)
      = if hk : k.val < 64 then val_main_v10 (F := Ideal) x0 x1 (ix2 e ⟨k.val, hk⟩)
        else val_main_v18 (F := Ideal) x0 x1 (ix2 e ⟨k.val - 64, by omega⟩) := by
  unfold val_main_v19
  exact Cert.RowGather.concat_cols_apply (R := 1600000) (A := 64) (B := 64) (T := 128) rfl
    (val_main_v10 (F := Ideal) x0 x1) (val_main_v18 (F := Ideal) x0 x1)
    concatenates_S1600000x64_S1600000x64_S1600000x128_d1 e k

/-- The reference's edge rows are the specification's. -/
theorem edgeRows_eq (hidx : ∀ i, (x1 i).toNat < 50000) : edgeRows x0 x1 = rows x0 x1 hidx := by
  funext e k
  unfold edgeRows rows h0 M2
  rw [cat_at]
  by_cases hk : k.val < 64
  · rw [dif_pos hk, dif_pos hk, gatherDst_at x0 x1 hidx]
  · rw [dif_neg hk, dif_neg hk, val_main_v18_apply, gatherSrc_at x0 x1 hidx, gatherDst_at x0 x1 hidx, Ideal.subf_def]

/-- The second layer's activations, edge by edge and column by column. -/
theorem hn2_at (hidx : ∀ i, (x1 i).toNat < 50000) (e : Fin NE) (o : Fin 64) :
    val_main_v79 (F := Ideal) x0 x1 x2 x3 x4 x5 x6 x7 x8 x9 (ix2 e o)
      = hn2R (rows x0 x1 hidx) (M2 x2) (M1 x3) (M1 x4) (M1 x5) (M2 x6) (M1 x7) (M1 x8) (M1 x9) e o := by
  rw [act2_at, pre2_eq, act1_eq, edgeRows_eq x0 x1 hidx]
  rfl

/-- The result is the scatter-mean of those activations by the target nodes. -/
theorem result_tail :
    val_main_v91 (F := Ideal) x0 x1 x2 x3 x4 x5 x6 x7 x8 x9
      = Cert.KernelIdeal.KTail.tail (val_main_v79 (F := Ideal) x0 x1 x2 x3 x4 x5 x6 x7 x8 x9) (Cert.KernelIdeal.KTail.dstOf x1) := by
  unfold val_main_v91 val_main_v90 val_main_v89 val_main_v88 val_main_v87 val_main_v86 val_main_v85 val_main_v84
    val_main_v83 val_main_v82 val_main_v81 val_main_v80 val_main_cst_12 val_main_cst_13 val_main_cst_14 val_main_cst_15
    val_main_v3 val_main_v2
  unfold Cert.KernelIdeal.KTail.tail Cert.KernelIdeal.KTail.dstOf
  rfl

end Cert.ReferenceIdeal.RefValue

end
-- ==== Proof.lean ====
/-
  The two programs compute the same scatter-mean of the same edge activations.

  Both gather a source and a target row of node features per edge, form the row (target, source − target), apply
  two affine layers each followed by a batch normalisation over all 1600000 edges, a scale, a shift and a clip at
  zero, and average the resulting rows per target node.  The kernel program obtains each layer's column mean and
  variance from per-half sums and sums of squares (variance = mean of squares − squared mean, floored at zero),
  the reference from the whole column (variance = mean squared deviation).  On finite inputs with every edge entry
  a node number these agree: regrouping a finite sum, the identity  E[h²] − E[h]² = E[(h − E[h])²],  and that
  quantity being non-negative.  The precondition supplies exactly that: every float entry is finite and every
  entry of the edge array lies in [0, 50000), so a gathered row is a row of the node features on both sides.

  The kernel's and the idealized kernel's frames are the generated ones; the reference's frame is its run
  with the result dropped; the idealization rewrote no operation.
-/
import proofs.«401892_j53961969107163_2_alg».proof.Defs
import proofs.«401892_j53961969107163_2_alg».proof.Proof.Gen.Kernel
import proofs.«401892_j53961969107163_2_alg».proof.Proof.Gen.Kernel.Frame
import proofs.«401892_j53961969107163_2_alg».proof.Proof.Gen.KernelIdeal
import proofs.«401892_j53961969107163_2_alg».proof.Proof.Gen.KernelIdeal.Frame
import proofs.«401892_j53961969107163_2_alg».proof.Proof.Gen.ReferenceIdeal
import proofs.«401892_j53961969107163_2_alg».proof.Proof.RefRun
import proofs.«401892_j53961969107163_2_alg».proof.Proof.RefRead
import proofs.«401892_j53961969107163_2_alg».proof.Proof.Gen.Pre_finite_inputs
import proofs.«401892_j53961969107163_2_alg».proof.Proof.Spec
import proofs.«401892_j53961969107163_2_alg».proof.Proof.Inputs
import proofs.«401892_j53961969107163_2_alg».proof.Proof.Algebra
import proofs.«401892_j53961969107163_2_alg».proof.Proof.PreFacts
import proofs.«401892_j53961969107163_2_alg».proof.Proof.KTail
import proofs.«401892_j53961969107163_2_alg».proof.Proof.KernelRun
import proofs.«401892_j53961969107163_2_alg».proof.Proof.KernelValue
import proofs.«401892_j53961969107163_2_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem
open Cert.Spec Cert.Inputs

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Every entry of a rank-2 array of reals, read by coordinates, is a real. -/
theorem fin2_M2 {A B : Nat} (a : (⟨2, ![A, B]⟩ : Shape).Idx → EReal) (h : ∀ i, ∃ r : ℝ, a i = (r : EReal)) : Fin2 (M2 a) :=
  fun i j => h (ix2 i j)

/-- Every entry of a rank-1 array of reals, read by its coordinate, is a real. -/
theorem fin1_M1 {A : Nat} (a : (⟨1, ![A]⟩ : Shape).Idx → EReal) (h : ∀ i, ∃ r : ℝ, a i = (r : EReal)) : Fin1 (M1 a) :=
  fun i => h (ix1 i)

theorem algebraic : Cert.algebraic_KernelIdeal_ReferenceIdeal := by
  intro m ρ m' ρ' hpre hagree
  have hd : ∀ c : Dev Cert.KernelIdeal.nD, Cert.PreFacts.Dom (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) :=
    fun c => Cert.PreFacts.dom_of_pre _ _ _ _ _ _ _ _ _ _ (hpre c)
  refine ⟨fun c => Cert.KernelIdeal.KTail.tail (Cert.KernelIdeal.KValue.outArr m c (hd c).idx)
      (Cert.KernelIdeal.KTail.dstOf (m ((c.tc : Thread Cert.KernelIdeal.nD Cert.KernelIdeal.τ).loc Cert.KernelIdeal.main_arg1))), ?_, ?_⟩
  · exact (θ_run Cert.KernelIdeal.defs _ _).mono
      (fun r h c => ⟨(h c).1.trans (Cert.KernelIdeal.KValue.result_eq m ρ c (hd c).idx), (h c).2⟩)
      (Cert.KernelIdeal.KRun.run_named (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9⟩ := hagree c
    rw [Cert.ReferenceIdeal.ReadP.val_main_v91_eq, e0, e1, e2, e3, e4, e5, e6, e7, e8, e9,
      Cert.ReferenceIdeal.RefValue.result_tail]
    congr 1
    funext i
    obtain ⟨e, o, rfl⟩ : ∃ (e : Fin NE) (o : Fin 64), i = ix2 e o := ⟨i 0, i 1, eq_ix2 i⟩
    rw [Cert.ReferenceIdeal.RefValue.hn2_at _ _ _ _ _ _ _ _ _ _ (hd c).idx e o]
    have hx := fin2_M2 _ (hd c).x
    exact (congrFun (congrFun (Cert.Algebra.hn2K_eq_hn2R _ _ _ _ _ _ _ _ _
      (Cert.Algebra.fin_h0 _ _ _ hx) (fin2_M2 _ (hd c).w1) (fin1_M1 _ (hd c).b1) (fin1_M1 _ (hd c).g1) (fin1_M1 _ (hd c).be1)
      (fin2_M2 _ (hd c).w2) (fin1_M1 _ (hd c).b2) (fin1_M1 _ (hd c).g2) (fin1_M1 _ (hd c).be2)) e) o).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
